-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128 : Shape := ⟨2, ![256, 128]⟩
abbrev S2x2048 : Shape := ⟨2, ![2, 2048]⟩
abbrev S128x512 : Shape := ⟨2, ![128, 512]⟩
abbrev S512 : Shape := ⟨1, ![512]⟩
abbrev S512x512 : Shape := ⟨2, ![512, 512]⟩
abbrev S65536x32 : Shape := ⟨2, ![65536, 32]⟩
abbrev S32 : Shape := ⟨1, ![32]⟩
abbrev S_ : Shape := ⟨0, ![]⟩

class Facts : Prop where
  bcast_S_S256x128 : S_.BroadcastsInDim S256x128 (![] : Fin 0 → Fin S256x128.rank)
  reducesTo_S256x128_S_d0_1 : S256x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S65536x32 : S_.BroadcastsInDim S65536x32 (![] : Fin 0 → Fin S65536x32.rank)
  reducesTo_S65536x32_S_d0_1 : S65536x32.ReducesTo [0, 1] S_
  bcast_S_S32 : S_.BroadcastsInDim S32 (![] : Fin 0 → Fin S32.rank)
  reducesTo_S32_S_d0 : S32.ReducesTo [0] S_
  bcast_S_S2x2048 : S_.BroadcastsInDim S2x2048 (![] : Fin 0 → Fin S2x2048.rank)
  reducesTo_S2x2048_S_d0_1 : S2x2048.ReducesTo [0, 1] S_

variable [Facts]

def fn_part2 {F : FTy → Type} [FloatOps F] (main_arg1 : IVec S2x2048 32) (main_v33 : IVec S_ 1) : IVec S_ 1 :=
  let main_c_12 : IVec S_ 32 := constantI S_ 32 0#32
  let main_v34 : IVec S2x2048 32 := broadcastInDim S2x2048 ![] bcast_S_S2x2048 main_c_12
  let main_v35 : IVec S2x2048 1 := cmpi .sge main_arg1 main_v34
  let main_c_13 : IVec S_ 1 := constantI S_ 1 1#1
  let main_v36 : IVec S_ 1 := (fun x v => Host.reduce IntOp.andi x v reducesTo_S2x2048_S_d0_1 h_S_) main_v35 main_c_13
  let main_v37 : IVec S_ 1 := andi main_v33 main_v36
  let main_c_14 : IVec S_ 32 := constantI S_ 32 128#32
  let main_v38 : IVec S2x2048 32 := broadcastInDim S2x2048 ![] bcast_S_S2x2048 main_c_14
  let main_v39 : IVec S2x2048 1 := cmpi .slt main_arg1 main_v38
  let main_c_15 : IVec S_ 1 := constantI S_ 1 1#1
  let main_v40 : IVec S_ 1 := (fun x v => Host.reduce IntOp.andi x v reducesTo_S2x2048_S_d0_1 h_S_) main_v39 main_c_15
  let main_v41 : IVec S_ 1 := andi main_v37 main_v40
  main_v41

def fn_part1 {F : FTy → Type} [FloatOps F] (main_arg1 : IVec S2x2048 32) (main_arg5 : FVec F S512 .f32) (main_arg6 : FVec F S65536x32 .f32) (main_arg7 : FVec F S32 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S65536x32 .f32 := Host.absf main_arg6
  let main_cst_8 : FVec F S_ .f32 := constant S_ .f32 0x7F800000#32
  let main_v25 : FVec F S65536x32 .f32 := broadcastInDim S65536x32 ![] bcast_S_S65536x32 main_cst_8
  let main_v26 : IVec S65536x32 1 := cmpf .olt main_v24 main_v25
  let main_c_9 : IVec S_ 1 := constantI S_ 1 1#1
  let main_v27 : IVec S_ 1 := (fun x v => Host.reduce IntOp.andi x v reducesTo_S65536x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg1 main_v33

def fn {F : FTy → Type} [FloatOps F] (main_arg0 : FVec F S256x128 .f32) (main_arg1 : IVec S2x2048 32) (main_arg2 : FVec F S128x512 .f32) (main_arg3 : FVec F S512 .f32) (main_arg4 : FVec F S512x512 .f32) (main_arg5 : FVec F S512 .f32) (main_arg6 : FVec F S65536x32 .f32) (main_arg7 : FVec F S32 .f32) : IVec S_ 1 :=
  let main_v0 : FVec F S256x128 .f32 := Host.absf main_arg0
  let main_cst : FVec F S_ .f32 := constant S_ .f32 0x7F800000#32
  let main_v1 : FVec F S256x128 .f32 := broadcastInDim S256x128 ![] bcast_S_S256x128 main_cst
  let main_v2 : IVec S256x128 1 := cmpf .olt main_v0 main_v1
  let main_c : IVec S_ 1 := constantI S_ 1 1#1
  let main_v3 : IVec S_ 1 := (fun x v => Host.reduce IntOp.andi x v reducesTo_S256x128_S_d0_1 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg1 main_arg5 main_arg6 main_arg7 main_v13 main_v16
-- ==== Kernel.lean ====
abbrev S256x128 : Shape := ⟨2, ![256, 128]⟩
abbrev S2x2048 : Shape := ⟨2, ![2, 2048]⟩
abbrev S128x512 : Shape := ⟨2, ![128, 512]⟩
abbrev S512 : Shape := ⟨1, ![512]⟩
abbrev S512x512 : Shape := ⟨2, ![512, 512]⟩
abbrev S65536x32 : Shape := ⟨2, ![65536, 32]⟩
abbrev S32 : Shape := ⟨1, ![32]⟩
abbrev S_ : Shape := ⟨0, ![]⟩
abbrev S1x2048 : Shape := ⟨2, ![1, 2048]⟩
abbrev S2048 : Shape := ⟨1, ![2048]⟩
abbrev S128x128 : Shape := ⟨2, ![128, 128]⟩
abbrev S2048x1 : Shape := ⟨2, ![2048, 1]⟩
abbrev S2048x2 : Shape := ⟨2, ![2048, 2]⟩
abbrev S128 : Shape := ⟨1, ![128]⟩
abbrev S32x65536 : Shape := ⟨2, ![32, 65536]⟩
abbrev S1x1x512 : Shape := ⟨3, ![1, 1, 512]⟩
abbrev S1x512 : Shape := ⟨2, ![1, 512]⟩
abbrev S1x32 : Shape := ⟨2, ![1, 32]⟩
abbrev S1x128x1 : Shape := ⟨3, ![1, 128, 1]⟩
abbrev S256x128x512 : Shape := ⟨3, ![256, 128, 512]⟩
abbrev S16x128 : Shape := ⟨2, ![16, 128]⟩
abbrev S16x128x512 : Shape := ⟨3, ![16, 128, 512]⟩
abbrev S16x512 : Shape := ⟨2, ![16, 512]⟩
abbrev S16x1x512 : Shape := ⟨3, ![16, 1, 512]⟩
abbrev S1x128x128 : Shape := ⟨3, ![1, 128, 128]⟩
abbrev S16x128x128 : Shape := ⟨3, ![16, 128, 128]⟩
abbrev S2048x512 : Shape := ⟨2, ![2048, 512]⟩
abbrev S256x65536 : Shape := ⟨2, ![256, 65536]⟩
abbrev S256x32 : Shape := ⟨2, ![256, 32]⟩
abbrev S128x8192 : Shape := ⟨2, ![128, 8192]⟩
abbrev S32x8192 : Shape := ⟨2, ![32, 8192]⟩
abbrev S128x32 : Shape := ⟨2, ![128, 32]⟩

abbrev nBuf : Space → Nat
  | .hbm => 64
  | .vmem => 18
  | .smem => 0
  | _ => 0

abbrev bufTy : (tb : Table) → Fin (tcTables nBuf tb) → BufTy
  | .hbm, ⟨0, _⟩ => ⟨S256x128, .f32⟩
  | .hbm, ⟨1, _⟩ => ⟨S2x2048, .i32⟩
  | .hbm, ⟨2, _⟩ => ⟨S128x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S65536x32, .f32⟩
  | .hbm, ⟨7, _⟩ => ⟨S32, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2x2048, .i32⟩
  | .hbm, ⟨12, _⟩ => ⟨S2x2048, .i32⟩
  | .hbm, ⟨13, _⟩ => ⟨S_, .i32⟩
  | .hbm, ⟨14, _⟩ => ⟨S2x2048, .i32⟩
  | .hbm, ⟨15, _⟩ => ⟨S2x2048, .i32⟩
  | .hbm, ⟨16, _⟩ => ⟨S1x2048, .i32⟩
  | .hbm, ⟨17, _⟩ => ⟨S2048, .i32⟩
  | .hbm, ⟨18, _⟩ => ⟨S1x2048, .i32⟩
  | .hbm, ⟨19, _⟩ => ⟨S2048, .i32⟩
  | .hbm, ⟨20, _⟩ => ⟨S_, .f32⟩
  | .hbm, ⟨21, _⟩ => ⟨S128x128, .f32⟩
  | .hbm, ⟨22, _⟩ => ⟨S_, .i32⟩
  | .hbm, ⟨23, _⟩ => ⟨S2048, .i32⟩
  | .hbm, ⟨24, _⟩ => ⟨S2048, .i1⟩
  | .hbm, ⟨25, _⟩ => ⟨S_, .i32⟩
  | .hbm, ⟨26, _⟩ => ⟨S2048, .i32⟩
  | .hbm, ⟨27, _⟩ => ⟨S2048, .i32⟩
  | .hbm, ⟨28, _⟩ => ⟨S2048, .i32⟩
  | .hbm, ⟨29, _⟩ => ⟨S_, .i32⟩
  | .hbm, ⟨30, _⟩ => ⟨S2048, .i32⟩
  | .hbm, ⟨31, _⟩ => ⟨S2048, .i1⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S2048, .i32⟩
  | .hbm, ⟨36, _⟩ => ⟨S2048x1, .i32⟩
  | .hbm, ⟨37, _⟩ => ⟨S2048x1, .i32⟩
  | .hbm, ⟨38, _⟩ => ⟨S2048x2, .i32⟩
  | .hbm, ⟨39, _⟩ => ⟨S_, .f32⟩
  | .hbm, ⟨40, _⟩ => ⟨S2048, .f32⟩
  | .hbm, ⟨41, _⟩ => ⟨S128x128, .f32⟩
  | .hbm, ⟨42, _⟩ => ⟨S128x128, .i32⟩
  | .hbm, ⟨43, _⟩ => ⟨S128x128, .i32⟩
  | .hbm, ⟨44, _⟩ => ⟨S_, .i32⟩
  | .hbm, ⟨45, _⟩ => ⟨S128x128, .i32⟩
  | .hbm, ⟨46, _⟩ => ⟨S128x128, .i32⟩
  | .hbm, ⟨47, _⟩ => ⟨S128x128, .i1⟩
  | .hbm, ⟨48, _⟩ => ⟨S128x128, .f32⟩
  | .hbm, ⟨49, _⟩ => ⟨S128x128, .f32⟩
  | .hbm, ⟨50, _⟩ => ⟨S_, .f32⟩
  | .hbm, ⟨51, _⟩ => ⟨S128, .f32⟩
  | .hbm, ⟨52, _⟩ => ⟨S128x512, .bf16⟩
  | .hbm, ⟨53, _⟩ => ⟨S512x512, .bf16⟩
  | .hbm, ⟨54, _⟩ => ⟨S128x128, .bf16⟩
  | .hbm, ⟨55, _⟩ => ⟨S32x65536, .f32⟩
  | .hbm, ⟨56, _⟩ => ⟨S32x65536, .bf16⟩
  | .hbm, ⟨57, _⟩ => ⟨S1x1x512, .f32⟩
  | .hbm, ⟨58, _⟩ => ⟨S1x512, .f32⟩
  | .hbm, ⟨59, _⟩ => ⟨S1x32, .f32⟩
  | .hbm, ⟨60, _⟩ => ⟨S1x128x1, .f32⟩
  | .hbm, ⟨61, _⟩ => ⟨S256x128x512, .bf16⟩
  | .hbm, ⟨62, _⟩ => ⟨S256x65536, .bf16⟩
  | .hbm, ⟨63, _⟩ => ⟨S256x32, .f32⟩
  | .local _ .vmem, ⟨0, _⟩ => ⟨S16x128, .f32⟩
  | .local _ .vmem, ⟨1, _⟩ => ⟨S16x128, .f32⟩
  | .local _ .vmem, ⟨2, _⟩ => ⟨S128x512, .bf16⟩
  | .local _ .vmem, ⟨3, _⟩ => ⟨S1x1x512, .f32⟩
  | .local _ .vmem, ⟨4, _⟩ => ⟨S1x128x1, .f32⟩
  | .local _ .vmem, ⟨5, _⟩ => ⟨S128x128, .bf16⟩
  | .local _ .vmem, ⟨6, _⟩ => ⟨S512x512, .bf16⟩
  | .local _ .vmem, ⟨7, _⟩ => ⟨S1x512, .f32⟩
  | .local _ .vmem, ⟨8, _⟩ => ⟨S16x128x512, .bf16⟩
  | .local _ .vmem, ⟨9, _⟩ => ⟨S16x128x512, .bf16⟩
  | .local _ .vmem, ⟨10, _⟩ => ⟨S128x8192, .bf16⟩
  | .local _ .vmem, ⟨11, _⟩ => ⟨S128x8192, .bf16⟩
  | .local _ .vmem, ⟨12, _⟩ => ⟨S32x8192, .bf16⟩
  | .local _ .vmem, ⟨13, _⟩ => ⟨S32x8192, .bf16⟩
  | .local _ .vmem, ⟨14, _⟩ => ⟨S1x32, .f32⟩
  | .local _ .vmem, ⟨15, _⟩ => ⟨S128x32, .f32⟩
  | .local _ .vmem, ⟨16, _⟩ => ⟨S128x32, .f32⟩
  | .local _ .vmem, ⟨17, _⟩ => ⟨S128x32, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_c_1 : Ref sig .tc := ⟨.hbm, 22, rfl⟩
abbrev main_v6 : Ref sig .tc := ⟨.hbm, 23, rfl⟩
abbrev main_v7 : Ref sig .tc := ⟨.hbm, 24, rfl⟩
abbrev main_c_2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_3 : Ref sig .tc := ⟨.hbm, 29, rfl⟩
abbrev main_v11 : Ref sig .tc := ⟨.hbm, 30, rfl⟩
abbrev main_v12 : Ref sig .tc := ⟨.hbm, 31, rfl⟩
abbrev main_c_4 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_7 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S32x8192 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S128x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S_S2x2048 : S_.BroadcastsInDim S2x2048 (![] : Fin 0 → Fin S2x2048.rank)
  slices_S2x2048_S1x2048_0_0 : S2x2048.Slices ![0, 0] S1x2048
  shapeCasts_S1x2048_S2048 : S1x2048.ShapeCasts S2048
  slices_S2x2048_S1x2048_1_0 : S2x2048.Slices ![1, 0] S1x2048
  bcast_S_S128x128 : S_.BroadcastsInDim S128x128 (![] : Fin 0 → Fin S128x128.rank)
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  reducesTo_S128x128_S128_d1 : S128x128.ReducesTo [1] S128
  h_S_ : 0 < S_.numel
  bitsLt_bf16_f32 : FTy.bits .bf16 < FTy.bits .f32
  transposes_S65536x32_S32x65536_1_0 : S65536x32.Transposes [1, 0] S32x65536
  shapeCasts_S512_S1x1x512 : S512.ShapeCasts S1x1x512
  shapeCasts_S512_S1x512 : S512.ShapeCasts S1x512
  shapeCasts_S32_S1x32 : S32.ShapeCasts S1x32
  shapeCasts_S128_S1x128x1 : S128.ShapeCasts S1x128x1
  inb_S16x128_S16x128_0_0 : ∀ a, (![0, 0] : Fin 2 → Nat) a + S16x128.size a ≤ S16x128.size a
  h_S16x128 : 0 < S16x128.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  shapeCasts_S16x512_S16x1x512 : S16x512.ShapeCasts S16x1x512
  inb_S1x128x1_S1x128x1_0_0_0 : ∀ a, (![0, 0, 0] : Fin 3 → Nat) a + S1x128x1.size a ≤ S1x128x1.size a
  h_S1x128x1 : 0 < S1x128x1.numel
  shapeCasts_S1x128x1_S1x128x1 : S1x128x1.ShapeCasts S1x128x1
  broadcasts_S1x128x1_S16x128x512 : S1x128x1.Broadcasts S16x128x512
  broadcasts_S16x1x512_S16x128x512 : S16x1x512.Broadcasts S16x128x512
  inb_S1x1x512_S1x1x512_0_0_0 : ∀ a, (![0, 0, 0] : Fin 3 → Nat) a + S1x1x512.size a ≤ S1x1x512.size a
  h_S1x1x512 : 0 < S1x1x512.numel
  shapeCasts_S1x1x512_S1x1x512 : S1x1x512.ShapeCasts S1x1x512
  broadcasts_S1x1x512_S16x128x512 : S1x1x512.Broadcasts S16x128x512
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S1x128x128 : S128x128.ShapeCasts S1x128x128
  broadcasts_S1x128x128_S16x128x128 : S1x128x128.Broadcasts S16x128x128
  shapeCasts_S16x128x512_S2048x512 : S16x128x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  shapeCasts_S2048x512_S16x128x512 : S2048x512.ShapeCasts S16x128x512
  inb_S16x128x512_S16x128x512_0_0_0 : ∀ a, (![0, 0, 0] : Fin 3 → Nat) a + S16x128x512.size a ≤ S16x128x512.size a
  h_S16x128x512 : 0 < S16x128x512.numel
  packedbf16_S16x128x512_S16x128x512_0_0_0 : (Rect.unit (s := S16x128x512) ![0, 0, 0] S16x128x512.size inb_S16x128x512_S16x128x512_0_0_0).PackedRows (EltTy.packing .bf16)
  shapeCasts_S256x128x512_S256x65536 : S256x128x512.ShapeCasts S256x65536
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  inb_S32x8192_S32x8192_0_0 : ∀ a, (![0, 0] : Fin 2 → Nat) a + S32x8192.size a ≤ S32x8192.size a
  h_S32x8192 : 0 < S32x8192.numel
  shapeCasts_S32x8192_S32x8192 : S32x8192.ShapeCasts S32x8192
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S128x32 : S1x32.Broadcasts S128x32
  scatter_S128x128_S2048x2_S2048_n_01_01_1_wf : ScatterDims.WF S128x128 S2048x2 S2048 [] [0, 1] [0, 1] 1
  dot_S16x128_S128x512_S16x512_1_0_0_1_n_n_wf : DotDims.WF S16x128 S128x512 S16x512 [1] [0] [0] [1] [] []
  dot_S16x128x128_S16x128x512_S16x128x512_2_1_1_2_0_0_wf : DotDims.WF S16x128x128 S16x128x512 S16x128x512 [2] [1] [1] [2] [0] [0]
  dot_S2048x512_S512x512_S2048x512_1_0_0_1_n_n_wf : DotDims.WF S2048x512 S512x512 S2048x512 [1] [0] [0] [1] [] []
  dot_S128x8192_S32x8192_S128x32_1_1_0_0_n_n_wf : DotDims.WF S128x8192 S32x8192 S128x32 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128.size a ≤ S256x128.size a
  hwx0_0 : ∀ i : grid0.Coords, EltTy.bits .f32 = 32 ∨ (Rect.block (s := S256x128) S16x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .bf16 = 32 ∨ (Rect.block (s := S128x512) S128x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S1x1x512.size a
  hwx0_2 : ∀ i : grid0.Coords, EltTy.bits .f32 = 32 ∨ (Rect.block (s := S1x1x512) S1x1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128x1.size a ≤ S1x128x1.size a
  hwx0_3 : ∀ i : grid0.Coords, EltTy.bits .f32 = 32 ∨ (Rect.block (s := S1x128x1) S1x128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x128x512.size a ≤ S256x128x512.size a
  hwx0_7 : ∀ i : grid0.Coords, EltTy.bits .bf16 = 32 ∨ (Rect.block (s := S256x128x512) S16x128x512.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x8192.size a ≤ S256x65536.size a
  hwx1_0 : ∀ i : grid1.Coords, EltTy.bits .bf16 = 32 ∨ (Rect.block (s := S256x65536) S128x8192.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x8192.size a ≤ S32x65536.size a
  hwx1_1 : ∀ i : grid1.Coords, EltTy.bits .bf16 = 32 ∨ (Rect.block (s := S32x65536) S32x8192.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x32.size a ≤ S256x32.size a
  hwx1_3 : ∀ i : grid1.Coords, EltTy.bits .f32 = 32 ∨ (Rect.block (s := S256x32) S128x32.size (cc1_transform_3 i) (hinb1_3 i)).WholeWords (EltTy.packing .f32)

variable [Facts₀]

def scatter_S128x128_S2048x2_S2048_n_01_01_1 : ScatterDims S128x128 S2048x2 S2048 where
  updateWindowDims := []
  insertedWindowDims := [0, 1]
  scatterDimsToOperandDims := [0, 1]
  indexVectorDim := 1
  wf := scatter_S128x128_S2048x2_S2048_n_01_01_1_wf
def dot_S16x128_S128x512_S16x512_1_0_0_1_n_n : DotDims S16x128 S128x512 S16x512 where
  lhsContracting := [1]
  rhsContracting := [0]
  lhsNonContracting := [0]
  rhsNonContracting := [1]
  lhsBatch := []
  rhsBatch := []
  wf := dot_S16x128_S128x512_S16x512_1_0_0_1_n_n_wf
def dot_S16x128x128_S16x128x512_S16x128x512_2_1_1_2_0_0 : DotDims S16x128x128 S16x128x512 S16x128x512 where
  lhsContracting := [2]
  rhsContracting := [1]
  lhsNonContracting := [1]
  rhsNonContracting := [2]
  lhsBatch := [0]
  rhsBatch := [0]
  wf := dot_S16x128x128_S16x128x512_S16x128x512_2_1_1_2_0_0_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S128x8192_S32x8192_S128x32_1_1_0_0_n_n : DotDims S128x8192 S32x8192 S128x32 where
  lhsContracting := [1]
  rhsContracting := [1]
  lhsNonContracting := [0]
  rhsNonContracting := [0]
  lhsBatch := []
  rhsBatch := []
  wf := dot_S128x8192_S32x8192_S128x32_1_1_0_0_n_n_wf

abbrev win0_0 : Pipeline.Window sig grid0 :=
  Pipeline.Window.ofSpec (Memref.whole main_arg0) S16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1x1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S1x128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v35) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v38) S16x128x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v39) S128x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S32x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S128x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S256x128 : Shape := ⟨2, ![256, 128]⟩
abbrev S2x2048 : Shape := ⟨2, ![2, 2048]⟩
abbrev S128x512 : Shape := ⟨2, ![128, 512]⟩
abbrev S512 : Shape := ⟨1, ![512]⟩
abbrev S512x512 : Shape := ⟨2, ![512, 512]⟩
abbrev S65536x32 : Shape := ⟨2, ![65536, 32]⟩
abbrev S32 : Shape := ⟨1, ![32]⟩
abbrev S1x2048 : Shape := ⟨2, ![1, 2048]⟩
abbrev S2048 : Shape := ⟨1, ![2048]⟩
abbrev S256x1x128 : Shape := ⟨3, ![256, 1, 128]⟩
abbrev S256x128x128 : Shape := ⟨3, ![256, 128, 128]⟩
abbrev S_ : Shape := ⟨0, ![]⟩
abbrev S2048x1 : Shape := ⟨2, ![2048, 1]⟩
abbrev S256x2048x128 : Shape := ⟨3, ![256, 2048, 128]⟩
abbrev S128x128 : Shape := ⟨2, ![128, 128]⟩
abbrev S256x128x512 : Shape := ⟨3, ![256, 128, 512]⟩
abbrev S1x1x512 : Shape := ⟨3, ![1, 1, 512]⟩
abbrev S256x2048x512 : Shape := ⟨3, ![256, 2048, 512]⟩
abbrev S256x65536 : Shape := ⟨2, ![256, 65536]⟩
abbrev S256x32 : Shape := ⟨2, ![256, 32]⟩
abbrev S1x32 : Shape := ⟨2, ![1, 32]⟩

abbrev nBuf : Space → Nat
  | .hbm => 64
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S2x2048, .i32⟩
  | .hbm, ⟨2, _⟩ => ⟨S128x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S65536x32, .f32⟩
  | .hbm, ⟨7, _⟩ => ⟨S32, .f32⟩
  | .hbm, ⟨8, _⟩ => ⟨S1x2048, .i32⟩
  | .hbm, ⟨9, _⟩ => ⟨S2048, .i32⟩
  | .hbm, ⟨10, _⟩ => ⟨S1x2048, .i32⟩
  | .hbm, ⟨11, _⟩ => ⟨S2048, .i32⟩
  | .hbm, ⟨12, _⟩ => ⟨S256x1x128, .f32⟩
  | .hbm, ⟨13, _⟩ => ⟨S256x128x128, .f32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S2048, .i32⟩
  | .hbm, ⟨21, _⟩ => ⟨S2048x1, .i32⟩
  | .hbm, ⟨22, _⟩ => ⟨S256x2048x128, .f32⟩
  | .hbm, ⟨23, _⟩ => ⟨S_, .f32⟩
  | .hbm, ⟨24, _⟩ => ⟨S128x128, .f32⟩
  | .hbm, ⟨25, _⟩ => ⟨S2048x1, .i32⟩
  | .hbm, ⟨26, _⟩ => ⟨S256x128x128, .f32⟩
  | .hbm, ⟨27, _⟩ => ⟨S256x128x128, .f32⟩
  | .hbm, ⟨28, _⟩ => ⟨S256x128x128, .f32⟩
  | .hbm, ⟨29, _⟩ => ⟨S256x128x512, .f32⟩
  | .hbm, ⟨30, _⟩ => ⟨S1x1x512, .f32⟩
  | .hbm, ⟨31, _⟩ => ⟨S256x128x512, .f32⟩
  | .hbm, ⟨32, _⟩ => ⟨S256x128x512, .f32⟩
  | .hbm, ⟨33, _⟩ => ⟨S_, .f32⟩
  | .hbm, ⟨34, _⟩ => ⟨S256x128x512, .f32⟩
  | .hbm, ⟨35, _⟩ => ⟨S256x128x512, .f32⟩
  | .hbm, ⟨36, _⟩ => ⟨S_, .i32⟩
  | .hbm, ⟨37, _⟩ => ⟨S2048, .i32⟩
  | .hbm, ⟨38, _⟩ => ⟨S2048, .i1⟩
  | .hbm, ⟨39, _⟩ => ⟨S_, .i32⟩
  | .hbm, ⟨40, _⟩ => ⟨S2048, .i32⟩
  | .hbm, ⟨41, _⟩ => ⟨S2048, .i32⟩
  | .hbm, ⟨42, _⟩ => ⟨S2048, .i32⟩
  | .hbm, ⟨43, _⟩ => ⟨S2048x1, .i32⟩
  | .hbm, ⟨44, _⟩ => ⟨S256x2048x512, .f32⟩
  | .hbm, ⟨45, _⟩ => ⟨S_, .f32⟩
  | .hbm, ⟨46, _⟩ => ⟨S128x512, .f32⟩
  | .hbm, ⟨47, _⟩ => ⟨S2048x1, .i32⟩
  | .hbm, ⟨48, _⟩ => ⟨S256x128x512, .f32⟩
  | .hbm, ⟨49, _⟩ => ⟨S256x128x512, .f32⟩
  | .hbm, ⟨50, _⟩ => ⟨S256x128x512, .f32⟩
  | .hbm, ⟨51, _⟩ => ⟨S256x128x512, .f32⟩
  | .hbm, ⟨52, _⟩ => ⟨S1x1x512, .f32⟩
  | .hbm, ⟨53, _⟩ => ⟨S256x128x512, .f32⟩
  | .hbm, ⟨54, _⟩ => ⟨S256x128x512, .f32⟩
  | .hbm, ⟨55, _⟩ => ⟨S_, .f32⟩
  | .hbm, ⟨56, _⟩ => ⟨S256x128x512, .f32⟩
  | .hbm, ⟨57, _⟩ => ⟨S256x128x512, .f32⟩
  | .hbm, ⟨58, _⟩ => ⟨S256x65536, .f32⟩
  | .hbm, ⟨59, _⟩ => ⟨S256x32, .f32⟩
  | .hbm, ⟨60, _⟩ => ⟨S1x32, .f32⟩
  | .hbm, ⟨61, _⟩ => ⟨S256x32, .f32⟩
  | .hbm, ⟨62, _⟩ => ⟨S256x32, .f32⟩
  | .hbm, ⟨63, _⟩ => ⟨S256x32, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call1_cst : Ref sig .tc := ⟨.hbm, 55, rfl⟩
abbrev main_call1_v0 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]

class Facts₀ : Prop where
  slices_S2x2048_S1x2048_0_0 : S2x2048.Slices ![0, 0] S1x2048
  shapeCasts_S1x2048_S2048 : S1x2048.ShapeCasts S2048
  slices_S2x2048_S1x2048_1_0 : S2x2048.Slices ![1, 0] S1x2048
  bcast_S256x128_S256x1x128_0_2 : S256x128.BroadcastsInDim S256x1x128 (![0, 2] : Fin 2 → Fin S256x1x128.rank)
  bcast_S256x1x128_S256x128x128_0_1_2 : S256x1x128.BroadcastsInDim S256x128x128 (![0, 1, 2] : Fin 3 → Fin S256x128x128.rank)
  bcast_S_S2048 : S_.BroadcastsInDim S2048 (![] : Fin 0 → Fin S2048.rank)
  bcast_S2048_S2048x1_0 : S2048.BroadcastsInDim S2048x1 (![0] : Fin 1 → Fin S2048x1.rank)
  bcast_S_S128x128 : S_.BroadcastsInDim S128x128 (![] : Fin 0 → Fin S128x128.rank)
  bcast_S128x128_S256x128x128_1_2 : S128x128.BroadcastsInDim S256x128x128 (![1, 2] : Fin 2 → Fin S256x128x128.rank)
  bcast_S512_S1x1x512_2 : S512.BroadcastsInDim S1x1x512 (![2] : Fin 1 → Fin S1x1x512.rank)
  bcast_S1x1x512_S256x128x512_0_1_2 : S1x1x512.BroadcastsInDim S256x128x512 (![0, 1, 2] : Fin 3 → Fin S256x128x512.rank)
  bcast_S_S256x128x512 : S_.BroadcastsInDim S256x128x512 (![] : Fin 0 → Fin S256x128x512.rank)
  bcast_S_S128x512 : S_.BroadcastsInDim S128x512 (![] : Fin 0 → Fin S128x512.rank)
  bcast_S128x512_S256x128x512_1_2 : S128x512.BroadcastsInDim S256x128x512 (![1, 2] : Fin 2 → Fin S256x128x512.rank)
  shapeCasts_S256x128x512_S256x65536 : S256x128x512.ShapeCasts S256x65536
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  gather_S256x128x128_S2048x1_S256x2048x128_02_1_n_n_1_1_2561128_wf : GatherDims.WF S256x128x128 S2048x1 S256x2048x128 [0, 2] [1] [] [1] [] 1 ![256, 1, 128]
  scatter_S256x128x128_S2048x1_S256x2048x128_02_1_1_1_wf : ScatterDims.WF S256x128x128 S2048x1 S256x2048x128 [0, 2] [1] [1] 1
  dot_S256x128x128_S128x512_S256x128x512_2_0_01_1_n_n_wf : DotDims.WF S256x128x128 S128x512 S256x128x512 [2] [0] [0, 1] [1] [] []
  gather_S256x128x512_S2048x1_S256x2048x512_02_1_n_n_1_1_2561512_wf : GatherDims.WF S256x128x512 S2048x1 S256x2048x512 [0, 2] [1] [] [1] [] 1 ![256, 1, 512]
  scatter_S256x128x512_S2048x1_S256x2048x512_02_1_1_1_wf : ScatterDims.WF S256x128x512 S2048x1 S256x2048x512 [0, 2] [1] [1] 1
  dot_S256x128x512_S512x512_S256x128x512_2_0_01_1_n_n_wf : DotDims.WF S256x128x512 S512x512 S256x128x512 [2] [0] [0, 1] [1] [] []
  dot_S256x65536_S65536x32_S256x32_1_0_0_1_n_n_wf : DotDims.WF S256x65536 S65536x32 S256x32 [1] [0] [0] [1] [] []

variable [Facts₀]

def gather_S256x128x128_S2048x1_S256x2048x128_02_1_n_n_1_1_2561128 : GatherDims S256x128x128 S2048x1 S256x2048x128 where
  offsetDims := [0, 2]
  collapsedSliceDims := [1]
  operandBatchingDims := []
  startIndicesBatchingDims := []
  startIndexMap := [1]
  indexVectorDim := 1
  sliceSizes := ![256, 1, 128]
  wf := gather_S256x128x128_S2048x1_S256x2048x128_02_1_n_n_1_1_2561128_wf
def scatter_S256x128x128_S2048x1_S256x2048x128_02_1_1_1 : ScatterDims S256x128x128 S2048x1 S256x2048x128 where
  updateWindowDims := [0, 2]
  insertedWindowDims := [1]
  scatterDimsToOperandDims := [1]
  indexVectorDim := 1
  wf := scatter_S256x128x128_S2048x1_S256x2048x128_02_1_1_1_wf
def dot_S256x128x128_S128x512_S256x128x512_2_0_01_1_n_n : DotDims S256x128x128 S128x512 S256x128x512 where
  lhsContracting := [2]
  rhsContracting := [0]
  lhsNonContracting := [0, 1]
  rhsNonContracting := [1]
  lhsBatch := []
  rhsBatch := []
  wf := dot_S256x128x128_S128x512_S256x128x512_2_0_01_1_n_n_wf
def gather_S256x128x512_S2048x1_S256x2048x512_02_1_n_n_1_1_2561512 : GatherDims S256x128x512 S2048x1 S256x2048x512 where
  offsetDims := [0, 2]
  collapsedSliceDims := [1]
  operandBatchingDims := []
  startIndicesBatchingDims := []
  startIndexMap := [1]
  indexVectorDim := 1
  sliceSizes := ![256, 1, 512]
  wf := gather_S256x128x512_S2048x1_S256x2048x512_02_1_n_n_1_1_2561512_wf
def scatter_S256x128x512_S2048x1_S256x2048x512_02_1_1_1 : ScatterDims S256x128x512 S2048x1 S256x2048x512 where
  updateWindowDims := [0, 2]
  insertedWindowDims := [1]
  scatterDimsToOperandDims := [1]
  indexVectorDim := 1
  wf := scatter_S256x128x512_S2048x1_S256x2048x512_02_1_1_1_wf
def dot_S256x128x512_S512x512_S256x128x512_2_0_01_1_n_n : DotDims S256x128x512 S512x512 S256x128x512 where
  lhsContracting := [2]
  rhsContracting := [0]
  lhsNonContracting := [0, 1]
  rhsNonContracting := [1]
  lhsBatch := []
  rhsBatch := []
  wf := dot_S256x128x512_S512x512_S256x128x512_2_0_01_1_n_n_wf
def dot_S256x65536_S65536x32_S256x32_1_0_0_1_n_n : DotDims S256x65536 S65536x32 S256x32 where
  lhsContracting := [1]
  rhsContracting := [0]
  lhsNonContracting := [0]
  rhsNonContracting := [1]
  lhsBatch := []
  rhsBatch := []
  wf := dot_S256x65536_S65536x32_S256x32_1_0_0_1_n_n_wf

class Facts : Prop extends Facts₀ where

variable [Facts]
-- ==== Proof.WDefs.lean ====
/-
  The proof data of the two pallas_calls of the program, at a parameter V: the contents of the TensorCore's buffers when
  a call is entered.

  Call 0 (grid of 16 batch tiles) reads seven operands and stores its one result block whole at every point: after the body
  the result window's buffer holds the body's value of the seven operand blocks.
  Call 1 (grid 2 × 8: a half of the batch, then eight blocks of the contraction axis) keeps a 128 × 32 accumulator in a
  scratch buffer across the eight points of a half: it is reset at the first (position ≡ 0 mod 8), every point adds its
  block's product, and only the last (position ≡ 7 mod 8) stores the result block. `accAt1` is the accumulator after each
  point; the invariant `PhiS1` carries it from point to point.
  Then the buffer contents along @main: at call 0's entry, at its exit, at call 1's entry, at its exit.
-/
import proofs.«411370_j2680059593261_3_alg».proof.Proof.Gen.Kernel.Launch
import proofs.«411370_j2680059593261_3_alg».proof.Proof.Gen.Kernel.Skeleton
import proofs.«411370_j2680059593261_3_alg».proof.Proof.Gen.Kernel.Points
import proofs.«411370_j2680059593261_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Call 0 -/

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The result block of point t: the body's value of the seven operand blocks (the body names its loads in the order
    windows 0, 1, 3, 2, 4, 5, 6). -/
def res0 (c : Dev nD) (t : Fin cfg0.N) : Vec F S16x128x512 .bf16 :=
  k0_pay1 (iblk0 V c 0 t) (iblk0 V c 1 t) (iblk0 V c 3 t) (iblk0 V c 2 t) (iblk0 V c 4 t) (iblk0 V c 5 t) (iblk0 V c 6 t)

/-- Call 0's proof data: the arrays as found; every operand's buffer keeps its block, the result's holds `res0`; the
    invariant is the scoped buffers no window stages and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => res0 V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = res0 V c t := by dsimp only [dat0]

/-! ## Call 1 -/

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after the point at position n: this point's product added to zeros at the first point of a half
    (n ≡ 0 mod 8), to what the point before left otherwise. -/
def accAt1 (c : Dev nD) : (n : ℕ) → n < cfg1.N → Vec F S128x32 .f32
  | 0, hn => k1_pay2 (iblk1 V c 0 ⟨0, hn⟩) (iblk1 V c 1 ⟨0, hn⟩) k1_pay1
  | n + 1, hn =>
    if (n + 1) % 8 = 0 then k1_pay2 (iblk1 V c 0 ⟨n + 1, hn⟩) (iblk1 V c 1 ⟨n + 1, hn⟩) k1_pay1
    else k1_pay2 (iblk1 V c 0 ⟨n + 1, hn⟩) (iblk1 V c 1 ⟨n + 1, hn⟩) (accAt1 c n (Nat.lt_of_succ_lt hn))

/-- The result block a point would store: the squashed accumulator plus the bias row (stored only where
    the position is ≡ 7 mod 8; elsewhere the window is idle and this value is consulted by nothing). -/
def res1 (c : Dev nD) (t : Fin cfg1.N) : Vec F S128x32 .f32 :=
  k1_pay3 (accAt1 V c t.val t.isLt) (iblk1 V c 2 t)

/-- The scratch accumulator as a whole memref. -/
abbrev scM1 : Memref sig .tc .vmem S128x32 .f32 := Memref.whole cc1_scratch0

/-- The invariant before position n: before the first point every scoped buffer no window stages at anything and the
    generator register at some state; afterwards the same with the accumulator at what the point before left. -/
def PhiS1 (c : Dev nD) : (n : ℕ) → n ≤ cfg1.N → sProp 𝕄
  | 0, _ => Pipeline.ΦA spec1 c
  | n + 1, hn => iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg7_0), ((c : Thread nD τ).loc cc0_stg7_0) ↦{fullShare} f)
      ∗ (∃ f : Buf (Elt F) ((c : Thread nD τ).loc cc0_stg7_1), ((c : Thread nD τ).loc cc0_stg7_1) ↦{fullShare} f)
      ∗ owns (c : Thread nD τ) scM1 fullShare (accAt1 V c n hn))
      ∗ (∃ r, prngReg c r))

/-- Call 1's proof data: the arrays as found; every operand's buffer keeps its block, the result's holds `res1`; the
    invariant carries the accumulator; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => res1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = res1 V c t := by dsimp only [dat1]

end Regions

/-! ## The buffer contents along @main -/

variable (m : (ℓ : Loc nD τ sig) → Buf (Elt F) ℓ)

/-- At call 0's entry: the launch contents after the three stretches of host operations before it. -/
abbrev E0 (c : Dev nD) : Valuation τ sig (Elt F) := Gen.V3 m c
abbrev VE0 : (c : Dev nD) → (b : Ref sig .tc) → Buf (Elt F) ((c : Thread nD τ).loc b) := fun c b => E0 m c b
/-- At call 0's exit: its arrays at what its write-backs leave, every other buffer as entered. -/
def X0 (c : Dev nD) : Valuation τ sig (Elt F) :=
  Pipeline.withArrays spec0 c (E0 m c) fun w => (dat0 (VE0 m) c).arrAt w cfg0.N
/-- At call 1's entry: after the reshape between the calls. -/
abbrev E1 (c : Dev nD) : Valuation τ sig (Elt F) := StableHlo.after hostOps1 (X0 m c)
abbrev VE1 : (c : Dev nD) → (b : Ref sig .tc) → Buf (Elt F) ((c : Thread nD τ).loc b) := fun c b => E1 m c b
/-- At call 1's exit. -/
def X1 (c : Dev nD) : Valuation τ sig (Elt F) :=
  Pipeline.withArrays spec1 c (E1 m c) fun w => (dat1 (VE1 m) c).arrAt w cfg1.N

/-- Both calls' proof data, each at its entry contents. -/
def pdats : (p : Fin 2) → (c : Dev nD) → Dat τ (Elt F) Unit ℕ (UR sig nD τ) ℕ (Pipeline.pin (pcfgs (F := F)) Gen.adm p) c
  | ⟨0, _⟩ => fun c => dat0 (VE0 m) c
  | ⟨1, _⟩ => fun c => dat1 (VE1 m) c

end Cert.Kernel.Hand

end
-- ==== Proof.WR0.lean ====
/-
  Call 0's body at every grid point: from the seven operand blocks in their staging buffers it leaves the result block
  (the body's value of them) in the result window's buffer, the operands' buffers as they were.
-/
import proofs.«411370_j2680059593261_3_alg».proof.Proof.WDefs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each operand window's buffer

An operand window's current staging buffer holds the window's block at every point, whether the pipeline fetched it
there or not: where it did not, the block index has not moved since the point before, and the body leaves the block in
place. Window 0 (the batch tile of the state) is fetched at every point; windows 1 to 6 (the two weight matrices, the two bias
rows, the degree column and the adjacency matrix) have a constant block index and are fetched at the first point only. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)

/-! ## The body's triple -/

/-- The zero offsets of a rank-2 whole-buffer rectangle, as a constant function. -/
theorem hz0_rank2 : (![0, 0] : Fin 2 → ℕ) = fun _ => 0 := by
  funext a; match a with | ⟨0, _⟩ => rfl | ⟨1, _⟩ => rfl

/-- The zero offsets of a rank-3 whole-buffer rectangle, as a constant function. -/
theorem hz0_rank3 : (![0, 0, 0] : Fin 3 → ℕ) = fun _ => 0 := by
  funext a; match a with | ⟨0, _⟩ => rfl | ⟨1, _⟩ => rfl | ⟨2, _⟩ => rfl

/-- The one store's rectangle holds every index of the result block. -/
theorem cover0_7 (p0 : Vec F S16x128x512 .bf16) (y : S16x128x512.Idx) :
    ∃ pc ∈ ([⟨Rect.unit (s := S16x128x512) ![0, 0, 0] S16x128x512.size inb_S16x128x512_S16x128x512_0_0_0, p0⟩] :
      List (View.Piece (Elt F) S16x128x512 .bf16)), y ∈ pc.1.set :=
  ⟨_, List.mem_singleton_self _, View.mem_set_unit_zero hz0_rank3 inb_S16x128x512_S16x128x512_0_0_0 y⟩

set_option maxHeartbeats 1000000 in
/-- On whole staging memrefs, the operands' at read contents and the result's at anything, the body runs to the
    continuation holding the operands' as they were and the result's at the body's value of the seven operand contents.
    The body loads each operand whole (in the order 0, 1, 3, 2, 4, 5, 6), loads the result buffer once (the value is not
    used) and stores the value whole: one store through the whole-shape rectangle at zero offsets leaves its payload,
    and a load through such a rectangle reads the contents. -/
theorem sound_kernel0 (c : Dev nD) (E : Set ℕ) (i : grid0.Coords) (arg1 : Memref sig .tc .vmem S16x128 .f32) (harg1 : arg1.IsWhole) (arg2 : Memref sig .tc .vmem S128x512 .bf16) (harg2 : arg2.IsWhole) (arg3 : Memref sig .tc .vmem S1x1x512 .f32) (harg3 : arg3.IsWhole) (arg4 : Memref sig .tc .vmem S1x128x1 .f32) (harg4 : arg4.IsWhole) (arg5 : Memref sig .tc .vmem S128x128 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S16x128x512 .bf16) (harg8 : arg8.IsWhole)
    (x0 : Vec F S16x128 .f32) (x1 : Vec F S128x512 .bf16) (x2 : Vec F S1x1x512 .f32) (x3 : Vec F S1x128x1 .f32) (x4 : Vec F S128x128 .bf16) (x5 : Vec F S512x512 .bf16) (x6 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k0_pay1 x0 x1 x3 x2 x4 x5 x6)) -∗ K ⟨⟩))
      ⊢ wp frame (wpE (defs₀ (F := F)) Variants.none c none) E (cc0__gconv_kernel i arg1 harg1 arg2 harg2 arg3 harg3 arg4 harg4 arg5 harg5 arg6 harg6 arg7 harg7 arg8 harg8) K := by
  simp only [cc0__gconv_kernel_eq_skeleton]; unfold cc0__gconv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (cover0_7 _)]
  sl_unfold_words
  rw [View.canon_unit_zero hz0_rank3]
  simp only [View.readAt_eq_ld, View.ld_unit_zero (S := S16x128) hz0_rank2, View.ld_unit_zero (S := S128x512) hz0_rank2,
    View.ld_unit_zero (S := S1x128x1) hz0_rank3, View.ld_unit_zero (S := S1x1x512) hz0_rank3,
    View.ld_unit_zero (S := S128x128) hz0_rank2, View.ld_unit_zero (S := S512x512) hz0_rank2,
    View.ld_unit_zero (S := S1x512) hz0_rank2]

/-! ## The body obligation, at a generic point -/

/-- What the body is called with at point `t`: the invariant, what the core owes, and each window's current staging
    buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- What it returns: the same invariant and debt, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the operands' memrefs hold their blocks, so the body's triple applies; the invariant and the
    core's debt pass through unread, and the result's buffer ends at the body's value of the seven blocks. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  unfold res0
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation for call 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.WR1.lean ====
/-
  Call 1's body at every grid point: the accumulator is reset at the first point of a half, every point adds its block's
  product, the last point of a half stores the squashed result; the invariant carries the accumulator between points.
-/
import proofs.«411370_j2680059593261_3_alg».proof.Proof.WDefs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two conditions, in closed form over the grid -/

/-- The body's first condition: the position inside the half is 0. -/
abbrev cond1_0 (i : grid1.Coords) : Prop :=
  (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The body's second condition: the position inside the half is 7. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The three operand windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off a half's last point the result window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At a half's last point it is live. -/
theorem liveAt1_3 : ∀ t : Fin cfg1.N, cond1_1 (grid1.coords t) → cfg1.idle 3 (grid1.coords t) = false := by decide +kernel

/-! ## The whole-shape rectangle's offsets are zeros -/

theorem hzA : (![0, 0] : Fin S128x8192.rank → Nat) = fun _ => 0 := by
  funext a; fin_cases a <;> rfl
theorem hzB : (![0, 0] : Fin S32x8192.rank → Nat) = fun _ => 0 := by
  funext a; fin_cases a <;> rfl
theorem hzC : (![0, 0] : Fin S1x32.rank → Nat) = fun _ => 0 := by
  funext a; fin_cases a <;> rfl
theorem hz2 : (![0, 0] : Fin S128x32.rank → Nat) = fun _ => 0 := by
  funext a; fin_cases a <;> rfl

/-- Each window's current staging memref at point t, as the pipeline passes it to the body, and its wholeness. -/
abbrev ms1_0 (t : Fin cfg1.N) : Memref sig .tc .vmem S128x8192 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x8192 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x32 .f32 := win1_3.stage (cfg1.slots t 3)
abbrev hs1_3 (t : Fin cfg1.N) : (ms1_3 t).IsWhole := hstage1_3 ((cfg1.slots t 3).cast nbuf1_3)

/-! ## The body's run, case by case, on any whole staging memrefs -/

set_option maxHeartbeats 1000000 in
/-- The first point of a half: the accumulator, found at anything, is reset and ends at this point's product added to
    zeros; every window's buffer is handed back as found. -/
theorem run1_A (c : Dev nD) (i : grid1.Coords)
    (arg2 : Memref sig .tc .vmem S128x8192 .bf16) (harg2 : arg2.IsWhole)
    (arg3 : Memref sig .tc .vmem S32x8192 .bf16) (harg3 : arg3.IsWhole)
    (arg4 : Memref sig .tc .vmem S1x32 .f32) (harg4 : arg4.IsWhole)
    (arg5 : Memref sig .tc .vmem S128x32 .f32) (harg5 : arg5.IsWhole)
    (arg6 : Memref sig .tc .vmem S128x32 .f32) (harg6 : arg6.IsWhole)
    (hc0 : cond1_0 i) (hc1 : ¬cond1_1 i)
    (x0 : Vec F S128x8192 .bf16) (x1 : Vec F S32x8192 .bf16) (x2 : Vec F S1x32 .f32) (xi3 : Vec F S128x32 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare xi3
            ∗ owns (c : Thread nD τ) arg6 fullShare (k1_pay2 x0 x1 (k1_pay1 (F := F)))) -∗ K ⟨⟩))
      ⊢ wp frame (wpE (defs₀ (F := F)) Variants.none c none) E
          (cc1__head_kernel i arg2 harg2 arg3 harg3 arg4 harg4 arg5 harg5 arg6 harg6) K := by
  simp only [cc1__head_kernel_eq_skeleton]; unfold cc1__head_kernel_skel
  unfold owns
  iintro ⟨⟨%f0, %hf0, H0⟩, ⟨%f1, %hf1, H1⟩, ⟨%f2, %hf2, H2⟩, ⟨%f3, %hf3, H3⟩, ⟨%ds0, %fs0, -, HS0⟩, Hk⟩
  obtain rfl := harg2.eq_unread hf0; obtain rfl := harg3.eq_unread hf1
  obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS0
  ipureintro
  sl_unfold_words
  rw [View.read_writes_eq_canon _ _ _ (fun y => ⟨_, List.mem_cons_self .., View.mem_set_unit_zero hz2 Facts₀.inb_S128x32_S128x32_0_0 y⟩)]
  rw [View.canon_cons_unit_zero hz2, View.readCov_unit_zero _ hz2]
  simp only [View.readAt_eq_ld, harg2.read_unread, harg3.read_unread, View.ld_unit_zero (S := S128x8192) hzA, View.ld_unit_zero (S := S32x8192) hzB]

set_option maxHeartbeats 1000000 in
/-- A point inside a half that is neither its first nor its last: the accumulator, at what the point before left, ends at
    that plus this point's product; every window's buffer is handed back as found. -/
theorem run1_B (c : Dev nD) (i : grid1.Coords)
    (arg2 : Memref sig .tc .vmem S128x8192 .bf16) (harg2 : arg2.IsWhole)
    (arg3 : Memref sig .tc .vmem S32x8192 .bf16) (harg3 : arg3.IsWhole)
    (arg4 : Memref sig .tc .vmem S1x32 .f32) (harg4 : arg4.IsWhole)
    (arg5 : Memref sig .tc .vmem S128x32 .f32) (harg5 : arg5.IsWhole)
    (arg6 : Memref sig .tc .vmem S128x32 .f32) (harg6 : arg6.IsWhole)
    (hc0 : ¬cond1_0 i) (hc1 : ¬cond1_1 i)
    (x0 : Vec F S128x8192 .bf16) (x1 : Vec F S32x8192 .bf16) (x2 : Vec F S1x32 .f32) (xi3 : Vec F S128x32 .f32)
    (xs : Vec F S128x32 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ owns (c : Thread nD τ) arg6 fullShare xs
        ∗ (iprop(owns (c : Thread nD τ) arg2 fullShare x0 ∗ owns (c : Thread nD τ) arg3 fullShare x1
            ∗ owns (c : Thread nD τ) arg4 fullShare x2 ∗ owns (c : Thread nD τ) arg5 fullShare xi3
            ∗ owns (c : Thread nD τ) arg6 fullShare (k1_pay2 x0 x1 xs)) -∗ K ⟨⟩))
      ⊢ wp frame (wpE (defs₀ (F := F)) Variants.none c none) E
          (cc1__head_kernel i arg2 harg2 arg3 harg3 arg4 harg4 arg5 harg5 arg6 harg6) K := by
  simp only [cc1__head_kernel_eq_skeleton]; unfold cc1__head_kernel_skel
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg2.eq_unread hf0; obtain rfl := harg3.eq_unread hf1
  obtain rfl := harg4.eq_unread hf2; obtain rfl := harg5.eq_unread hf3
  obtain rfl := harg6.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS0
  ipureintro
  sl_unfold_words
  rw [View.read_writes_eq_canon _ _ _ (fun y => ⟨_, List.mem_cons_self .., View.mem_set_unit_zero hz2 Facts₀.inb_S128x32_S128x32_0_0 y⟩)]
  rw [View.canon_unit_zero hz2]
  simp only [View.readAt_eq_ld, harg2.read_unread, harg3.read_unread, harg6.read_unread, View.ld_unit_zero (S := S128x8192) hzA, View.ld_unit_zero (S := S32x8192) hzB, View.ld_unit_zero (S := S128x32) hz2]

set_option maxHeartbeats 1000000 in
/-- The last point of a half: the accumulator ends as at the points before it, and the result window's buffer, found at
    anything, ends at the squashed accumulator plus the bias row. -/
theorem run1_C (c : Dev nD) (i : grid1.Coords)
    (arg2 : Memref sig .tc .vmem S128x8192 .bf16) (harg2 : arg2.IsWhole)
    (arg3 : Memref sig .tc .vmem S32x8192 .bf16) (harg3 : arg3.IsWhole)
    (arg4 : Memref sig .tc .vmem S1x32 .f32) (harg4 : arg4.IsWhole)
    (arg5 : Memref sig .tc .vmem S128x32 .f32) (harg5 : arg5.IsWhole)
    (arg6 : Memref sig .tc .vmem S128x32 .f32) (harg6 : arg6.IsWhole)
    (hc0 : ¬cond1_0 i) (hc1 : cond1_1 i)
    (x0 : Vec F S128x8192 .bf16) (x1 : Vec F S32x8192 .bf16) (x2 : Vec F S1x32 .f32)
    (xs : Vec F S128x32 .f32) (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ owns (c : Thread nD τ) arg6 fullShare xs
        ∗ (iprop(owns (c : Thread nD τ) arg2 fullShare x0 ∗ owns (c : Thread nD τ) arg3 fullShare x1
            ∗ owns (c : Thread nD τ) arg4 fullShare x2
            ∗ owns (c : Thread nD τ) arg5 fullShare (k1_pay3 (k1_pay2 x0 x1 xs) x2)
            ∗ owns (c : Thread nD τ) arg6 fullShare (k1_pay2 x0 x1 xs)) -∗ K ⟨⟩))
      ⊢ wp frame (wpE (defs₀ (F := F)) Variants.none c none) E
          (cc1__head_kernel i arg2 harg2 arg3 harg3 arg4 harg4 arg5 harg5 arg6 harg6) K := by
  simp only [cc1__head_kernel_eq_skeleton]; unfold cc1__head_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg2.eq_unread hf0; obtain rfl := harg3.eq_unread hf1
  obtain rfl := harg4.eq_unread hf2
  obtain rfl := harg6.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_eq_canon _ _ _ (fun y => ⟨_, List.mem_cons_self .., View.mem_set_unit_zero hz2 Facts₀.inb_S128x32_S128x32_0_0 y⟩)]
    rw [View.canon_unit_zero hz2, View.readCov_unit_zero _ hz2]
    simp only [View.readAt_eq_ld, harg2.read_unread, harg3.read_unread, harg4.read_unread, harg6.read_unread, View.ld_unit_zero (S := S128x8192) hzA, View.ld_unit_zero (S := S32x8192) hzB, View.ld_unit_zero (S := S1x32) hzC, View.ld_unit_zero (S := S128x32) hz2]
  iexists _; isplitr
  swap; · iexact HS0
  ipureintro
  sl_unfold_words
  rw [View.read_writes_eq_canon _ _ _ (fun y => ⟨_, List.mem_cons_self .., View.mem_set_unit_zero hz2 Facts₀.inb_S128x32_S128x32_0_0 y⟩)]
  rw [View.canon_unit_zero hz2]
  simp only [View.readAt_eq_ld, harg2.read_unread, harg3.read_unread, harg6.read_unread, View.ld_unit_zero (S := S128x8192) hzA, View.ld_unit_zero (S := S32x8192) hzB, View.ld_unit_zero (S := S128x32) hz2]

/-! ## The invariant, with the accumulator's buffer threaded out -/

/-- The scoped buffers call 1 neither stages through nor uses (call 0's ten staging buffers), each at some contents, and the
    generator register at some state. -/
def Rest1 (c : Dev nD) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg7_0), ((c : Thread nD τ).loc cc0_stg7_0) ↦{fullShare} f)
      ∗ (∃ f : Buf (Elt F) ((c : Thread nD τ).loc cc0_stg7_1), ((c : Thread nD τ).loc cc0_stg7_1) ↦{fullShare} f))
      ∗ (∃ r, prngReg c r))

/-- The invariant's shape — the ten buffers, then one more conjunct, beside the generator register — is that conjunct
    beside the rest. -/
theorem thread1 (c : Dev nD) (P : sProp 𝕄) :
    iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg7_0), ((c : Thread nD τ).loc cc0_stg7_0) ↦{fullShare} f)
      ∗ (∃ f : Buf (Elt F) ((c : Thread nD τ).loc cc0_stg7_1), ((c : Thread nD τ).loc cc0_stg7_1) ↦{fullShare} f)
      ∗ P)
      ∗ (∃ r, prngReg c r)) = iprop(P ∗ Rest1 (F := F) c) := by
  unfold Rest1
  refine equiv_iff.mp ⟨?_, ?_⟩
  · show (_ : sProp 𝕄) ⊢ _
    iintro ⟨⟨A0, A1, A2, A3, A4, A5, A6, A7, A8, A9, HP⟩, Hg⟩
    isplitl [HP]; · iexact HP
    isplitr [Hg]
    swap; · iexact Hg
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  · show (_ : sProp 𝕄) ⊢ _
    iintro ⟨HP, ⟨A0, A1, A2, A3, A4, A5, A6, A7, A8, A9⟩, Hg⟩
    isplitr [Hg]
    swap; · iexact Hg
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact HP

section Frame
variable (V : (c : Dev nD) → (b : Ref sig .tc) → Buf (Elt F) ((c : Thread nD τ).loc b))

/-- What the launch hands the call: the accumulator's buffer at anything, beside the rest. -/
theorem PhiA1_eq (c : Dev nD) :
    (Pipeline.ΦA spec1 c : sProp 𝕄) = iprop((∃ d, owns (c : Thread nD τ) scM1 fullShare d) ∗ Rest1 (F := F) c) := by
  unfold Pipeline.ΦA; rw [scopedRest1_eq]; simp only [scM1, owns_whole]; exact thread1 c _

theorem PhiS1_zero (c : Dev nD) (n : ℕ) (h : n ≤ cfg1.N) (hz : n = 0) : PhiS1 V c n h = Pipeline.ΦA spec1 c := by
  subst hz; rfl

/-- After the point at position n: the accumulator at that point's contents, beside the rest. -/
theorem PhiS1_succ (c : Dev nD) (n : ℕ) (hn : n < cfg1.N) :
    PhiS1 V c (n + 1) hn = iprop(owns (c : Thread nD τ) scM1 fullShare (accAt1 V c n hn) ∗ Rest1 (F := F) c) := by
  rw [← thread1]; rfl

/-- Before a point that is not the first: the accumulator at what the point before left. -/
theorem PhiS1_pos (c : Dev nD) (n : ℕ) (h : n ≤ cfg1.N) (hz : n ≠ 0) :
    PhiS1 V c n h = iprop(owns (c : Thread nD τ) scM1 fullShare (accAt1 V c (n - 1) (by omega)) ∗ Rest1 (F := F) c) := by
  cases n with
  | zero => exact absurd rfl hz
  | succ n => exact PhiS1_succ V c n h

theorem PhiS1_castSucc (c : Dev nD) (t : Fin cfg1.N) :
    (dat1 V c).Φ t.castSucc = PhiS1 V c t.val (Nat.le_of_lt t.isLt) := by
  dsimp only [dat1]; simp only [Fin.coe_castSucc]

/-! ## The accumulator at a point, by the point's case -/

theorem accAt1_first (c : Dev nD) (t : Fin cfg1.N) (h0 : t.val % 8 = 0) :
    accAt1 V c t.val t.isLt = k1_pay2 (iblk1 V c 0 t) (iblk1 V c 1 t) (k1_pay1 (F := F)) := by
  obtain ⟨n, hn⟩ := t
  cases n with
  | zero => rfl
  | succ n => exact (if_pos h0).trans rfl

theorem accAt1_later (c : Dev nD) (t : Fin cfg1.N) (h0 : ¬t.val % 8 = 0) :
    accAt1 V c t.val t.isLt
      = k1_pay2 (iblk1 V c 0 t) (iblk1 V c 1 t) (accAt1 V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The operands' buffers hold their blocks at every point -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

end Frame

section Body
variable (V : (c : Dev nD) → (b : Ref sig .tc) → Buf (Elt F) ((c : Thread nD τ).loc b))

/-! ## The body obligation, at a generic point -/

/-- What the body is called with at point t: the invariant, what the core owes, and each window's current buffer at what
    it then holds, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The three operand buffers hold their blocks; the point's position in its half says which of the
    three runs applies; the invariant hands the body the accumulator at what the point before left (at anything before the
    first point) and takes it back at this point's contents; off a half's last point the result buffer goes back as it was
    found, at the last point it ends at the result block; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [accAt1_first V c t h0]
    by_cases hz : t.val = 0
    · rw [PhiS1_castSucc V c t, PhiS1_zero V c _ _ hz, PhiA1_eq]
      iintro ⟨⟨HS, HR⟩, Ho, ⟨%d0, H0⟩, ⟨%d1, H1⟩, ⟨%d2, H2⟩, ⟨%d3, H3⟩⟩
      iapply (run1_A c (grid1.coords t) _ (hs1_0 t) _ (hs1_1 t) _ (hs1_2 t) _ (hs1_3 t) _ (Memref.isWhole_whole _) ((hcond1_0 t).mpr h0) (fun h => h1 ((hcond1_1 t).mp h)) (iblk1 V c 0 t) (iblk1 V c 1 t) (iblk1 V c 2 t) ((dat1 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR]
      · isplitl [HS]; · iexact HS
        iexact HR
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨HS, HR⟩, Ho, ⟨%d0, H0⟩, ⟨%d1, H1⟩, ⟨%d2, H2⟩, ⟨%d3, H3⟩⟩
      iapply (run1_A c (grid1.coords t) _ (hs1_0 t) _ (hs1_1 t) _ (hs1_2 t) _ (hs1_3 t) _ (Memref.isWhole_whole _) ((hcond1_0 t).mpr h0) (fun h => h1 ((hcond1_1 t).mp h)) (iblk1 V c 0 t) (iblk1 V c 1 t) (iblk1 V c 2 t) ((dat1 V c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR]
      · isplitl [HS]; · iexact HS
        iexact HR
      isplitl [Ho]; · iexact Ho
      isplitl [H0]; · iexact H0
      isplitl [H1]; · iexact H1
      isplitl [H2]; · iexact H2
      iexists _; iexact H3
  · have hz : t.val ≠ 0 := fun e => h0 (by rw [e])
    rw [accAt1_later V c t h0]
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      unfold res1
      rw [accAt1_later V c t h0]
      rw [PhiS1_castSucc V c t, PhiS1_pos V c _ _ hz]
      iintro ⟨⟨HS, HR⟩, Ho, ⟨%d0, H0⟩, ⟨%d1, H1⟩, ⟨%d2, H2⟩, ⟨%d3, H3⟩⟩
      iapply (run1_C c (grid1.coords t) _ (hs1_0 t) _ (hs1_1 t) _ (hs1_2 t) _ (hs1_3 t) _ (Memref.isWhole_whole _) (fun h => h0 ((hcond1_0 t).mp h)) ((hcond1_1 t).mpr h1) (iblk1 V c 0 t) (iblk1 V c 1 t) (iblk1 V c 2 t) (accAt1 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR]
      · isplitl [HS]; · iexact HS
        iexact HR
      isplitl [Ho]; · iexact Ho
      isplitl [H0]; · iexact H0
      isplitl [H1]; · iexact H1
      isplitl [H2]; · iexact H2
      iexact H3
    · rw [Dat.leavesExact_idle (dat1 V c) 3 t (idleAt1_3 t (fun h => h1 ((hcond1_1 t).mp h))) (noFlush1_3 t (fun h => h1 ((hcond1_1 t).mp h)))]
      rw [PhiS1_castSucc V c t, PhiS1_pos V c _ _ hz]
      iintro ⟨⟨HS, HR⟩, Ho, ⟨%d0, H0⟩, ⟨%d1, H1⟩, ⟨%d2, H2⟩, ⟨%d3, H3⟩⟩
      iapply (run1_B c (grid1.coords t) _ (hs1_0 t) _ (hs1_1 t) _ (hs1_2 t) _ (hs1_3 t) _ (Memref.isWhole_whole _) (fun h => h0 ((hcond1_0 t).mp h)) (fun h => h1 ((hcond1_1 t).mp h)) (iblk1 V c 0 t) (iblk1 V c 1 t) (iblk1 V c 2 t) ((dat1 V c).before 3 t d3) (accAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR]
      · isplitl [HS]; · iexact HS
        iexact HR
      isplitl [Ho]; · iexact Ho
      isplitl [H0]; · iexact H0
      isplitl [H1]; · iexact H1
      isplitl [H2]; · iexact H2
      iexists _; iexact H3

end Body

variable (V : (c : Dev nD) → (b : Ref sig .tc) → Buf (Elt F) ((c : Thread nD τ).loc b))

/-- The library's body obligation for call 1, at every point. -/
theorem body_obligation1 (c : Dev nD) : BodyObligation (dat1 (F := F) V c) (defs₀ (F := F)) Variants.none () Set.univ := by
  intro t
  rw [bigSep_W1, bigSep_W1]
  exact sound_body1 V c t

/-- What the launch hands the call is the invariant before the first point. -/
theorem hin1 (c : Dev nD) : Pipeline.ΦA spec1 c ⊢ (dat1 (F := F) V c).Φ 0 := by
  rw [show (dat1 V c).Φ 0 = PhiS1 V c 0 (Nat.zero_le _) from rfl, PhiS1_zero V c 0 _ rfl]

/-- After any point but the first the invariant gives the scoped buffers back: the accumulator's contents are forgotten. -/
theorem Phi_out1 (c : Dev nD) (t : Fin (cfg1.N + 1)) (ht : t.val ≠ 0) : (dat1 (F := F) V c).Φ t ⊢ Pipeline.ΦA spec1 c := by
  rw [show (dat1 V c).Φ t = PhiS1 V c t.val (Nat.le_of_lt_succ t.isLt) from rfl, PhiS1_pos V c _ _ ht, PhiA1_eq]
  iintro ⟨HS, HR⟩
  isplitl [HS]
  · iexists _; iexact HS
  iexact HR

/-- After the last point the invariant gives the scoped buffers back, the accumulator's contents forgotten. -/
theorem hout1 (c : Dev nD) : (dat1 (F := F) V c).Φ (Fin.last cfg1.N) ⊢ Pipeline.ΦA spec1 c := by
  exact Phi_out1 V c _ (by rw [Fin.val_last]; have : cfg1.N = 16 := N_1; omega)

end Cert.Kernel.Hand

end
-- ==== Proof.WRun.lean ====
/-
  The run of @main: three stretches of host operations, call 0, a reshape, call 1. Every weakly fair execution terminates;
  the result array ends at what call 1's write-backs leave, the eight arguments as launched.
-/
import proofs.«411370_j2680059593261_3_alg».proof.Proof.WDefs
import proofs.«411370_j2680059593261_3_alg».proof.Proof.WR0
import proofs.«411370_j2680059593261_3_alg».proof.Proof.WR1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

namespace Run

/-! ## The buffer contents at the calls' exits, read at a reference -/

/-- At call 0's exit each of its arrays holds what its write-backs leave, -/
theorem X0_arr (c : Dev nD) (w : Fin cfg0.W) :
    X0 m c (Proc.devRef .tc (Pipeline.arrRef spec0 w)) = (dat0 (VE0 m) c).arrAt w cfg0.N := by
  unfold X0; exact Pipeline.withArrays_arr spec0 launch0.win.arr_inj c _ _ w
/-- and every other buffer what it held at entry. -/
theorem X0_of_ne (c : Dev nD) (b : Ref sig .tc) (hb : ∀ w, Pipeline.arrRef spec0 w ≠ b) :
    X0 m c (Proc.devRef .tc b) = E0 m c (Proc.devRef .tc b) := by
  unfold X0; exact Pipeline.withArrays_of_ne spec0 c _ _ b hb
/-- Call 0's exit contents read at the TensorCore's references. -/
abbrev VX0 : (c : Dev nD) → (b : Ref sig .tc) → Buf (Elt F) ((c : Thread nD τ).loc b) := fun c b => X0 m c b
theorem hF0 (c : Dev nD) (w : Fin cfg0.W) : (dat0 (VE0 m) c).arrAt w cfg0.N = VX0 m c (Pipeline.arrRef spec0 w) :=
  (X0_arr m c w).symm
theorem hrest0 (c : Dev nD) : ∀ b, b ∉ Finset.univ.image (Pipeline.arrRef spec0) → VX0 m c b = VE0 m c b :=
  fun b hb => X0_of_ne m c b fun w e => hb (Finset.mem_image.mpr ⟨w, Finset.mem_univ _, e⟩)

/-- At call 1's exit each of its arrays holds what its write-backs leave, -/
theorem X1_arr (c : Dev nD) (w : Fin cfg1.W) :
    X1 m c (Proc.devRef .tc (Pipeline.arrRef spec1 w)) = (dat1 (VE1 m) c).arrAt w cfg1.N := by
  unfold X1; exact Pipeline.withArrays_arr spec1 launch1.win.arr_inj c _ _ w
/-- and every other buffer what it held at entry. -/
theorem X1_of_ne (c : Dev nD) (b : Ref sig .tc) (hb : ∀ w, Pipeline.arrRef spec1 w ≠ b) :
    X1 m c (Proc.devRef .tc b) = E1 m c (Proc.devRef .tc b) := by
  unfold X1; exact Pipeline.withArrays_of_ne spec1 c _ _ b hb
/-- Call 1's exit contents read at the TensorCore's references. -/
abbrev VX1 : (c : Dev nD) → (b : Ref sig .tc) → Buf (Elt F) ((c : Thread nD τ).loc b) := fun c b => X1 m c b
theorem hF1 (c : Dev nD) (w : Fin cfg1.W) : (dat1 (VE1 m) c).arrAt w cfg1.N = VX1 m c (Pipeline.arrRef spec1 w) :=
  (X1_arr m c w).symm
theorem hrest1 (c : Dev nD) : ∀ b, b ∉ Finset.univ.image (Pipeline.arrRef spec1) → VX1 m c b = VE1 m c b :=
  fun b hb => X1_of_ne m c b fun w e => hb (Finset.mem_image.mpr ⟨w, Finset.mem_univ _, e⟩)

/-! ### The result array ends at call 1's write-backs; the arguments end as launched: no host operation writes one, and a
    call either reads it through an input window (call 0 reads the first argument) or bypasses it -/

theorem X1_main_v40 (c : Dev nD) : X1 m c (Proc.devRef .tc main_v40) = (dat1 (VE1 m) c).arrAt 3 cfg1.N :=
  X1_arr m c 3

/-- An argument no window of either call names walks back through the fold to the launch memory. -/
theorem X1_bypass (c : Dev nD) (r : Ref sig .tc) (h1 : ∀ w, Pipeline.arrRef spec1 w ≠ r) (hh1 : r ∉ Gen.hostOps1_W)
    (h0 : ∀ w, Pipeline.arrRef spec0 w ≠ r) (hh02 : r ∉ Gen.hostOps0_2_W) (hh01 : r ∉ Gen.hostOps0_1_W) (hh00 : r ∉ Gen.hostOps0_W) :
    X1 m c (Proc.devRef .tc r) = m ((c : Thread nD τ).loc r) :=
  calc X1 m c (Proc.devRef .tc r)
    _ = E1 m c (Proc.devRef .tc r) := X1_of_ne m c r h1
    _ = X0 m c (Proc.devRef .tc r) := StableHlo.after_of_writes_sub hostOps1 _ Gen.hostOps1_writes hh1
    _ = E0 m c (Proc.devRef .tc r) := X0_of_ne m c r h0
    _ = Gen.V2 m c (Proc.devRef .tc r) := Gen.V3_of m c r hh02
    _ = Gen.V1 m c (Proc.devRef .tc r) := Gen.V2_of m c r hh01
    _ = Gen.V0 m c (Proc.devRef .tc r) := Gen.V1_of m c r hh00
    _ = m ((c : Thread nD τ).loc r) := rfl

theorem X1_main_arg0 (c : Dev nD) : X1 m c (Proc.devRef .tc main_arg0) = m ((c : Thread nD τ).loc main_arg0) :=
  calc X1 m c (Proc.devRef .tc main_arg0)
    _ = E1 m c (Proc.devRef .tc main_arg0) := X1_of_ne m c main_arg0 (by decide)
    _ = X0 m c (Proc.devRef .tc main_arg0) := StableHlo.after_of_writes_sub hostOps1 _ Gen.hostOps1_writes (by decide)
    _ = E0 m c (Proc.devRef .tc main_arg0) := (X0_arr m c 0).trans (((dat0 (VE0 m) c).arrAt_in 0 rfl _).trans (A_eq0 (VE0 m) c 0))
    _ = Gen.V2 m c (Proc.devRef .tc main_arg0) := Gen.V3_of m c main_arg0 (by decide)
    _ = Gen.V1 m c (Proc.devRef .tc main_arg0) := Gen.V2_of m c main_arg0 (by decide)
    _ = Gen.V0 m c (Proc.devRef .tc main_arg0) := Gen.V1_of m c main_arg0 (by decide)
    _ = m ((c : Thread nD τ).loc main_arg0) := rfl
theorem X1_main_arg1 (c : Dev nD) : X1 m c (Proc.devRef .tc main_arg1) = m ((c : Thread nD τ).loc main_arg1) :=
  X1_bypass m c main_arg1 (by decide) (by decide) (by decide) (by decide) (by decide) (by decide)
theorem X1_main_arg2 (c : Dev nD) : X1 m c (Proc.devRef .tc main_arg2) = m ((c : Thread nD τ).loc main_arg2) :=
  X1_bypass m c main_arg2 (by decide) (by decide) (by decide) (by decide) (by decide) (by decide)
theorem X1_main_arg3 (c : Dev nD) : X1 m c (Proc.devRef .tc main_arg3) = m ((c : Thread nD τ).loc main_arg3) :=
  X1_bypass m c main_arg3 (by decide) (by decide) (by decide) (by decide) (by decide) (by decide)
theorem X1_main_arg4 (c : Dev nD) : X1 m c (Proc.devRef .tc main_arg4) = m ((c : Thread nD τ).loc main_arg4) :=
  X1_bypass m c main_arg4 (by decide) (by decide) (by decide) (by decide) (by decide) (by decide)
theorem X1_main_arg5 (c : Dev nD) : X1 m c (Proc.devRef .tc main_arg5) = m ((c : Thread nD τ).loc main_arg5) :=
  X1_bypass m c main_arg5 (by decide) (by decide) (by decide) (by decide) (by decide) (by decide)
theorem X1_main_arg6 (c : Dev nD) : X1 m c (Proc.devRef .tc main_arg6) = m ((c : Thread nD τ).loc main_arg6) :=
  X1_bypass m c main_arg6 (by decide) (by decide) (by decide) (by decide) (by decide) (by decide)
theorem X1_main_arg7 (c : Dev nD) : X1 m c (Proc.devRef .tc main_arg7) = m ((c : Thread nD τ).loc main_arg7) :=
  X1_bypass m c main_arg7 (by decide) (by decide) (by decide) (by decide) (by decide) (by decide)

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A stretch of host operations as a segment: over the unscoped references from the contents `W`, `R` riding along; it
    leaves those references at the contents after the operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at call 1's exit contents, the generator register at some
    state. -/
abbrev Tₙ (c : Dev nD) : sProp 𝕄 := iprop(StableHlo.held (c : Thread nD τ) (Pipeline.ucRefs τ sig) (X1 m c) ∗ ∃ r, prngReg c r)

/-! ## The calls as segments -/

set_option backward.isDefEq.respectTransparency.types false in
/-- Call 0 over the thread state: entered from every unscoped buffer at `E0`, left at `X0`. Its arrays are split out of
    the unscoped buffers and put back at the exit contents; the generator register goes into the invariant and comes
    out; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (E0 m c) ∗ R c)
  post c := iprop(StableHlo.held (c : Thread nD τ) (Pipeline.ucRefs τ sig) (X0 m c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VE0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at `E1`, left at `X1`. As call 0, but its invariant
    carries the accumulator: what the launch hands it is the invariant before the first point, and after the last point
    the invariant gives the scoped buffers back. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ L lv 1 fun _ _ => rfl
  pre c := iprop(StableHlo.held (c : Thread nD τ) (Pipeline.ucRefs τ sig) (E1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m 1 c).Φ 0 := hin1 (VE1 m) c
    unfold Pipeline.ΦA at h
    iintro ⟨Hp, -, Hr⟩
    iapply h
    isplitl [Hr]; · iexact Hr
    iexact Hp
  hout c := by
    rw [Pipeline.ownSems0_none]
    have h : (pdats m 1 c).Φ (Fin.last _) ⊢ Pipeline.ΦA spec1 c := hout1 (VE1 m) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VE1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments -/

/-- @main's six segments in order: a host segment per stretch from its boundary's contents, a region per call. -/
abbrev segs : List (Pipeline.Seg (pcfgs (F := F)) Gen.adm (pdats m) () defs₀ 𝒱₀ L lv) :=
  [ .host (hseg hostOps0 hostOps0_sub Gen.hostOps0_fresh (Gen.V0 m)),
    .host (hseg hostOps0_1 hostOps0_1_sub Gen.hostOps0_1_fresh (Gen.V1 m)),
    .host (hseg hostOps0_2 hostOps0_2_sub Gen.hostOps0_2_fresh (Gen.V2 m)),
    .region (reg0 m),
    .host (hseg hostOps1 hostOps1_sub Gen.hostOps1_fresh (X0 m)),
    .region (reg1 m) ]

end Run

open Run in
set_option backward.isDefEq.respectTransparency.types false in
theorem run_main : θ_run defs (onTc (τ := τ) (main (F := F))) ⟨m, fun _ => 0, ρ⟩ (fun r => ∀ c : Dev nD,
      r.2.mem ((c.tc : Thread nD τ).loc main_v40) = (dat1 (VE1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) Gen.adm (pdats m) () cellOf_inj emb₁ defs₀ 𝒱₀ L lv m ρ main (Run.segs m)
    (fun c Q => by
      rewrite [main_chain c, Pipeline.Seg.run_eq_chain,
        show (Run.segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()) ] from rfl]
      exact .rfl)
    (by simp only [Run.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X1 m c b)
    (hfin := fun c s' => by
      iintro ⟨⟨Hh, -⟩, HSI⟩
      unfold StableHlo.held
      imodintro
      iapply (pointsTo_read_all (Pipeline.ucRefs τ sig) (fun b => (((c : Thread nD τ)).1, b)) (X1 m c) s')
      isplitl [Hh] <;> iassumption)
    (hQ := fun s h c =>
      ⟨(h c _ (mem_uc main_v40 (by decide))).trans (X1_main_v40 m c),
       (h c _ (mem_uc main_arg0 (by decide))).trans (X1_main_arg0 m c),
       (h c _ (mem_uc main_arg1 (by decide))).trans (X1_main_arg1 m c),
       (h c _ (mem_uc main_arg2 (by decide))).trans (X1_main_arg2 m c),
       (h c _ (mem_uc main_arg3 (by decide))).trans (X1_main_arg3 m c),
       (h c _ (mem_uc main_arg4 (by decide))).trans (X1_main_arg4 m c),
       (h c _ (mem_uc main_arg5 (by decide))).trans (X1_main_arg5 m c),
       (h c _ (mem_uc main_arg6 (by decide))).trans (X1_main_arg6 m c),
       (h c _ (mem_uc main_arg7 (by decide))).trans (X1_main_arg7 m c)⟩)

end Cert.Kernel.Hand

end
-- ==== Proof.KDefs.lean ====
/-
  The proof data of the two pallas_calls of the program, at a parameter V: the contents of the TensorCore's buffers when
  a call is entered.

  Call 0 (grid of 16 batch tiles) reads seven operands and stores its one result block whole at every point: after the body
  the result window's buffer holds the body's value of the seven operand blocks.
  Call 1 (grid 2 × 8: a half of the batch, then eight blocks of the contraction axis) keeps a 128 × 32 accumulator in a
  scratch buffer across the eight points of a half: it is reset at the first (position ≡ 0 mod 8), every point adds its
  block's product, and only the last (position ≡ 7 mod 8) stores the result block. `accAt1` is the accumulator after each
  point; the invariant `PhiS1` carries it from point to point.
  Then the buffer contents along @main: at call 0's entry, at its exit, at call 1's entry, at its exit.
-/
import proofs.«411370_j2680059593261_3_alg».proof.Proof.Gen.KernelIdeal.Launch
import proofs.«411370_j2680059593261_3_alg».proof.Proof.Gen.KernelIdeal.Skeleton
import proofs.«411370_j2680059593261_3_alg».proof.Proof.Gen.KernelIdeal.Points
import proofs.«411370_j2680059593261_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Call 0 -/

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The result block of point t: the body's value of the seven operand blocks (the body names its loads in the order
    windows 0, 1, 3, 2, 4, 5, 6). -/
def res0 (c : Dev nD) (t : Fin cfg0.N) : Vec F S16x128x512 .bf16 :=
  k0_pay1 (iblk0 V c 0 t) (iblk0 V c 1 t) (iblk0 V c 3 t) (iblk0 V c 2 t) (iblk0 V c 4 t) (iblk0 V c 5 t) (iblk0 V c 6 t)

/-- Call 0's proof data: the arrays as found; every operand's buffer keeps its block, the result's holds `res0`; the
    invariant is the scoped buffers no window stages and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => res0 V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = res0 V c t := by dsimp only [dat0]

/-! ## Call 1 -/

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after the point at position n: this point's product added to zeros at the first point of a half
    (n ≡ 0 mod 8), to what the point before left otherwise. -/
def accAt1 (c : Dev nD) : (n : ℕ) → n < cfg1.N → Vec F S128x32 .f32
  | 0, hn => k1_pay2 (iblk1 V c 0 ⟨0, hn⟩) (iblk1 V c 1 ⟨0, hn⟩) k1_pay1
  | n + 1, hn =>
    if (n + 1) % 8 = 0 then k1_pay2 (iblk1 V c 0 ⟨n + 1, hn⟩) (iblk1 V c 1 ⟨n + 1, hn⟩) k1_pay1
    else k1_pay2 (iblk1 V c 0 ⟨n + 1, hn⟩) (iblk1 V c 1 ⟨n + 1, hn⟩) (accAt1 c n (Nat.lt_of_succ_lt hn))

/-- The result block a point would store: the squashed accumulator plus the bias row (stored only where
    the position is ≡ 7 mod 8; elsewhere the window is idle and this value is consulted by nothing). -/
def res1 (c : Dev nD) (t : Fin cfg1.N) : Vec F S128x32 .f32 :=
  k1_pay3 (accAt1 V c t.val t.isLt) (iblk1 V c 2 t)

/-- The scratch accumulator as a whole memref. -/
abbrev scM1 : Memref sig .tc .vmem S128x32 .f32 := Memref.whole cc1_scratch0

/-- The invariant before position n: before the first point every scoped buffer no window stages at anything and the
    generator register at some state; afterwards the same with the accumulator at what the point before left. -/
def PhiS1 (c : Dev nD) : (n : ℕ) → n ≤ cfg1.N → sProp 𝕄
  | 0, _ => Pipeline.ΦA spec1 c
  | n + 1, hn => iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg7_0), ((c : Thread nD τ).loc cc0_stg7_0) ↦{fullShare} f)
      ∗ (∃ f : Buf (Elt F) ((c : Thread nD τ).loc cc0_stg7_1), ((c : Thread nD τ).loc cc0_stg7_1) ↦{fullShare} f)
      ∗ owns (c : Thread nD τ) scM1 fullShare (accAt1 V c n hn))
      ∗ (∃ r, prngReg c r))

/-- Call 1's proof data: the arrays as found; every operand's buffer keeps its block, the result's holds `res1`; the
    invariant carries the accumulator; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => res1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = res1 V c t := by dsimp only [dat1]

end Regions

/-! ## The buffer contents along @main -/

variable (m : (ℓ : Loc nD τ sig) → Buf (Elt F) ℓ)

/-- At call 0's entry: the launch contents after the three stretches of host operations before it. -/
abbrev E0 (c : Dev nD) : Valuation τ sig (Elt F) := Gen.V3 m c
abbrev VE0 : (c : Dev nD) → (b : Ref sig .tc) → Buf (Elt F) ((c : Thread nD τ).loc b) := fun c b => E0 m c b
/-- At call 0's exit: its arrays at what its write-backs leave, every other buffer as entered. -/
def X0 (c : Dev nD) : Valuation τ sig (Elt F) :=
  Pipeline.withArrays spec0 c (E0 m c) fun w => (dat0 (VE0 m) c).arrAt w cfg0.N
/-- At call 1's entry: after the reshape between the calls. -/
abbrev E1 (c : Dev nD) : Valuation τ sig (Elt F) := StableHlo.after hostOps1 (X0 m c)
abbrev VE1 : (c : Dev nD) → (b : Ref sig .tc) → Buf (Elt F) ((c : Thread nD τ).loc b) := fun c b => E1 m c b
/-- At call 1's exit. -/
def X1 (c : Dev nD) : Valuation τ sig (Elt F) :=
  Pipeline.withArrays spec1 c (E1 m c) fun w => (dat1 (VE1 m) c).arrAt w cfg1.N

/-- Both calls' proof data, each at its entry contents. -/
def pdats : (p : Fin 2) → (c : Dev nD) → Dat τ (Elt F) Unit ℕ (UR sig nD τ) ℕ (Pipeline.pin (pcfgs (F := F)) Gen.adm p) c
  | ⟨0, _⟩ => fun c => dat0 (VE0 m) c
  | ⟨1, _⟩ => fun c => dat1 (VE1 m) c

end Cert.KernelIdeal.Hand

end
-- ==== Proof.KR0.lean ====
/-
  Call 0's body at every grid point: from the seven operand blocks in their staging buffers it leaves the result block
  (the body's value of them) in the result window's buffer, the operands' buffers as they were.
-/
import proofs.«411370_j2680059593261_3_alg».proof.Proof.KDefs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each operand window's buffer

An operand window's current staging buffer holds the window's block at every point, whether the pipeline fetched it
there or not: where it did not, the block index has not moved since the point before, and the body leaves the block in
place. Window 0 (the batch tile of the state) is fetched at every point; windows 1 to 6 (the two weight matrices, the two bias
rows, the degree column and the adjacency matrix) have a constant block index and are fetched at the first point only. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)

/-! ## The body's triple -/

/-- The zero offsets of a rank-2 whole-buffer rectangle, as a constant function. -/
theorem hz0_rank2 : (![0, 0] : Fin 2 → ℕ) = fun _ => 0 := by
  funext a; match a with | ⟨0, _⟩ => rfl | ⟨1, _⟩ => rfl

/-- The zero offsets of a rank-3 whole-buffer rectangle, as a constant function. -/
theorem hz0_rank3 : (![0, 0, 0] : Fin 3 → ℕ) = fun _ => 0 := by
  funext a; match a with | ⟨0, _⟩ => rfl | ⟨1, _⟩ => rfl | ⟨2, _⟩ => rfl

/-- The one store's rectangle holds every index of the result block. -/
theorem cover0_7 (p0 : Vec F S16x128x512 .bf16) (y : S16x128x512.Idx) :
    ∃ pc ∈ ([⟨Rect.unit (s := S16x128x512) ![0, 0, 0] S16x128x512.size inb_S16x128x512_S16x128x512_0_0_0, p0⟩] :
      List (View.Piece (Elt F) S16x128x512 .bf16)), y ∈ pc.1.set :=
  ⟨_, List.mem_singleton_self _, View.mem_set_unit_zero hz0_rank3 inb_S16x128x512_S16x128x512_0_0_0 y⟩

set_option maxHeartbeats 1000000 in
/-- On whole staging memrefs, the operands' at read contents and the result's at anything, the body runs to the
    continuation holding the operands' as they were and the result's at the body's value of the seven operand contents.
    The body loads each operand whole (in the order 0, 1, 3, 2, 4, 5, 6), loads the result buffer once (the value is not
    used) and stores the value whole: one store through the whole-shape rectangle at zero offsets leaves its payload,
    and a load through such a rectangle reads the contents. -/
theorem sound_kernel0 (c : Dev nD) (E : Set ℕ) (i : grid0.Coords) (arg1 : Memref sig .tc .vmem S16x128 .f32) (harg1 : arg1.IsWhole) (arg2 : Memref sig .tc .vmem S128x512 .bf16) (harg2 : arg2.IsWhole) (arg3 : Memref sig .tc .vmem S1x1x512 .f32) (harg3 : arg3.IsWhole) (arg4 : Memref sig .tc .vmem S1x128x1 .f32) (harg4 : arg4.IsWhole) (arg5 : Memref sig .tc .vmem S128x128 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S16x128x512 .bf16) (harg8 : arg8.IsWhole)
    (x0 : Vec F S16x128 .f32) (x1 : Vec F S128x512 .bf16) (x2 : Vec F S1x1x512 .f32) (x3 : Vec F S1x128x1 .f32) (x4 : Vec F S128x128 .bf16) (x5 : Vec F S512x512 .bf16) (x6 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k0_pay1 x0 x1 x3 x2 x4 x5 x6)) -∗ K ⟨⟩))
      ⊢ wp frame (wpE (defs₀ (F := F)) Variants.none c none) E (cc0__gconv_kernel i arg1 harg1 arg2 harg2 arg3 harg3 arg4 harg4 arg5 harg5 arg6 harg6 arg7 harg7 arg8 harg8) K := by
  simp only [cc0__gconv_kernel_eq_skeleton]; unfold cc0__gconv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (cover0_7 _)]
  sl_unfold_words
  rw [View.canon_unit_zero hz0_rank3]
  simp only [View.readAt_eq_ld, View.ld_unit_zero (S := S16x128) hz0_rank2, View.ld_unit_zero (S := S128x512) hz0_rank2,
    View.ld_unit_zero (S := S1x128x1) hz0_rank3, View.ld_unit_zero (S := S1x1x512) hz0_rank3,
    View.ld_unit_zero (S := S128x128) hz0_rank2, View.ld_unit_zero (S := S512x512) hz0_rank2,
    View.ld_unit_zero (S := S1x512) hz0_rank2]

/-! ## The body obligation, at a generic point -/

/-- What the body is called with at point `t`: the invariant, what the core owes, and each window's current staging
    buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- What it returns: the same invariant and debt, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the operands' memrefs hold their blocks, so the body's triple applies; the invariant and the
    core's debt pass through unread, and the result's buffer ends at the body's value of the seven blocks. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  unfold res0
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation for call 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KR1.lean ====
/-
  Call 1's body at every grid point: the accumulator is reset at the first point of a half, every point adds its block's
  product, the last point of a half stores the squashed result; the invariant carries the accumulator between points.
-/
import proofs.«411370_j2680059593261_3_alg».proof.Proof.KDefs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two conditions, in closed form over the grid -/

/-- The body's first condition: the position inside the half is 0. -/
abbrev cond1_0 (i : grid1.Coords) : Prop :=
  (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The body's second condition: the position inside the half is 7. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The three operand windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off a half's last point the result window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At a half's last point it is live. -/
theorem liveAt1_3 : ∀ t : Fin cfg1.N, cond1_1 (grid1.coords t) → cfg1.idle 3 (grid1.coords t) = false := by decide +kernel

/-! ## The whole-shape rectangle's offsets are zeros -/

theorem hzA : (![0, 0] : Fin S128x8192.rank → Nat) = fun _ => 0 := by
  funext a; fin_cases a <;> rfl
theorem hzB : (![0, 0] : Fin S32x8192.rank → Nat) = fun _ => 0 := by
  funext a; fin_cases a <;> rfl
theorem hzC : (![0, 0] : Fin S1x32.rank → Nat) = fun _ => 0 := by
  funext a; fin_cases a <;> rfl
theorem hz2 : (![0, 0] : Fin S128x32.rank → Nat) = fun _ => 0 := by
  funext a; fin_cases a <;> rfl

/-- Each window's current staging memref at point t, as the pipeline passes it to the body, and its wholeness. -/
abbrev ms1_0 (t : Fin cfg1.N) : Memref sig .tc .vmem S128x8192 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x8192 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x32 .f32 := win1_3.stage (cfg1.slots t 3)
abbrev hs1_3 (t : Fin cfg1.N) : (ms1_3 t).IsWhole := hstage1_3 ((cfg1.slots t 3).cast nbuf1_3)

/-! ## The body's run, case by case, on any whole staging memrefs -/

set_option maxHeartbeats 1000000 in
/-- The first point of a half: the accumulator, found at anything, is reset and ends at this point's product added to
    zeros; every window's buffer is handed back as found. -/
theorem run1_A (c : Dev nD) (i : grid1.Coords)
    (arg2 : Memref sig .tc .vmem S128x8192 .bf16) (harg2 : arg2.IsWhole)
    (arg3 : Memref sig .tc .vmem S32x8192 .bf16) (harg3 : arg3.IsWhole)
    (arg4 : Memref sig .tc .vmem S1x32 .f32) (harg4 : arg4.IsWhole)
    (arg5 : Memref sig .tc .vmem S128x32 .f32) (harg5 : arg5.IsWhole)
    (arg6 : Memref sig .tc .vmem S128x32 .f32) (harg6 : arg6.IsWhole)
    (hc0 : cond1_0 i) (hc1 : ¬cond1_1 i)
    (x0 : Vec F S128x8192 .bf16) (x1 : Vec F S32x8192 .bf16) (x2 : Vec F S1x32 .f32) (xi3 : Vec F S128x32 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare xi3
            ∗ owns (c : Thread nD τ) arg6 fullShare (k1_pay2 x0 x1 (k1_pay1 (F := F)))) -∗ K ⟨⟩))
      ⊢ wp frame (wpE (defs₀ (F := F)) Variants.none c none) E
          (cc1__head_kernel i arg2 harg2 arg3 harg3 arg4 harg4 arg5 harg5 arg6 harg6) K := by
  simp only [cc1__head_kernel_eq_skeleton]; unfold cc1__head_kernel_skel
  unfold owns
  iintro ⟨⟨%f0, %hf0, H0⟩, ⟨%f1, %hf1, H1⟩, ⟨%f2, %hf2, H2⟩, ⟨%f3, %hf3, H3⟩, ⟨%ds0, %fs0, -, HS0⟩, Hk⟩
  obtain rfl := harg2.eq_unread hf0; obtain rfl := harg3.eq_unread hf1
  obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS0
  ipureintro
  sl_unfold_words
  rw [View.read_writes_eq_canon _ _ _ (fun y => ⟨_, List.mem_cons_self .., View.mem_set_unit_zero hz2 Facts₀.inb_S128x32_S128x32_0_0 y⟩)]
  rw [View.canon_cons_unit_zero hz2, View.readCov_unit_zero _ hz2]
  simp only [View.readAt_eq_ld, harg2.read_unread, harg3.read_unread, View.ld_unit_zero (S := S128x8192) hzA, View.ld_unit_zero (S := S32x8192) hzB]

set_option maxHeartbeats 1000000 in
/-- A point inside a half that is neither its first nor its last: the accumulator, at what the point before left, ends at
    that plus this point's product; every window's buffer is handed back as found. -/
theorem run1_B (c : Dev nD) (i : grid1.Coords)
    (arg2 : Memref sig .tc .vmem S128x8192 .bf16) (harg2 : arg2.IsWhole)
    (arg3 : Memref sig .tc .vmem S32x8192 .bf16) (harg3 : arg3.IsWhole)
    (arg4 : Memref sig .tc .vmem S1x32 .f32) (harg4 : arg4.IsWhole)
    (arg5 : Memref sig .tc .vmem S128x32 .f32) (harg5 : arg5.IsWhole)
    (arg6 : Memref sig .tc .vmem S128x32 .f32) (harg6 : arg6.IsWhole)
    (hc0 : ¬cond1_0 i) (hc1 : ¬cond1_1 i)
    (x0 : Vec F S128x8192 .bf16) (x1 : Vec F S32x8192 .bf16) (x2 : Vec F S1x32 .f32) (xi3 : Vec F S128x32 .f32)
    (xs : Vec F S128x32 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ owns (c : Thread nD τ) arg6 fullShare xs
        ∗ (iprop(owns (c : Thread nD τ) arg2 fullShare x0 ∗ owns (c : Thread nD τ) arg3 fullShare x1
            ∗ owns (c : Thread nD τ) arg4 fullShare x2 ∗ owns (c : Thread nD τ) arg5 fullShare xi3
            ∗ owns (c : Thread nD τ) arg6 fullShare (k1_pay2 x0 x1 xs)) -∗ K ⟨⟩))
      ⊢ wp frame (wpE (defs₀ (F := F)) Variants.none c none) E
          (cc1__head_kernel i arg2 harg2 arg3 harg3 arg4 harg4 arg5 harg5 arg6 harg6) K := by
  simp only [cc1__head_kernel_eq_skeleton]; unfold cc1__head_kernel_skel
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg2.eq_unread hf0; obtain rfl := harg3.eq_unread hf1
  obtain rfl := harg4.eq_unread hf2; obtain rfl := harg5.eq_unread hf3
  obtain rfl := harg6.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS0
  ipureintro
  sl_unfold_words
  rw [View.read_writes_eq_canon _ _ _ (fun y => ⟨_, List.mem_cons_self .., View.mem_set_unit_zero hz2 Facts₀.inb_S128x32_S128x32_0_0 y⟩)]
  rw [View.canon_unit_zero hz2]
  simp only [View.readAt_eq_ld, harg2.read_unread, harg3.read_unread, harg6.read_unread, View.ld_unit_zero (S := S128x8192) hzA, View.ld_unit_zero (S := S32x8192) hzB, View.ld_unit_zero (S := S128x32) hz2]

set_option maxHeartbeats 1000000 in
/-- The last point of a half: the accumulator ends as at the points before it, and the result window's buffer, found at
    anything, ends at the squashed accumulator plus the bias row. -/
theorem run1_C (c : Dev nD) (i : grid1.Coords)
    (arg2 : Memref sig .tc .vmem S128x8192 .bf16) (harg2 : arg2.IsWhole)
    (arg3 : Memref sig .tc .vmem S32x8192 .bf16) (harg3 : arg3.IsWhole)
    (arg4 : Memref sig .tc .vmem S1x32 .f32) (harg4 : arg4.IsWhole)
    (arg5 : Memref sig .tc .vmem S128x32 .f32) (harg5 : arg5.IsWhole)
    (arg6 : Memref sig .tc .vmem S128x32 .f32) (harg6 : arg6.IsWhole)
    (hc0 : ¬cond1_0 i) (hc1 : cond1_1 i)
    (x0 : Vec F S128x8192 .bf16) (x1 : Vec F S32x8192 .bf16) (x2 : Vec F S1x32 .f32)
    (xs : Vec F S128x32 .f32) (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ owns (c : Thread nD τ) arg6 fullShare xs
        ∗ (iprop(owns (c : Thread nD τ) arg2 fullShare x0 ∗ owns (c : Thread nD τ) arg3 fullShare x1
            ∗ owns (c : Thread nD τ) arg4 fullShare x2
            ∗ owns (c : Thread nD τ) arg5 fullShare (k1_pay3 (k1_pay2 x0 x1 xs) x2)
            ∗ owns (c : Thread nD τ) arg6 fullShare (k1_pay2 x0 x1 xs)) -∗ K ⟨⟩))
      ⊢ wp frame (wpE (defs₀ (F := F)) Variants.none c none) E
          (cc1__head_kernel i arg2 harg2 arg3 harg3 arg4 harg4 arg5 harg5 arg6 harg6) K := by
  simp only [cc1__head_kernel_eq_skeleton]; unfold cc1__head_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg2.eq_unread hf0; obtain rfl := harg3.eq_unread hf1
  obtain rfl := harg4.eq_unread hf2
  obtain rfl := harg6.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_eq_canon _ _ _ (fun y => ⟨_, List.mem_cons_self .., View.mem_set_unit_zero hz2 Facts₀.inb_S128x32_S128x32_0_0 y⟩)]
    rw [View.canon_unit_zero hz2, View.readCov_unit_zero _ hz2]
    simp only [View.readAt_eq_ld, harg2.read_unread, harg3.read_unread, harg4.read_unread, harg6.read_unread, View.ld_unit_zero (S := S128x8192) hzA, View.ld_unit_zero (S := S32x8192) hzB, View.ld_unit_zero (S := S1x32) hzC, View.ld_unit_zero (S := S128x32) hz2]
  iexists _; isplitr
  swap; · iexact HS0
  ipureintro
  sl_unfold_words
  rw [View.read_writes_eq_canon _ _ _ (fun y => ⟨_, List.mem_cons_self .., View.mem_set_unit_zero hz2 Facts₀.inb_S128x32_S128x32_0_0 y⟩)]
  rw [View.canon_unit_zero hz2]
  simp only [View.readAt_eq_ld, harg2.read_unread, harg3.read_unread, harg6.read_unread, View.ld_unit_zero (S := S128x8192) hzA, View.ld_unit_zero (S := S32x8192) hzB, View.ld_unit_zero (S := S128x32) hz2]

/-! ## The invariant, with the accumulator's buffer threaded out -/

/-- The scoped buffers call 1 neither stages through nor uses (call 0's ten staging buffers), each at some contents, and the
    generator register at some state. -/
def Rest1 (c : Dev nD) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg7_0), ((c : Thread nD τ).loc cc0_stg7_0) ↦{fullShare} f)
      ∗ (∃ f : Buf (Elt F) ((c : Thread nD τ).loc cc0_stg7_1), ((c : Thread nD τ).loc cc0_stg7_1) ↦{fullShare} f))
      ∗ (∃ r, prngReg c r))

/-- The invariant's shape — the ten buffers, then one more conjunct, beside the generator register — is that conjunct
    beside the rest. -/
theorem thread1 (c : Dev nD) (P : sProp 𝕄) :
    iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg7_0), ((c : Thread nD τ).loc cc0_stg7_0) ↦{fullShare} f)
      ∗ (∃ f : Buf (Elt F) ((c : Thread nD τ).loc cc0_stg7_1), ((c : Thread nD τ).loc cc0_stg7_1) ↦{fullShare} f)
      ∗ P)
      ∗ (∃ r, prngReg c r)) = iprop(P ∗ Rest1 (F := F) c) := by
  unfold Rest1
  refine equiv_iff.mp ⟨?_, ?_⟩
  · show (_ : sProp 𝕄) ⊢ _
    iintro ⟨⟨A0, A1, A2, A3, A4, A5, A6, A7, A8, A9, HP⟩, Hg⟩
    isplitl [HP]; · iexact HP
    isplitr [Hg]
    swap; · iexact Hg
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  · show (_ : sProp 𝕄) ⊢ _
    iintro ⟨HP, ⟨A0, A1, A2, A3, A4, A5, A6, A7, A8, A9⟩, Hg⟩
    isplitr [Hg]
    swap; · iexact Hg
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact HP

section Frame
variable (V : (c : Dev nD) → (b : Ref sig .tc) → Buf (Elt F) ((c : Thread nD τ).loc b))

/-- What the launch hands the call: the accumulator's buffer at anything, beside the rest. -/
theorem PhiA1_eq (c : Dev nD) :
    (Pipeline.ΦA spec1 c : sProp 𝕄) = iprop((∃ d, owns (c : Thread nD τ) scM1 fullShare d) ∗ Rest1 (F := F) c) := by
  unfold Pipeline.ΦA; rw [scopedRest1_eq]; simp only [scM1, owns_whole]; exact thread1 c _

theorem PhiS1_zero (c : Dev nD) (n : ℕ) (h : n ≤ cfg1.N) (hz : n = 0) : PhiS1 V c n h = Pipeline.ΦA spec1 c := by
  subst hz; rfl

/-- After the point at position n: the accumulator at that point's contents, beside the rest. -/
theorem PhiS1_succ (c : Dev nD) (n : ℕ) (hn : n < cfg1.N) :
    PhiS1 V c (n + 1) hn = iprop(owns (c : Thread nD τ) scM1 fullShare (accAt1 V c n hn) ∗ Rest1 (F := F) c) := by
  rw [← thread1]; rfl

/-- Before a point that is not the first: the accumulator at what the point before left. -/
theorem PhiS1_pos (c : Dev nD) (n : ℕ) (h : n ≤ cfg1.N) (hz : n ≠ 0) :
    PhiS1 V c n h = iprop(owns (c : Thread nD τ) scM1 fullShare (accAt1 V c (n - 1) (by omega)) ∗ Rest1 (F := F) c) := by
  cases n with
  | zero => exact absurd rfl hz
  | succ n => exact PhiS1_succ V c n h

theorem PhiS1_castSucc (c : Dev nD) (t : Fin cfg1.N) :
    (dat1 V c).Φ t.castSucc = PhiS1 V c t.val (Nat.le_of_lt t.isLt) := by
  dsimp only [dat1]; simp only [Fin.coe_castSucc]

/-! ## The accumulator at a point, by the point's case -/

theorem accAt1_first (c : Dev nD) (t : Fin cfg1.N) (h0 : t.val % 8 = 0) :
    accAt1 V c t.val t.isLt = k1_pay2 (iblk1 V c 0 t) (iblk1 V c 1 t) (k1_pay1 (F := F)) := by
  obtain ⟨n, hn⟩ := t
  cases n with
  | zero => rfl
  | succ n => exact (if_pos h0).trans rfl

theorem accAt1_later (c : Dev nD) (t : Fin cfg1.N) (h0 : ¬t.val % 8 = 0) :
    accAt1 V c t.val t.isLt
      = k1_pay2 (iblk1 V c 0 t) (iblk1 V c 1 t) (accAt1 V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The operands' buffers hold their blocks at every point -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

end Frame

section Body
variable (V : (c : Dev nD) → (b : Ref sig .tc) → Buf (Elt F) ((c : Thread nD τ).loc b))

/-! ## The body obligation, at a generic point -/

/-- What the body is called with at point t: the invariant, what the core owes, and each window's current buffer at what
    it then holds, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The three operand buffers hold their blocks; the point's position in its half says which of the
    three runs applies; the invariant hands the body the accumulator at what the point before left (at anything before the
    first point) and takes it back at this point's contents; off a half's last point the result buffer goes back as it was
    found, at the last point it ends at the result block; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [accAt1_first V c t h0]
    by_cases hz : t.val = 0
    · rw [PhiS1_castSucc V c t, PhiS1_zero V c _ _ hz, PhiA1_eq]
      iintro ⟨⟨HS, HR⟩, Ho, ⟨%d0, H0⟩, ⟨%d1, H1⟩, ⟨%d2, H2⟩, ⟨%d3, H3⟩⟩
      iapply (run1_A c (grid1.coords t) _ (hs1_0 t) _ (hs1_1 t) _ (hs1_2 t) _ (hs1_3 t) _ (Memref.isWhole_whole _) ((hcond1_0 t).mpr h0) (fun h => h1 ((hcond1_1 t).mp h)) (iblk1 V c 0 t) (iblk1 V c 1 t) (iblk1 V c 2 t) ((dat1 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR]
      · isplitl [HS]; · iexact HS
        iexact HR
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨HS, HR⟩, Ho, ⟨%d0, H0⟩, ⟨%d1, H1⟩, ⟨%d2, H2⟩, ⟨%d3, H3⟩⟩
      iapply (run1_A c (grid1.coords t) _ (hs1_0 t) _ (hs1_1 t) _ (hs1_2 t) _ (hs1_3 t) _ (Memref.isWhole_whole _) ((hcond1_0 t).mpr h0) (fun h => h1 ((hcond1_1 t).mp h)) (iblk1 V c 0 t) (iblk1 V c 1 t) (iblk1 V c 2 t) ((dat1 V c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR]
      · isplitl [HS]; · iexact HS
        iexact HR
      isplitl [Ho]; · iexact Ho
      isplitl [H0]; · iexact H0
      isplitl [H1]; · iexact H1
      isplitl [H2]; · iexact H2
      iexists _; iexact H3
  · have hz : t.val ≠ 0 := fun e => h0 (by rw [e])
    rw [accAt1_later V c t h0]
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      unfold res1
      rw [accAt1_later V c t h0]
      rw [PhiS1_castSucc V c t, PhiS1_pos V c _ _ hz]
      iintro ⟨⟨HS, HR⟩, Ho, ⟨%d0, H0⟩, ⟨%d1, H1⟩, ⟨%d2, H2⟩, ⟨%d3, H3⟩⟩
      iapply (run1_C c (grid1.coords t) _ (hs1_0 t) _ (hs1_1 t) _ (hs1_2 t) _ (hs1_3 t) _ (Memref.isWhole_whole _) (fun h => h0 ((hcond1_0 t).mp h)) ((hcond1_1 t).mpr h1) (iblk1 V c 0 t) (iblk1 V c 1 t) (iblk1 V c 2 t) (accAt1 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR]
      · isplitl [HS]; · iexact HS
        iexact HR
      isplitl [Ho]; · iexact Ho
      isplitl [H0]; · iexact H0
      isplitl [H1]; · iexact H1
      isplitl [H2]; · iexact H2
      iexact H3
    · rw [Dat.leavesExact_idle (dat1 V c) 3 t (idleAt1_3 t (fun h => h1 ((hcond1_1 t).mp h))) (noFlush1_3 t (fun h => h1 ((hcond1_1 t).mp h)))]
      rw [PhiS1_castSucc V c t, PhiS1_pos V c _ _ hz]
      iintro ⟨⟨HS, HR⟩, Ho, ⟨%d0, H0⟩, ⟨%d1, H1⟩, ⟨%d2, H2⟩, ⟨%d3, H3⟩⟩
      iapply (run1_B c (grid1.coords t) _ (hs1_0 t) _ (hs1_1 t) _ (hs1_2 t) _ (hs1_3 t) _ (Memref.isWhole_whole _) (fun h => h0 ((hcond1_0 t).mp h)) (fun h => h1 ((hcond1_1 t).mp h)) (iblk1 V c 0 t) (iblk1 V c 1 t) (iblk1 V c 2 t) ((dat1 V c).before 3 t d3) (accAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR]
      · isplitl [HS]; · iexact HS
        iexact HR
      isplitl [Ho]; · iexact Ho
      isplitl [H0]; · iexact H0
      isplitl [H1]; · iexact H1
      isplitl [H2]; · iexact H2
      iexists _; iexact H3

end Body

variable (V : (c : Dev nD) → (b : Ref sig .tc) → Buf (Elt F) ((c : Thread nD τ).loc b))

/-- The library's body obligation for call 1, at every point. -/
theorem body_obligation1 (c : Dev nD) : BodyObligation (dat1 (F := F) V c) (defs₀ (F := F)) Variants.none () Set.univ := by
  intro t
  rw [bigSep_W1, bigSep_W1]
  exact sound_body1 V c t

/-- What the launch hands the call is the invariant before the first point. -/
theorem hin1 (c : Dev nD) : Pipeline.ΦA spec1 c ⊢ (dat1 (F := F) V c).Φ 0 := by
  rw [show (dat1 V c).Φ 0 = PhiS1 V c 0 (Nat.zero_le _) from rfl, PhiS1_zero V c 0 _ rfl]

/-- After any point but the first the invariant gives the scoped buffers back: the accumulator's contents are forgotten. -/
theorem Phi_out1 (c : Dev nD) (t : Fin (cfg1.N + 1)) (ht : t.val ≠ 0) : (dat1 (F := F) V c).Φ t ⊢ Pipeline.ΦA spec1 c := by
  rw [show (dat1 V c).Φ t = PhiS1 V c t.val (Nat.le_of_lt_succ t.isLt) from rfl, PhiS1_pos V c _ _ ht, PhiA1_eq]
  iintro ⟨HS, HR⟩
  isplitl [HS]
  · iexists _; iexact HS
  iexact HR

/-- After the last point the invariant gives the scoped buffers back, the accumulator's contents forgotten. -/
theorem hout1 (c : Dev nD) : (dat1 (F := F) V c).Φ (Fin.last cfg1.N) ⊢ Pipeline.ΦA spec1 c := by
  exact Phi_out1 V c _ (by rw [Fin.val_last]; have : cfg1.N = 16 := N_1; omega)

end Cert.KernelIdeal.Hand

end
-- ==== Proof.KRun.lean ====
/-
  The run of @main: three stretches of host operations, call 0, a reshape, call 1. Every weakly fair execution terminates;
  the result array ends at what call 1's write-backs leave, the eight arguments as launched.
-/
import proofs.«411370_j2680059593261_3_alg».proof.Proof.KDefs
import proofs.«411370_j2680059593261_3_alg».proof.Proof.KR0
import proofs.«411370_j2680059593261_3_alg».proof.Proof.KR1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

namespace Run

/-! ## The buffer contents at the calls' exits, read at a reference -/

/-- At call 0's exit each of its arrays holds what its write-backs leave, -/
theorem X0_arr (c : Dev nD) (w : Fin cfg0.W) :
    X0 m c (Proc.devRef .tc (Pipeline.arrRef spec0 w)) = (dat0 (VE0 m) c).arrAt w cfg0.N := by
  unfold X0; exact Pipeline.withArrays_arr spec0 launch0.win.arr_inj c _ _ w
/-- and every other buffer what it held at entry. -/
theorem X0_of_ne (c : Dev nD) (b : Ref sig .tc) (hb : ∀ w, Pipeline.arrRef spec0 w ≠ b) :
    X0 m c (Proc.devRef .tc b) = E0 m c (Proc.devRef .tc b) := by
  unfold X0; exact Pipeline.withArrays_of_ne spec0 c _ _ b hb
/-- Call 0's exit contents read at the TensorCore's references. -/
abbrev VX0 : (c : Dev nD) → (b : Ref sig .tc) → Buf (Elt F) ((c : Thread nD τ).loc b) := fun c b => X0 m c b
theorem hF0 (c : Dev nD) (w : Fin cfg0.W) : (dat0 (VE0 m) c).arrAt w cfg0.N = VX0 m c (Pipeline.arrRef spec0 w) :=
  (X0_arr m c w).symm
theorem hrest0 (c : Dev nD) : ∀ b, b ∉ Finset.univ.image (Pipeline.arrRef spec0) → VX0 m c b = VE0 m c b :=
  fun b hb => X0_of_ne m c b fun w e => hb (Finset.mem_image.mpr ⟨w, Finset.mem_univ _, e⟩)

/-- At call 1's exit each of its arrays holds what its write-backs leave, -/
theorem X1_arr (c : Dev nD) (w : Fin cfg1.W) :
    X1 m c (Proc.devRef .tc (Pipeline.arrRef spec1 w)) = (dat1 (VE1 m) c).arrAt w cfg1.N := by
  unfold X1; exact Pipeline.withArrays_arr spec1 launch1.win.arr_inj c _ _ w
/-- and every other buffer what it held at entry. -/
theorem X1_of_ne (c : Dev nD) (b : Ref sig .tc) (hb : ∀ w, Pipeline.arrRef spec1 w ≠ b) :
    X1 m c (Proc.devRef .tc b) = E1 m c (Proc.devRef .tc b) := by
  unfold X1; exact Pipeline.withArrays_of_ne spec1 c _ _ b hb
/-- Call 1's exit contents read at the TensorCore's references. -/
abbrev VX1 : (c : Dev nD) → (b : Ref sig .tc) → Buf (Elt F) ((c : Thread nD τ).loc b) := fun c b => X1 m c b
theorem hF1 (c : Dev nD) (w : Fin cfg1.W) : (dat1 (VE1 m) c).arrAt w cfg1.N = VX1 m c (Pipeline.arrRef spec1 w) :=
  (X1_arr m c w).symm
theorem hrest1 (c : Dev nD) : ∀ b, b ∉ Finset.univ.image (Pipeline.arrRef spec1) → VX1 m c b = VE1 m c b :=
  fun b hb => X1_of_ne m c b fun w e => hb (Finset.mem_image.mpr ⟨w, Finset.mem_univ _, e⟩)

/-! ### The result array ends at call 1's write-backs; the arguments end as launched: no host operation writes one, and a
    call either reads it through an input window (call 0 reads the first argument) or bypasses it -/

theorem X1_main_v40 (c : Dev nD) : X1 m c (Proc.devRef .tc main_v40) = (dat1 (VE1 m) c).arrAt 3 cfg1.N :=
  X1_arr m c 3

/-- An argument no window of either call names walks back through the fold to the launch memory. -/
theorem X1_bypass (c : Dev nD) (r : Ref sig .tc) (h1 : ∀ w, Pipeline.arrRef spec1 w ≠ r) (hh1 : r ∉ Gen.hostOps1_W)
    (h0 : ∀ w, Pipeline.arrRef spec0 w ≠ r) (hh02 : r ∉ Gen.hostOps0_2_W) (hh01 : r ∉ Gen.hostOps0_1_W) (hh00 : r ∉ Gen.hostOps0_W) :
    X1 m c (Proc.devRef .tc r) = m ((c : Thread nD τ).loc r) :=
  calc X1 m c (Proc.devRef .tc r)
    _ = E1 m c (Proc.devRef .tc r) := X1_of_ne m c r h1
    _ = X0 m c (Proc.devRef .tc r) := StableHlo.after_of_writes_sub hostOps1 _ Gen.hostOps1_writes hh1
    _ = E0 m c (Proc.devRef .tc r) := X0_of_ne m c r h0
    _ = Gen.V2 m c (Proc.devRef .tc r) := Gen.V3_of m c r hh02
    _ = Gen.V1 m c (Proc.devRef .tc r) := Gen.V2_of m c r hh01
    _ = Gen.V0 m c (Proc.devRef .tc r) := Gen.V1_of m c r hh00
    _ = m ((c : Thread nD τ).loc r) := rfl

theorem X1_main_arg0 (c : Dev nD) : X1 m c (Proc.devRef .tc main_arg0) = m ((c : Thread nD τ).loc main_arg0) :=
  calc X1 m c (Proc.devRef .tc main_arg0)
    _ = E1 m c (Proc.devRef .tc main_arg0) := X1_of_ne m c main_arg0 (by decide)
    _ = X0 m c (Proc.devRef .tc main_arg0) := StableHlo.after_of_writes_sub hostOps1 _ Gen.hostOps1_writes (by decide)
    _ = E0 m c (Proc.devRef .tc main_arg0) := (X0_arr m c 0).trans (((dat0 (VE0 m) c).arrAt_in 0 rfl _).trans (A_eq0 (VE0 m) c 0))
    _ = Gen.V2 m c (Proc.devRef .tc main_arg0) := Gen.V3_of m c main_arg0 (by decide)
    _ = Gen.V1 m c (Proc.devRef .tc main_arg0) := Gen.V2_of m c main_arg0 (by decide)
    _ = Gen.V0 m c (Proc.devRef .tc main_arg0) := Gen.V1_of m c main_arg0 (by decide)
    _ = m ((c : Thread nD τ).loc main_arg0) := rfl
theorem X1_main_arg1 (c : Dev nD) : X1 m c (Proc.devRef .tc main_arg1) = m ((c : Thread nD τ).loc main_arg1) :=
  X1_bypass m c main_arg1 (by decide) (by decide) (by decide) (by decide) (by decide) (by decide)
theorem X1_main_arg2 (c : Dev nD) : X1 m c (Proc.devRef .tc main_arg2) = m ((c : Thread nD τ).loc main_arg2) :=
  X1_bypass m c main_arg2 (by decide) (by decide) (by decide) (by decide) (by decide) (by decide)
theorem X1_main_arg3 (c : Dev nD) : X1 m c (Proc.devRef .tc main_arg3) = m ((c : Thread nD τ).loc main_arg3) :=
  X1_bypass m c main_arg3 (by decide) (by decide) (by decide) (by decide) (by decide) (by decide)
theorem X1_main_arg4 (c : Dev nD) : X1 m c (Proc.devRef .tc main_arg4) = m ((c : Thread nD τ).loc main_arg4) :=
  X1_bypass m c main_arg4 (by decide) (by decide) (by decide) (by decide) (by decide) (by decide)
theorem X1_main_arg5 (c : Dev nD) : X1 m c (Proc.devRef .tc main_arg5) = m ((c : Thread nD τ).loc main_arg5) :=
  X1_bypass m c main_arg5 (by decide) (by decide) (by decide) (by decide) (by decide) (by decide)
theorem X1_main_arg6 (c : Dev nD) : X1 m c (Proc.devRef .tc main_arg6) = m ((c : Thread nD τ).loc main_arg6) :=
  X1_bypass m c main_arg6 (by decide) (by decide) (by decide) (by decide) (by decide) (by decide)
theorem X1_main_arg7 (c : Dev nD) : X1 m c (Proc.devRef .tc main_arg7) = m ((c : Thread nD τ).loc main_arg7) :=
  X1_bypass m c main_arg7 (by decide) (by decide) (by decide) (by decide) (by decide) (by decide)

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A stretch of host operations as a segment: over the unscoped references from the contents `W`, `R` riding along; it
    leaves those references at the contents after the operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at call 1's exit contents, the generator register at some
    state. -/
abbrev Tₙ (c : Dev nD) : sProp 𝕄 := iprop(StableHlo.held (c : Thread nD τ) (Pipeline.ucRefs τ sig) (X1 m c) ∗ ∃ r, prngReg c r)

/-! ## The calls as segments -/

set_option backward.isDefEq.respectTransparency.types false in
/-- Call 0 over the thread state: entered from every unscoped buffer at `E0`, left at `X0`. Its arrays are split out of
    the unscoped buffers and put back at the exit contents; the generator register goes into the invariant and comes
    out; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (E0 m c) ∗ R c)
  post c := iprop(StableHlo.held (c : Thread nD τ) (Pipeline.ucRefs τ sig) (X0 m c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VE0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at `E1`, left at `X1`. As call 0, but its invariant
    carries the accumulator: what the launch hands it is the invariant before the first point, and after the last point
    the invariant gives the scoped buffers back. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ L lv 1 fun _ _ => rfl
  pre c := iprop(StableHlo.held (c : Thread nD τ) (Pipeline.ucRefs τ sig) (E1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m 1 c).Φ 0 := hin1 (VE1 m) c
    unfold Pipeline.ΦA at h
    iintro ⟨Hp, -, Hr⟩
    iapply h
    isplitl [Hr]; · iexact Hr
    iexact Hp
  hout c := by
    rw [Pipeline.ownSems0_none]
    have h : (pdats m 1 c).Φ (Fin.last _) ⊢ Pipeline.ΦA spec1 c := hout1 (VE1 m) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VE1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments -/

/-- @main's six segments in order: a host segment per stretch from its boundary's contents, a region per call. -/
abbrev segs : List (Pipeline.Seg (pcfgs (F := F)) Gen.adm (pdats m) () defs₀ 𝒱₀ L lv) :=
  [ .host (hseg hostOps0 hostOps0_sub Gen.hostOps0_fresh (Gen.V0 m)),
    .host (hseg hostOps0_1 hostOps0_1_sub Gen.hostOps0_1_fresh (Gen.V1 m)),
    .host (hseg hostOps0_2 hostOps0_2_sub Gen.hostOps0_2_fresh (Gen.V2 m)),
    .region (reg0 m),
    .host (hseg hostOps1 hostOps1_sub Gen.hostOps1_fresh (X0 m)),
    .region (reg1 m) ]

end Run

open Run in
set_option backward.isDefEq.respectTransparency.types false in
theorem run_main : θ_run defs (onTc (τ := τ) (main (F := F))) ⟨m, fun _ => 0, ρ⟩ (fun r => ∀ c : Dev nD,
      r.2.mem ((c.tc : Thread nD τ).loc main_v40) = (dat1 (VE1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) Gen.adm (pdats m) () cellOf_inj emb₁ defs₀ 𝒱₀ L lv m ρ main (Run.segs m)
    (fun c Q => by
      rewrite [main_chain c, Pipeline.Seg.run_eq_chain,
        show (Run.segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()) ] from rfl]
      exact .rfl)
    (by simp only [Run.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X1 m c b)
    (hfin := fun c s' => by
      iintro ⟨⟨Hh, -⟩, HSI⟩
      unfold StableHlo.held
      imodintro
      iapply (pointsTo_read_all (Pipeline.ucRefs τ sig) (fun b => (((c : Thread nD τ)).1, b)) (X1 m c) s')
      isplitl [Hh] <;> iassumption)
    (hQ := fun s h c =>
      ⟨(h c _ (mem_uc main_v40 (by decide))).trans (X1_main_v40 m c),
       (h c _ (mem_uc main_arg0 (by decide))).trans (X1_main_arg0 m c),
       (h c _ (mem_uc main_arg1 (by decide))).trans (X1_main_arg1 m c),
       (h c _ (mem_uc main_arg2 (by decide))).trans (X1_main_arg2 m c),
       (h c _ (mem_uc main_arg3 (by decide))).trans (X1_main_arg3 m c),
       (h c _ (mem_uc main_arg4 (by decide))).trans (X1_main_arg4 m c),
       (h c _ (mem_uc main_arg5 (by decide))).trans (X1_main_arg5 m c),
       (h c _ (mem_uc main_arg6 (by decide))).trans (X1_main_arg6 m c),
       (h c _ (mem_uc main_arg7 (by decide))).trans (X1_main_arg7 m c)⟩)

end Cert.KernelIdeal.Hand

end
-- ==== Proof.KVSpec.lean ====
/-
  What the two pallas_calls compute at the exact-arithmetic values, as functions of their operand arrays read index by index.
  G0: for a batch element b, node n, feature h': relu (Σ_h (Σ_m M[n,m] · relu (deg[m] · (Σ_f x[b,f] · W1[f,h]) + b1[h])) · W2[h,h'] + b2[h']).
  G1: for a batch element b and output o: tanh (Σ_J flat[b,J] · WoT[o,J] + bo[o]).
-/
import proofs.«411370_j2680059593261_3_alg».proof.Proof.KDefs
import Idealize.ShloMosaic.PureOps.Ideal
import Idealize.ShloMosaic.Lib.ValueIdx
set_option maxRecDepth 16384

noncomputable section

namespace Cert.KernelIdeal.Val

open Idealize.ShloMosaic Idealize.ShloMosaic.ValueIdx
open Cert.KernelIdeal

/-- Call 0's result at (b, n, h'), of its seven operand arrays. -/
def G0 (x : S256x128.Idx → EReal) (w1 : S128x512.Idx → EReal) (b1r : S1x1x512.Idx → EReal) (dg : S1x128x1.Idx → EReal)
    (Mb : S128x128.Idx → EReal) (w2 : S512x512.Idx → EReal) (b2r : S1x512.Idx → EReal)
    (b : Fin 256) (n : Fin 128) (h' : Fin 512) : EReal :=
  max ((∑ h : Fin 512, (∑ m' : Fin 128, Mb (ix2 n m') *
      max (dg (ix3 (0 : Fin 1) m' (0 : Fin 1)) * (∑ f : Fin 128, x (ix2 b f) * w1 (ix2 f h)) + b1r (ix3 (0 : Fin 1) (0 : Fin 1) h)) 0)
        * w2 (ix2 h h')) + b2r (ix2 (0 : Fin 1) h')) 0

/-- Call 1's result at (b, o), of its three operand arrays. -/
def G1 (flat : S256x65536.Idx → EReal) (woT : S32x65536.Idx → EReal) (bor : S1x32.Idx → EReal)
    (b : Fin 256) (o : Fin 32) : EReal :=
  Ideal.tanh ((∑ J : Fin 65536, flat (ix2 b J) * woT (ix2 o J)) + bor (ix2 (0 : Fin 1) o))

end Cert.KernelIdeal.Val

end
-- ==== Proof.LibMatProd.lean ====
import Idealize.ShloMosaic.PureOps.Ideal
import Idealize.ShloMosaic.Lib.ValueIdx
import Mathlib.Data.EReal.Basic
import Mathlib.Algebra.BigOperators.Group.Finset.Basic

/-!
# A matrix product on extended reals, index by index

`mmP A B` is the product of an `M × K` and a `K × N` array of extended reals: entry `(r, s)` is the sum over the
contracted axis of `A (r, j) * B (j, s)`. Every tiled matrix product of the program is this function of its two operand
arrays, whatever the tiling.
-/

open Idealize.ShloMosaic Idealize.ShloMosaic.ValueIdx

namespace MatProd

/-- The `M × K` by `K × N` product on extended reals, as a function of the result's index. -/
noncomputable def mmP {M K N : ℕ} (A : (⟨2, ![M, K]⟩ : Shape).Idx → EReal) (B : (⟨2, ![K, N]⟩ : Shape).Idx → EReal) :
    (⟨2, ![M, N]⟩ : Shape).Idx → EReal :=
  fun idx => ∑ j : Fin K, A (ix2 (idx 0) j) * B (ix2 j (idx 1))

/-- Entry `(r, s)` of the product is the sum of the products along the contracted axis. -/
theorem mmP_apply {M K N : ℕ} (A : (⟨2, ![M, K]⟩ : Shape).Idx → EReal) (B : (⟨2, ![K, N]⟩ : Shape).Idx → EReal)
    (r : Fin M) (s : Fin N) : mmP A B (ix2 r s) = ∑ j : Fin K, A (ix2 r j) * B (ix2 j s) := rfl

end MatProd
-- ==== Proof.LibDotPlain.lean ====
/-
  A plain matrix product read index by index, for any extents: a contraction of an [M × K] by a [K × N] array whose
  dimension numbers contract the left operand's axis 1 with the right operand's axis 0, with no batch axis, is the
  matrix product `MatProd.mmP` — entry (r, s) the sum over j of l (r, j) · r (j, s) — both as the host's
  `dot_general` and as the matrix unit's product into a zero accumulator, at the exact-arithmetic instance.
-/
import Idealize.ShloMosaic.PureOps.Ideal
import Idealize.ShloMosaic.PureOps.Ideal.Laws
import Idealize.ShloMosaic.PureOps.Contract
import Idealize.ShloMosaic.Lib.ValueIdx
import proofs.«411370_j2680059593261_3_alg».proof.Proof.LibMatProd

noncomputable section

namespace Idealize.ShloMosaic.DotPlain

open Idealize.ShloMosaic Idealize.ShloMosaic.ValueIdx MatProd

variable {M K N : Nat} (d : DotDims ⟨2, ![M, K]⟩ ⟨2, ![K, N]⟩ ⟨2, ![M, N]⟩)

/-- The left operand's row is the result's row. -/
theorem lhs_axis0 (hlb : d.lhsBatch = []) (hln : d.lhsNonContracting = [0]) (j : (⟨2, ![M, N]⟩ : Shape).Idx) (k : d.contr.Idx) :
    (d.lhsIdx j k 0).val = (j 0).val := by
  have key : ∀ (p q : Nat) (hp : p < (⟨2, ![M, N]⟩ : Shape).rank) (hq : q < (⟨2, ![M, N]⟩ : Shape).rank), p = q →
      (j ⟨p, hp⟩).val = (j ⟨q, hq⟩).val := fun p q hp hq h => by subst h; rfl
  unfold DotDims.lhsIdx
  rw [dif_neg (by rw [hlb]; exact List.not_mem_nil), dif_pos (by rw [hln]; exact List.mem_singleton.mpr rfl)]
  simp only [Fin.val_cast]
  exact key _ _ _ _ (by simp [hlb, hln])

/-- The right operand's column is the result's column. -/
theorem rhs_axis1 (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have key : ∀ (p q : Nat) (hp : p < (⟨2, ![M, N]⟩ : Shape).rank) (hq : q < (⟨2, ![M, N]⟩ : Shape).rank), p = q →
      (j ⟨p, hp⟩).val = (j ⟨q, hq⟩).val := fun p q hp hq h => by subst h; rfl
  unfold DotDims.rhsIdx
  rw [dif_neg (by rw [hrb]; exact List.not_mem_nil), dif_pos (by rw [hrn]; exact List.mem_singleton.mpr rfl)]
  simp only [Fin.val_cast]
  exact key _ _ _ _ (by simp [hlb, hln, hrn])

/-- The contraction's sum, re-indexed by the contracted coordinate: the matrix product's entry. -/
theorem contr_sum (hlc : d.lhsContracting = [1]) (hrc : d.rhsContracting = [0]) (hln : d.lhsNonContracting = [0])
    (hrn : d.rhsNonContracting = [1]) (hlb : d.lhsBatch = []) (hrb : d.rhsBatch = [])
    (X : (⟨2, ![M, K]⟩ : Shape).Idx → EReal) (Y : (⟨2, ![K, N]⟩ : Shape).Idx → EReal) (j : (⟨2, ![M, N]⟩ : Shape).Idx) :
    ∑ k : d.contr.Idx, X (d.lhsIdx j k) * Y (d.rhsIdx j k) = mmP X Y j := by
  have hr : d.contr.rank = 1 := by rw [d.rank_contr, hlc]; rfl
  have hs : d.contr.size ⟨0, by omega⟩ = K := by
    rw [d.size_contr 0 (by rw [hlc]; exact Nat.one_pos)]
    simp [hlc]
  refine (Equiv.sum_comp (contrEquiv1 d K hr hs).symm _).symm.trans ?_
  unfold mmP
  refine Finset.sum_congr rfl fun kk _ => ?_
  have e1 : d.lhsIdx j ((contrEquiv1 d K hr hs).symm kk) = ix2 (j 0) kk := by
    funext a; apply Fin.ext
    match a with
    | ⟨0, _⟩ => exact lhs_axis0 d hlb hln j _
    | ⟨1, _⟩ => exact (d.lhsIdx_val_of_single hlc j _).trans (contrEquiv1_symm_val d K hr hs kk)
  have e2 : d.rhsIdx j ((contrEquiv1 d K hr hs).symm kk) = ix2 kk (j 1) := by
    funext a; apply Fin.ext
    match a with
    | ⟨0, _⟩ => exact (d.rhsIdx_val_of_single hrc j _).trans (contrEquiv1_symm_val d K hr hs kk)
    | ⟨1, _⟩ => exact rhs_axis1 d hlb hrb hln hrn j _
  exact congrArg₂ (· * ·) (congrArg X e1) (congrArg Y e2)

/-- The host's `dot_general` with these dimension numbers is the matrix product. -/
theorem dotGeneral_eq (hlc : d.lhsContracting = [1]) (hrc : d.rhsContracting = [0]) (hln : d.lhsNonContracting = [0])
    (hrn : d.rhsNonContracting = [1]) (hlb : d.lhsBatch = []) (hrb : d.rhsBatch = []) {φ₁ φ₂ : FTy}
    (prec : Option ContractPrecision) (sched : HostSchedule)
    (X : FVec Ideal ⟨2, ![M, K]⟩ φ₁) (Y : FVec Ideal ⟨2, ![K, N]⟩ φ₂) :
    FloatOps.dotGeneral d prec sched X Y = mmP X Y := by
  funext j
  rw [Ideal.dotGeneral_apply]
  exact contr_sum d hlc hrc hln hrn hlb hrb X Y j

/-- The matrix unit's product with these dimension numbers into a zero accumulator is the matrix product. -/
theorem matmul_zero_eq (hlc : d.lhsContracting = [1]) (hrc : d.rhsContracting = [0]) (hln : d.lhsNonContracting = [0])
    (hrn : d.rhsNonContracting = [1]) (hlb : d.lhsBatch = []) (hrb : d.rhsBatch = []) {φ₁ φ₂ : FTy}
    (prec : Option ContractPrecision) (X : FVec Ideal ⟨2, ![M, K]⟩ φ₁) (Y : FVec Ideal ⟨2, ![K, N]⟩ φ₂) :
    FloatOps.matmul d prec X Y (constant ⟨2, ![M, N]⟩ .f32 0x00000000#32) = mmP X Y := by
  funext j
  rw [Ideal.matmul_constant_zero_apply]
  exact contr_sum d hlc hrc hln hrn hlb hrb X Y j

end Idealize.ShloMosaic.DotPlain

end
-- ==== Proof.KPay0.lean ====
/-
  Call 0's body value read at an index, at the exact-arithmetic values, for any seven operand blocks: entry (p, n, h') of the
  16 × 128 × 512 result block is relu (Σ_h (Σ_m M[n,m] · relu (deg[m] · (Σ_f x[p,f] · W1[f,h]) + b1[h])) · W2[h,h'] + b2[h']).
  Changes of float format are the identity; the three matrix products into zero accumulators are plain sums; the merge of the
  two leading axes before the last product and the split after it cancel.
-/
import proofs.«411370_j2680059593261_3_alg».proof.Proof.KVSpec
import proofs.«411370_j2680059593261_3_alg».proof.Proof.LibDotPlain
import Idealize.ShloMosaic.Lib.Pipeline.Value
import Idealize.ShloMosaic.Lib.ValueLayout
import Idealize.ShloMosaic.PureOps.Ideal.Laws
set_option maxRecDepth 16384

noncomputable section
namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand

/-! ## The layout operations of the body, read at explicit coordinates -/

section Layout
variable {α : Type}

/-- A [16, 512] array cast to [16, 1, 512] reads, at (p, u, h), the operand at (p, h). -/
theorem cast_16x512_16x1x512_apply (v : S16x512.Idx → α) (hc : S16x512.ShapeCasts S16x1x512) (p : Fin 16) (u : Fin 1) (h : Fin 512) :
    shapeCast S16x1x512 v hc (ix3 p u h) = v (ix2 p h) :=
  shapeCast_apply v hc _ _ (by
    have hu : u.val = 0 := by omega
    rw [Shape.rowMajor_val_two, Shape.rowMajor_val_three]
    show p.val * 512 + h.val = (p.val * 1 + u.val) * 512 + h.val
    omega)

/-- Row 128 p + n of the merged [2048, 512] array is row (p, n) of the [16, 128, 512] array. -/
theorem cast_16x128x512_2048x512_apply (v : S16x128x512.Idx → α) (hc : S16x128x512.ShapeCasts S2048x512)
    (p : Fin 16) (n : Fin 128) (h : Fin 512) (r : Fin 2048) (hr : r.val = 128 * p.val + n.val) :
    shapeCast S2048x512 v hc (ix2 r h) = v (ix3 p n h) :=
  shapeCast_apply v hc _ _ (by
    rw [Shape.rowMajor_val_two, Shape.rowMajor_val_three]
    show (p.val * 128 + n.val) * 512 + h.val = r.val * 512 + h.val
    omega)

/-- Row (p, n) of the split [16, 128, 512] array is row 128 p + n of the [2048, 512] array. -/
theorem cast_2048x512_16x128x512_apply (v : S2048x512.Idx → α) (hc : S2048x512.ShapeCasts S16x128x512)
    (p : Fin 16) (n : Fin 128) (h : Fin 512) (r : Fin 2048) (hr : r.val = 128 * p.val + n.val) :
    shapeCast S16x128x512 v hc (ix3 p n h) = v (ix2 r h) :=
  shapeCast_apply v hc _ _ (by
    rw [Shape.rowMajor_val_two, Shape.rowMajor_val_three]
    show r.val * 512 + h.val = (p.val * 128 + n.val) * 512 + h.val
    omega)

/-- A [1, 128, 1] column broadcast to [16, 128, 512] reads, at (p, m, h), the operand at (0, m, 0). -/
theorem bcast_1x128x1_apply (v : S1x128x1.Idx → α) (hb : S1x128x1.Broadcasts S16x128x512) (p : Fin 16) (m : Fin 128) (h : Fin 512) :
    broadcastTo S16x128x512 v hb (ix3 p m h) = v (ix3 (0 : Fin 1) m (0 : Fin 1)) := by
  refine broadcastTo_apply v hb (ix3 p m h) (ix3 (0 : Fin 1) m (0 : Fin 1)) fun ax => ?_
  match ax with
  | ⟨0, _⟩ => rfl
  | ⟨1, _⟩ => rfl
  | ⟨2, _⟩ => rfl

/-- A [16, 1, 512] array broadcast to [16, 128, 512] reads, at (p, m, h), the operand at (p, 0, h). -/
theorem bcast_16x1x512_apply (v : S16x1x512.Idx → α) (hb : S16x1x512.Broadcasts S16x128x512) (p : Fin 16) (m : Fin 128) (h : Fin 512) :
    broadcastTo S16x128x512 v hb (ix3 p m h) = v (ix3 p (0 : Fin 1) h) := by
  refine broadcastTo_apply v hb (ix3 p m h) (ix3 p (0 : Fin 1) h) fun ax => ?_
  match ax with
  | ⟨0, _⟩ => rfl
  | ⟨1, _⟩ => rfl
  | ⟨2, _⟩ => rfl

/-- A [1, 1, 512] row broadcast to [16, 128, 512] reads, at (p, m, h), the operand at (0, 0, h). -/
theorem bcast_1x1x512_apply (v : S1x1x512.Idx → α) (hb : S1x1x512.Broadcasts S16x128x512) (p : Fin 16) (m : Fin 128) (h : Fin 512) :
    broadcastTo S16x128x512 v hb (ix3 p m h) = v (ix3 (0 : Fin 1) (0 : Fin 1) h) := by
  refine broadcastTo_apply v hb (ix3 p m h) (ix3 (0 : Fin 1) (0 : Fin 1) h) fun ax => ?_
  match ax with
  | ⟨0, _⟩ => rfl
  | ⟨1, _⟩ => rfl
  | ⟨2, _⟩ => rfl

/-- A [1, 128, 128] array broadcast to [16, 128, 128] reads, at (p, n, m), the operand at (0, n, m). -/
theorem bcast_1x128x128_apply (v : S1x128x128.Idx → α) (hb : S1x128x128.Broadcasts S16x128x128) (p : Fin 16) (n : Fin 128) (m : Fin 128) :
    broadcastTo S16x128x128 v hb (ix3 p n m) = v (ix3 (0 : Fin 1) n m) := by
  refine broadcastTo_apply v hb (ix3 p n m) (ix3 (0 : Fin 1) n m) fun ax => ?_
  match ax with
  | ⟨0, _⟩ => rfl
  | ⟨1, _⟩ => rfl
  | ⟨2, _⟩ => rfl

end Layout

/-! ## The three matrix products into zero accumulators, as plain sums -/

/-- The [16 × 128] · [128 × 512] product: entry (p, h) is the sum over f of x (p, f) · w (f, h). -/
theorem mm1_apply (x : FVec Ideal S16x128 .bf16) (w : FVec Ideal S128x512 .bf16) (p : Fin 16) (h : Fin 512) :
    matmul dot_S16x128_S128x512_S16x512_1_0_0_1_n_n none x w (constant (F := Ideal) S16x512 .f32 0x00000000#32) (ix2 p h)
      = ∑ f : Fin 128, x (ix2 p f) * w (ix2 f h) :=
  congrFun (DotPlain.matmul_zero_eq dot_S16x128_S128x512_S16x512_1_0_0_1_n_n rfl rfl rfl rfl rfl rfl none x w) (ix2 p h)

/-- The [2048 × 512] · [512 × 512] product: entry (r, h') is the sum over h of y (r, h) · w (h, h'). -/
theorem mm3_apply (y : FVec Ideal S2048x512 .bf16) (w : FVec Ideal S512x512 .bf16) (r : Fin 2048) (h' : Fin 512) :
    matmul dot_S2048x512_S512x512_S2048x512_1_0_0_1_n_n none y w (constant (F := Ideal) S2048x512 .f32 0x00000000#32) (ix2 r h')
      = ∑ h : Fin 512, y (ix2 r h) * w (ix2 h h') :=
  congrFun (DotPlain.matmul_zero_eq dot_S2048x512_S512x512_S2048x512_1_0_0_1_n_n rfl rfl rfl rfl rfl rfl none y w) (ix2 r h')

/-! The batched product [16, 128, 128] · [16, 128, 512]: batch axis 0 on both sides, the left operand's axis 2 contracted with
    the right operand's axis 1. Each operand index, axis by axis. -/

theorem lhs_bmm_0 (i : S16x128x512.Idx) (q : dot_S16x128x128_S16x128x512_S16x128x512_2_1_1_2_0_0.contr.Idx) :
    (dot_S16x128x128_S16x128x512_S16x128x512_2_1_1_2_0_0.lhsIdx i q 0).val = (i 0).val := by
  unfold DotDims.lhsIdx
  rw [dif_pos (show (0 : Fin S16x128x128.rank) ∈ dot_S16x128x128_S16x128x512_S16x128x512_2_1_1_2_0_0.lhsBatch by decide)]
  rfl
theorem lhs_bmm_1 (i : S16x128x512.Idx) (q : dot_S16x128x128_S16x128x512_S16x128x512_2_1_1_2_0_0.contr.Idx) :
    (dot_S16x128x128_S16x128x512_S16x128x512_2_1_1_2_0_0.lhsIdx i q 1).val = (i 1).val := by
  unfold DotDims.lhsIdx
  rw [dif_neg (show ¬(1 : Fin S16x128x128.rank) ∈ dot_S16x128x128_S16x128x512_S16x128x512_2_1_1_2_0_0.lhsBatch by decide), dif_pos (show (1 : Fin S16x128x128.rank) ∈ dot_S16x128x128_S16x128x512_S16x128x512_2_1_1_2_0_0.lhsNonContracting by decide)]
  rfl
theorem lhs_bmm_2 (i : S16x128x512.Idx) (q : dot_S16x128x128_S16x128x512_S16x128x512_2_1_1_2_0_0.contr.Idx) :
    (dot_S16x128x128_S16x128x512_S16x128x512_2_1_1_2_0_0.lhsIdx i q 2).val = (q ⟨0, by decide⟩).val :=
  dot_S16x128x128_S16x128x512_S16x128x512_2_1_1_2_0_0.lhsIdx_val_of_single rfl i q
theorem rhs_bmm_0 (i : S16x128x512.Idx) (q : dot_S16x128x128_S16x128x512_S16x128x512_2_1_1_2_0_0.contr.Idx) :
    (dot_S16x128x128_S16x128x512_S16x128x512_2_1_1_2_0_0.rhsIdx i q 0).val = (i 0).val := by
  unfold DotDims.rhsIdx
  rw [dif_pos (show (0 : Fin S16x128x512.rank) ∈ dot_S16x128x128_S16x128x512_S16x128x512_2_1_1_2_0_0.rhsBatch by decide)]
  rfl
theorem rhs_bmm_1 (i : S16x128x512.Idx) (q : dot_S16x128x128_S16x128x512_S16x128x512_2_1_1_2_0_0.contr.Idx) :
    (dot_S16x128x128_S16x128x512_S16x128x512_2_1_1_2_0_0.rhsIdx i q 1).val = (q ⟨0, by decide⟩).val :=
  dot_S16x128x128_S16x128x512_S16x128x512_2_1_1_2_0_0.rhsIdx_val_of_single rfl i q
theorem rhs_bmm_2 (i : S16x128x512.Idx) (q : dot_S16x128x128_S16x128x512_S16x128x512_2_1_1_2_0_0.contr.Idx) :
    (dot_S16x128x128_S16x128x512_S16x128x512_2_1_1_2_0_0.rhsIdx i q 2).val = (i 2).val := by
  unfold DotDims.rhsIdx
  rw [dif_neg (show ¬(2 : Fin S16x128x512.rank) ∈ dot_S16x128x128_S16x128x512_S16x128x512_2_1_1_2_0_0.rhsBatch by decide), dif_pos (show (2 : Fin S16x128x512.rank) ∈ dot_S16x128x128_S16x128x512_S16x128x512_2_1_1_2_0_0.rhsNonContracting by decide)]
  rfl

/-- The batched product: entry (p, n, h) is the sum over m of a (p, n, m) · b (p, m, h). -/
theorem bmm_apply (a : FVec Ideal S16x128x128 .bf16) (b : FVec Ideal S16x128x512 .bf16) (p : Fin 16) (n : Fin 128) (h : Fin 512) :
    matmul dot_S16x128x128_S16x128x512_S16x128x512_2_1_1_2_0_0 none a b (constant (F := Ideal) S16x128x512 .f32 0x00000000#32) (ix3 p n h)
      = ∑ m : Fin 128, a (ix3 p n m) * b (ix3 p m h) := by
  show FloatOps.matmul dot_S16x128x128_S16x128x512_S16x128x512_2_1_1_2_0_0 none a b (constant (F := Ideal) S16x128x512 .f32 0x00000000#32) (ix3 p n h) = _
  rw [Ideal.matmul_constant_zero_apply, ← Equiv.sum_comp (contrEquiv1 dot_S16x128x128_S16x128x512_S16x128x512_2_1_1_2_0_0 128 rfl rfl).symm]
  refine Finset.sum_congr rfl fun k _ => ?_
  have hk := contrEquiv1_symm_val dot_S16x128x128_S16x128x512_S16x128x512_2_1_1_2_0_0 128 rfl rfl k
  have el : dot_S16x128x128_S16x128x512_S16x128x512_2_1_1_2_0_0.lhsIdx (ix3 p n h) ((contrEquiv1 dot_S16x128x128_S16x128x512_S16x128x512_2_1_1_2_0_0 128 rfl rfl).symm k) = ix3 p n k := funext fun ax => Fin.ext (by
    match ax with
    | ⟨0, _⟩ => exact lhs_bmm_0 _ _
    | ⟨1, _⟩ => exact lhs_bmm_1 _ _
    | ⟨2, _⟩ => exact (lhs_bmm_2 _ _).trans hk)
  have er : dot_S16x128x128_S16x128x512_S16x128x512_2_1_1_2_0_0.rhsIdx (ix3 p n h) ((contrEquiv1 dot_S16x128x128_S16x128x512_S16x128x512_2_1_1_2_0_0 128 rfl rfl).symm k) = ix3 p k h := funext fun ax => Fin.ext (by
    match ax with
    | ⟨0, _⟩ => exact rhs_bmm_0 _ _
    | ⟨1, _⟩ => exact (rhs_bmm_1 _ _).trans hk
    | ⟨2, _⟩ => exact rhs_bmm_2 _ _)
  rw [el, er]

/-! ## The body's four layers, each read at explicit coordinates over the value of the layer before -/

/-- The first product of the operand blocks: entry (p, h) is the sum over f of x (p, f) · W1 (f, h). -/
theorem layer0_apply (x0 : FVec Ideal S16x128 .f32) (x1 : FVec Ideal S128x512 .bf16) (p : Fin 16) (h : Fin 512) :
    matmul dot_S16x128_S128x512_S16x512_1_0_0_1_n_n none (truncf .bf16 x0) (shapeCast S128x512 x1)
        (constant (F := Ideal) S16x512 .f32 0x00000000#32) (ix2 p h)
      = ∑ f : Fin 128, (x0 : S16x128.Idx → EReal) (ix2 p f) * (x1 : S128x512.Idx → EReal) (ix2 f h) := by
  rw [mm1_apply, shapeCast_self]
  rfl

/-- The scaled, shifted and rectified copy over the nodes: entry (p, m, h) is relu (deg (0, m, 0) · s (p, h) + b1 (0, 0, h)). -/
theorem layer1_apply (s : FVec Ideal S16x512 .f32) (x3 : FVec Ideal S1x128x1 .f32) (x2 : FVec Ideal S1x1x512 .f32)
    (p : Fin 16) (m : Fin 128) (h : Fin 512) :
    maximumf (addf (mulf (broadcastTo S16x128x512 (shapeCast S1x128x1 x3)) (broadcastTo S16x128x512 (shapeCast S16x1x512 s)))
        (broadcastTo S16x128x512 (shapeCast S1x1x512 x2))) (broadcast S16x128x512 (Scalar.ofBits (F := Ideal) .f32 0x00000000#32)) (ix3 p m h)
      = max ((x3 : S1x128x1.Idx → EReal) (ix3 (0 : Fin 1) m (0 : Fin 1)) * s (ix2 p h)
          + (x2 : S1x1x512.Idx → EReal) (ix3 (0 : Fin 1) (0 : Fin 1) h)) 0 := by
  rw [maximumf_apply, addf_apply, mulf_apply, broadcast_apply, bcast_1x128x1_apply, bcast_16x1x512_apply, bcast_1x1x512_apply,
    shapeCast_self, shapeCast_self, cast_16x512_16x1x512_apply]
  show max _ (Ideal.ofBits .f32 0x00000000#32) = _
  rw [Ideal.ofBits_zero_f32]

/-- The aggregation over the nodes: entry (p, n, h) is the sum over m of M (n, m) · z (p, m, h). -/
theorem layer2_apply (z : FVec Ideal S16x128x512 .f32) (x4 : FVec Ideal S128x128 .bf16) (p : Fin 16) (n : Fin 128) (h : Fin 512) :
    matmul dot_S16x128x128_S16x128x512_S16x128x512_2_1_1_2_0_0 none
        (broadcastTo S16x128x128 (shapeCast S1x128x128 (shapeCast S128x128 x4))) (truncf .bf16 z)
        (constant (F := Ideal) S16x128x512 .f32 0x00000000#32) (ix3 p n h)
      = ∑ m : Fin 128, (x4 : S128x128.Idx → EReal) (ix2 n m) * z (ix3 p m h) := by
  rw [bmm_apply]
  refine Finset.sum_congr rfl fun m _ => ?_
  rw [bcast_1x128x128_apply, shapeCast_ab_1ab_apply, shapeCast_self, truncf_apply]

/-- The last product on the merged rows, shifted, rectified and split back: entry (p, n, h') is
    relu (Σ_h y (p, n, h) · W2 (h, h') + b2 (0, h')). -/
theorem layer3_apply (y : FVec Ideal S16x128x512 .f32) (x5 : FVec Ideal S512x512 .bf16) (x6 : FVec Ideal S1x512 .f32)
    (p : Fin 16) (n : Fin 128) (h' : Fin 512) :
    (shapeCast S16x128x512 (truncf .bf16 (maximumf (addf
        (matmul dot_S2048x512_S512x512_S2048x512_1_0_0_1_n_n none (shapeCast S2048x512 (truncf .bf16 y)) (shapeCast S512x512 x5)
          (constant (F := Ideal) S2048x512 .f32 0x00000000#32))
        (broadcastTo S2048x512 (shapeCast S1x512 x6))) (broadcast S2048x512 (Scalar.ofBits (F := Ideal) .f32 0x00000000#32))))) (ix3 p n h')
      = max ((∑ h : Fin 512, y (ix3 p n h) * (x5 : S512x512.Idx → EReal) (ix2 h h')) + (x6 : S1x512.Idx → EReal) (ix2 (0 : Fin 1) h')) 0 := by
  have hr : 128 * p.val + n.val < 2048 := by have := p.isLt; have := n.isLt; omega
  rw [cast_2048x512_16x128x512_apply _ _ p n h' ⟨128 * p.val + n.val, hr⟩ rfl, truncf_apply, maximumf_apply, addf_apply, broadcast_apply,
    mm3_apply, broadcastTo_1b_ab_apply, shapeCast_self, shapeCast_self]
  show max (_ + _) (Ideal.ofBits .f32 0x00000000#32) = _
  rw [Ideal.ofBits_zero_f32]
  refine congrArg (fun t => max (t + _) 0) (Finset.sum_congr rfl fun h _ => ?_)
  rw [cast_16x128x512_2048x512_apply _ _ p n h ⟨128 * p.val + n.val, hr⟩ rfl, truncf_apply]

theorem pay0_apply (x0 : Vec Ideal S16x128 .f32) (x1 : Vec Ideal S128x512 .bf16) (x3 : Vec Ideal S1x128x1 .f32) (x2 : Vec Ideal S1x1x512 .f32)
    (x4 : Vec Ideal S128x128 .bf16) (x5 : Vec Ideal S512x512 .bf16) (x6 : Vec Ideal S1x512 .f32)
    (p : Fin 16) (n : Fin 128) (h' : Fin 512) :
    (k0_pay1 (F := Ideal) x0 x1 x3 x2 x4 x5 x6 : S16x128x512.Idx → EReal) (ix3 p n h')
      = max ((∑ h : Fin 512, (∑ m' : Fin 128, (x4 : S128x128.Idx → EReal) (ix2 n m') *
          max ((x3 : S1x128x1.Idx → EReal) (ix3 (0 : Fin 1) m' (0 : Fin 1)) * (∑ f : Fin 128, (x0 : S16x128.Idx → EReal) (ix2 p f) * (x1 : S128x512.Idx → EReal) (ix2 f h))
            + (x2 : S1x1x512.Idx → EReal) (ix3 (0 : Fin 1) (0 : Fin 1) h)) 0)
          * (x5 : S512x512.Idx → EReal) (ix2 h h')) + (x6 : S1x512.Idx → EReal) (ix2 (0 : Fin 1) h')) 0 := by
  unfold k0_pay1
  refine (layer3_apply _ x5 x6 p n h').trans ?_
  refine congrArg (fun t => max (t + _) 0) (Finset.sum_congr rfl fun h _ => ?_)
  refine congrArg (· * _) ?_
  refine (layer2_apply _ x4 p n h).trans (Finset.sum_congr rfl fun m' _ => ?_)
  refine congrArg (_ * ·) ?_
  refine (layer1_apply _ x3 x2 p m' h).trans ?_
  rw [layer0_apply]

end Cert.KernelIdeal.Val

end
-- ==== Proof.KV0.lean ====
/-
  Call 0's result array after the call, at the exact-arithmetic values: entry (b, n, h') is G0 of the seven operand arrays
  as the call found them. Each of the 16 grid points writes the block of 16 batch rows it computed; the blocks tile the array.
-/
import proofs.«411370_j2680059593261_3_alg».proof.Proof.KVSpec
import proofs.«411370_j2680059593261_3_alg».proof.Proof.KPay0
import Idealize.ShloMosaic.Lib.Pipeline.Value
import Idealize.ShloMosaic.Lib.ValueLayout
import Idealize.ShloMosaic.PureOps.Ideal.Laws
set_option maxRecDepth 16384

noncomputable section
namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The index maps of the eight windows, decided over the 16 grid points: the batch operand and the result move with the
    point along their leading axis; every other operand stays at block 0. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = t.val ∧ win0_7.index t (1 : Fin 3) = 0 ∧ win0_7.index t (2 : Fin 3) = 0 :=
  (by decide +kernel : ∀ t : Fin grid0.N, _)

/-- Every batch tile is some point's. -/
theorem idx_onto0 : ∀ q : Fin 16, ∃ t : Fin cfg0.N, t.val = q.val :=
  (by decide +kernel : ∀ q : Fin 16, ∃ t : Fin grid0.N, t.val = q.val)

/-- Window 0's block at point t holds rows 16·t … 16·t + 15 of the batch operand. -/
theorem blk0_apply (c : Dev nD) (t : Fin cfg0.N) (p : Fin 16) (f : Fin 128) (b : Fin 256) (hb : b.val = 16 * t.val + p.val) :
    (iblk0 (F := Ideal) V c 0 t : S16x128.Idx → EReal) (ix2 p f) = (V c main_arg0 : S256x128.Idx → EReal) (ix2 b f) := by
  obtain ⟨e0, e1, -⟩ := idx_facts0 t
  unfold iblk0
  rw [View.read_apply]
  show (V c main_arg0 : S256x128.Idx → EReal) _ = V c main_arg0 _
  congr 1
  funext a
  apply Fin.ext
  match a with
  | ⟨0, _⟩ => show win0_0.index t (0 : Fin 2) * 16 + 1 * p.val = b.val; omega
  | ⟨1, _⟩ => show win0_0.index t (1 : Fin 2) * 128 + 1 * f.val = f.val; omega

/-- Window 1's block at any point is the whole first weight matrix. -/
theorem blk1_apply (c : Dev nD) (t : Fin cfg0.N) (f : Fin 128) (h : Fin 512) :
    (iblk0 (F := Ideal) V c 1 t : S128x512.Idx → EReal) (ix2 f h) = (V c main_v29 : S128x512.Idx → EReal) (ix2 f h) := by
  obtain ⟨-, -, e0, e1, -⟩ := idx_facts0 t
  unfold iblk0
  rw [View.read_apply]
  show (V c main_v29 : S128x512.Idx → EReal) _ = V c main_v29 _
  congr 1
  funext a
  apply Fin.ext
  match a with
  | ⟨0, _⟩ => show win0_1.index t (0 : Fin 2) * 128 + 1 * f.val = f.val; omega
  | ⟨1, _⟩ => show win0_1.index t (1 : Fin 2) * 512 + 1 * h.val = h.val; omega

/-- Window 2's block at any point is the whole first bias row. -/
theorem blk2_apply (c : Dev nD) (t : Fin cfg0.N) (h : Fin 512) :
    (iblk0 (F := Ideal) V c 2 t : S1x1x512.Idx → EReal) (ix3 (0 : Fin 1) (0 : Fin 1) h)
      = (V c main_v34 : S1x1x512.Idx → EReal) (ix3 (0 : Fin 1) (0 : Fin 1) h) := by
  obtain ⟨-, -, -, -, e0, e1, e2, -⟩ := idx_facts0 t
  unfold iblk0
  rw [View.read_apply]
  show (V c main_v34 : S1x1x512.Idx → EReal) _ = V c main_v34 _
  congr 1
  funext a
  apply Fin.ext
  match a with
  | ⟨0, _⟩ => show win0_2.index t (0 : Fin 3) * 1 + 1 * 0 = 0; omega
  | ⟨1, _⟩ => show win0_2.index t (1 : Fin 3) * 1 + 1 * 0 = 0; omega
  | ⟨2, _⟩ => show win0_2.index t (2 : Fin 3) * 512 + 1 * h.val = h.val; omega

/-- Window 3's block at any point is the whole degree column. -/
theorem blk3_apply (c : Dev nD) (t : Fin cfg0.N) (m' : Fin 128) :
    (iblk0 (F := Ideal) V c 3 t : S1x128x1.Idx → EReal) (ix3 (0 : Fin 1) m' (0 : Fin 1))
      = (V c main_v37 : S1x128x1.Idx → EReal) (ix3 (0 : Fin 1) m' (0 : Fin 1)) := by
  obtain ⟨-, -, -, -, -, -, -, e0, e1, e2, -⟩ := idx_facts0 t
  unfold iblk0
  rw [View.read_apply]
  show (V c main_v37 : S1x128x1.Idx → EReal) _ = V c main_v37 _
  congr 1
  funext a
  apply Fin.ext
  match a with
  | ⟨0, _⟩ => show win0_3.index t (0 : Fin 3) * 1 + 1 * 0 = 0; omega
  | ⟨1, _⟩ => show win0_3.index t (1 : Fin 3) * 128 + 1 * m'.val = m'.val; omega
  | ⟨2, _⟩ => show win0_3.index t (2 : Fin 3) * 1 + 1 * 0 = 0; omega

/-- Window 4's block at any point is the whole mixing matrix. -/
theorem blk4_apply (c : Dev nD) (t : Fin cfg0.N) (n : Fin 128) (m' : Fin 128) :
    (iblk0 (F := Ideal) V c 4 t : S128x128.Idx → EReal) (ix2 n m') = (V c main_v31 : S128x128.Idx → EReal) (ix2 n m') := by
  obtain ⟨-, -, -, -, -, -, -, -, -, -, e0, e1, -⟩ := idx_facts0 t
  unfold iblk0
  rw [View.read_apply]
  show (V c main_v31 : S128x128.Idx → EReal) _ = V c main_v31 _
  congr 1
  funext a
  apply Fin.ext
  match a with
  | ⟨0, _⟩ => show win0_4.index t (0 : Fin 2) * 128 + 1 * n.val = n.val; omega
  | ⟨1, _⟩ => show win0_4.index t (1 : Fin 2) * 128 + 1 * m'.val = m'.val; omega

/-- Window 5's block at any point is the whole second weight matrix. -/
theorem blk5_apply (c : Dev nD) (t : Fin cfg0.N) (h : Fin 512) (h' : Fin 512) :
    (iblk0 (F := Ideal) V c 5 t : S512x512.Idx → EReal) (ix2 h h') = (V c main_v30 : S512x512.Idx → EReal) (ix2 h h') := by
  obtain ⟨-, -, -, -, -, -, -, -, -, -, -, -, e0, e1, -⟩ := idx_facts0 t
  unfold iblk0
  rw [View.read_apply]
  show (V c main_v30 : S512x512.Idx → EReal) _ = V c main_v30 _
  congr 1
  funext a
  apply Fin.ext
  match a with
  | ⟨0, _⟩ => show win0_5.index t (0 : Fin 2) * 512 + 1 * h.val = h.val; omega
  | ⟨1, _⟩ => show win0_5.index t (1 : Fin 2) * 512 + 1 * h'.val = h'.val; omega

/-- Window 6's block at any point is the whole second bias row. -/
theorem blk6_apply (c : Dev nD) (t : Fin cfg0.N) (h' : Fin 512) :
    (iblk0 (F := Ideal) V c 6 t : S1x512.Idx → EReal) (ix2 (0 : Fin 1) h') = (V c main_v35 : S1x512.Idx → EReal) (ix2 (0 : Fin 1) h') := by
  obtain ⟨-, -, -, -, -, -, -, -, -, -, -, -, -, -, e0, e1, -⟩ := idx_facts0 t
  unfold iblk0
  rw [View.read_apply]
  show (V c main_v35 : S1x512.Idx → EReal) _ = V c main_v35 _
  congr 1
  funext a
  apply Fin.ext
  match a with
  | ⟨0, _⟩ => show win0_6.index t (0 : Fin 2) * 1 + 1 * 0 = 0; omega
  | ⟨1, _⟩ => show win0_6.index t (1 : Fin 2) * 512 + 1 * h'.val = h'.val; omega

/-- The result block of point t at (p, n, h') is G0 of the operand arrays at batch row 16·t + p. -/
theorem res0_apply (c : Dev nD) (t : Fin cfg0.N) (p : Fin 16) (n : Fin 128) (h' : Fin 512) (b : Fin 256)
    (hb : b.val = 16 * t.val + p.val) :
    (res0 (F := Ideal) V c t : S16x128x512.Idx → EReal) (ix3 p n h')
      = G0 (V c main_arg0) (V c main_v29) (V c main_v34) (V c main_v37) (V c main_v31) (V c main_v30) (V c main_v35) b n h' := by
  unfold res0
  rw [pay0_apply (iblk0 V c 0 t) (iblk0 V c 1 t) (iblk0 V c 3 t) (iblk0 V c 2 t) (iblk0 V c 4 t) (iblk0 V c 5 t) (iblk0 V c 6 t) p n h']
  unfold G0
  simp only [blk0_apply V c t p _ b hb, blk1_apply V c t, blk2_apply V c t, blk3_apply V c t, blk4_apply V c t, blk5_apply V c t,
    blk6_apply V c t]

/-- The whole result array as one function of the seven operand arrays as the call finds them. -/
def arr0 (c : Dev nD) : S256x128x512.Idx → EReal := fun i =>
  G0 (V c main_arg0) (V c main_v29) (V c main_v34) (V c main_v37) (V c main_v31) (V c main_v30) (V c main_v35) (i 0) (i 1) (i 2)

/-- What point t writes back is block t of that array: rows 16·t … 16·t + 15 along the batch axis, everything along
    the other two. -/
theorem flushed0_eq (c : Dev nD) (t : Fin cfg0.N) :
    (dat0 (F := Ideal) V c).flushed 7 t = ((cfg0.win 7).blk t).view.read (Elt Ideal) (arr0 V c) := by
  show (cfg0.win 7).cut (grid0.coords t) ((dat0 V c).after 7 t) = _
  rw [after0_7]
  obtain ⟨-, -, -, -, -, -, -, -, -, -, -, -, -, -, -, -, e0, e1, e2⟩ := idx_facts0 t
  funext j
  have hj0 : (j 0).val < 16 := (j 0).isLt
  have hj1 : (j 1).val < 128 := (j 1).isLt
  have hj2 : (j 2).val < 512 := (j 2).isLt
  have ht : t.val < 16 := Nat.lt_of_lt_of_eq t.isLt N_0
  have hx : (cfg0.win 7).xinj (grid0.coords t) j = ix3 (⟨(j 0).val, hj0⟩ : Fin 16) (⟨(j 1).val, hj1⟩ : Fin 128) (⟨(j 2).val, hj2⟩ : Fin 512) :=
    funext fun a => match a with | ⟨0, _⟩ => rfl | ⟨1, _⟩ => rfl | ⟨2, _⟩ => rfl
  have hi : ((cfg0.win 7).blk t).view.emb j
      = ix3 (⟨16 * t.val + (j 0).val, by omega⟩ : Fin 256) (⟨(j 1).val, hj1⟩ : Fin 128) (⟨(j 2).val, hj2⟩ : Fin 512) := by
    funext a
    apply Fin.ext
    match a with
    | ⟨0, _⟩ => show win0_7.index t (0 : Fin 3) * 16 + 1 * (j 0).val = 16 * t.val + (j 0).val; omega
    | ⟨1, _⟩ => show win0_7.index t (1 : Fin 3) * 128 + 1 * (j 1).val = (j 1).val; omega
    | ⟨2, _⟩ => show win0_7.index t (2 : Fin 3) * 512 + 1 * (j 2).val = (j 2).val; omega
  show (res0 V c t : S16x128x512.Idx → EReal) ((cfg0.win 7).xinj (grid0.coords t) j) = arr0 V c (((cfg0.win 7).blk t).view.emb j)
  rw [hx, hi]
  exact res0_apply V c t _ _ _ _ rfl

/-- An index of the array is in point t's block iff each coordinate is in the block's range on its axis. -/
theorem mem_blk0 (t : Fin cfg0.N) (i : S256x128x512.Idx) :
    i ∈ ((cfg0.win 7).blk t).view.set ↔ ∀ a : Fin 3, win0_7.index t a * S16x128x512.size a ≤ (i a).val
      ∧ (i a).val < win0_7.index t a * S16x128x512.size a + S16x128x512.size a := by
  show i ∈ ((View.whole main_v38).slice (win0_7.rect t)).set ↔ _
  rw [View.set_slice_whole, Rect.mem_set_unit]
  exact Iff.rfl

/-- The 16 blocks tile the array: batch row r lies in the block of point r / 16. -/
theorem cover0 (i : S256x128x512.Idx) :
    ∃ t : Fin cfg0.N, (cfg0.win 7).flush t = true ∧ i ∈ ((cfg0.win 7).blk t).view.set := by
  have hi0 : (i 0).val < 256 := (i 0).isLt
  have hi1 : (i 1).val < 128 := (i 1).isLt
  have hi2 : (i 2).val < 512 := (i 2).isLt
  obtain ⟨t, ht⟩ := idx_onto0 ⟨(i 0).val / 16, by omega⟩
  have ht' : t.val = (i 0).val / 16 := ht
  obtain ⟨-, -, -, -, -, -, -, -, -, -, -, -, -, -, -, -, e0, e1, e2⟩ := idx_facts0 t
  refine ⟨t, flush0_7 t, ?_⟩
  rw [mem_blk0]
  intro a
  match a with
  | ⟨0, _⟩ => show win0_7.index t (0 : Fin 3) * 16 ≤ (i 0).val ∧ (i 0).val < win0_7.index t (0 : Fin 3) * 16 + 16; omega
  | ⟨1, _⟩ => show win0_7.index t (1 : Fin 3) * 128 ≤ (i 1).val ∧ (i 1).val < win0_7.index t (1 : Fin 3) * 128 + 128; omega
  | ⟨2, _⟩ => show win0_7.index t (2 : Fin 3) * 512 ≤ (i 2).val ∧ (i 2).val < win0_7.index t (2 : Fin 3) * 512 + 512; omega

/-- So the result array after the 16 points is that function. -/
theorem final0 (c : Dev nD) : (dat0 (F := Ideal) V c).arrAt 7 cfg0.N = arr0 V c :=
  (dat0 V c).arrAt_eq_of_cover 7 (arr0 V c) (fun t _ => flushed0_eq V c t) cover0

theorem arr0_apply (c : Dev nD) (b : Fin 256) (n : Fin 128) (h' : Fin 512) :
    ((dat0 (F := Ideal) V c).arrAt 7 cfg0.N : S256x128x512.Idx → EReal) (ix3 b n h')
      = G0 (V c main_arg0) (V c main_v29) (V c main_v34) (V c main_v37) (V c main_v31) (V c main_v30) (V c main_v35) b n h' := by
  rw [final0]
  rfl

end Cert.KernelIdeal.Val

end
-- ==== Proof.KPay1.lean ====
/-
  Call 1's three body values read at an index, at the exact-arithmetic values: the reset value is zero; the update adds to the
  accumulator's entry (r, o) the product Σ_j a[r,j] · w[o,j] over the 8192 positions of the block (the second operand is held
  transposed); the stored result is tanh (accumulator + bias).
-/
import proofs.«411370_j2680059593261_3_alg».proof.Proof.KVSpec
import Idealize.ShloMosaic.Lib.Pipeline.Value
import Idealize.ShloMosaic.Lib.ValueLayout
import Idealize.ShloMosaic.PureOps.Ideal.Laws
set_option maxRecDepth 16384

noncomputable section
namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand

/-- The reset value: a broadcast of the zero word of f32, cast to its own shape, reads the extended real 0. -/
theorem pay1_apply (j : S128x32.Idx) : (k1_pay1 (F := Ideal) : S128x32.Idx → EReal) j = 0 := by
  unfold k1_pay1
  rw [shapeCast_self]
  show Ideal.ofBits .f32 0x00000000#32 = 0
  exact Ideal.ofBits_zero_f32

/-! The dot of call 1 contracts axis 1 of both operands; the left operand's axis 0 is the result's axis 0 and the right
    operand's axis 0 is the result's axis 1. The four facts, one per operand axis. -/

/-- Left operand, axis 0 (not contracted): the result's coordinate 0. -/
theorem lhs_pay2_0 (i : S128x32.Idx) (q : dot_S128x8192_S32x8192_S128x32_1_1_0_0_n_n.contr.Idx) :
    (dot_S128x8192_S32x8192_S128x32_1_1_0_0_n_n.lhsIdx i q 0).val = (i 0).val := by
  unfold DotDims.lhsIdx
  rw [dif_neg (show ¬(0 : Fin S128x8192.rank) ∈ dot_S128x8192_S32x8192_S128x32_1_1_0_0_n_n.lhsBatch by decide), dif_pos (show (0 : Fin S128x8192.rank) ∈ dot_S128x8192_S32x8192_S128x32_1_1_0_0_n_n.lhsNonContracting by decide)]
  rfl
/-- Left operand, axis 1 (contracted): the contraction position's one coordinate. -/
theorem lhs_pay2_1 (i : S128x32.Idx) (q : dot_S128x8192_S32x8192_S128x32_1_1_0_0_n_n.contr.Idx) :
    (dot_S128x8192_S32x8192_S128x32_1_1_0_0_n_n.lhsIdx i q 1).val = (q ⟨0, by decide⟩).val :=
  dot_S128x8192_S32x8192_S128x32_1_1_0_0_n_n.lhsIdx_val_of_single rfl i q
/-- Right operand, axis 0 (not contracted): the result's coordinate 1. -/
theorem rhs_pay2_0 (i : S128x32.Idx) (q : dot_S128x8192_S32x8192_S128x32_1_1_0_0_n_n.contr.Idx) :
    (dot_S128x8192_S32x8192_S128x32_1_1_0_0_n_n.rhsIdx i q 0).val = (i 1).val := by
  unfold DotDims.rhsIdx
  rw [dif_neg (show ¬(0 : Fin S32x8192.rank) ∈ dot_S128x8192_S32x8192_S128x32_1_1_0_0_n_n.rhsBatch by decide), dif_pos (show (0 : Fin S32x8192.rank) ∈ dot_S128x8192_S32x8192_S128x32_1_1_0_0_n_n.rhsNonContracting by decide)]
  rfl
/-- Right operand, axis 1 (contracted): the contraction position's one coordinate. -/
theorem rhs_pay2_1 (i : S128x32.Idx) (q : dot_S128x8192_S32x8192_S128x32_1_1_0_0_n_n.contr.Idx) :
    (dot_S128x8192_S32x8192_S128x32_1_1_0_0_n_n.rhsIdx i q 1).val = (q ⟨0, by decide⟩).val :=
  dot_S128x8192_S32x8192_S128x32_1_1_0_0_n_n.rhsIdx_val_of_single rfl i q

/-- The update: the accumulator's entry plus the sum over the 8192 positions of the block of the products of the two
    operands' entries in rows r and o. The same-shape casts are identities, the dot accumulates into the zero constant, and
    the sum over the one-axis contraction index is the sum over its coordinate. -/
theorem pay2_apply (v3 : Vec Ideal S128x8192 .bf16) (v5 : Vec Ideal S32x8192 .bf16) (v8 : Vec Ideal S128x32 .f32) (r : Fin 128) (o : Fin 32) :
    (k1_pay2 (F := Ideal) v3 v5 v8 : S128x32.Idx → EReal) (ix2 r o)
      = (v8 : S128x32.Idx → EReal) (ix2 r o) + ∑ j : Fin 8192, (v3 : S128x8192.Idx → EReal) (ix2 r j) * (v5 : S32x8192.Idx → EReal) (ix2 o j) := by
  unfold k1_pay2
  rw [shapeCast_self, shapeCast_self, shapeCast_self, addf_apply]
  simp only [matmul]
  rw [Ideal.matmul_constant_zero_apply, ← Equiv.sum_comp (ValueIdx.contrEquiv1 dot_S128x8192_S32x8192_S128x32_1_1_0_0_n_n 8192 rfl rfl).symm]
  refine congrArg (_ + ·) (Finset.sum_congr rfl fun k _ => ?_)
  have hk := ValueIdx.contrEquiv1_symm_val dot_S128x8192_S32x8192_S128x32_1_1_0_0_n_n 8192 rfl rfl k
  have el : dot_S128x8192_S32x8192_S128x32_1_1_0_0_n_n.lhsIdx (ix2 r o) ((ValueIdx.contrEquiv1 dot_S128x8192_S32x8192_S128x32_1_1_0_0_n_n 8192 rfl rfl).symm k) = ix2 r k := funext fun a => Fin.ext (by
    match a with
    | ⟨0, _⟩ => exact lhs_pay2_0 _ _
    | ⟨1, _⟩ => exact (lhs_pay2_1 _ _).trans hk)
  have er : dot_S128x8192_S32x8192_S128x32_1_1_0_0_n_n.rhsIdx (ix2 r o) ((ValueIdx.contrEquiv1 dot_S128x8192_S32x8192_S128x32_1_1_0_0_n_n 8192 rfl rfl).symm k) = ix2 o k := funext fun a => Fin.ext (by
    match a with
    | ⟨0, _⟩ => exact rhs_pay2_0 _ _
    | ⟨1, _⟩ => exact (rhs_pay2_1 _ _).trans hk)
  rw [el, er]

/-- The stored result: tanh of the accumulator's entry plus the bias of column o (the one bias row is read on every row). -/
theorem pay3_apply (v16 : Vec Ideal S128x32 .f32) (v17 : Vec Ideal S1x32 .f32) (r : Fin 128) (o : Fin 32) :
    (k1_pay3 (F := Ideal) v16 v17 : S128x32.Idx → EReal) (ix2 r o)
      = Ideal.tanh ((v16 : S128x32.Idx → EReal) (ix2 r o) + (v17 : S1x32.Idx → EReal) (ix2 (0 : Fin 1) o)) := by
  unfold k1_pay3
  rw [shapeCast_self]
  show Ideal.tanh (v16 (ix2 r o) + broadcastTo S128x32 v17 broadcasts_S1x32_S128x32 (ix2 r o)) = _
  rw [broadcastTo_apply v17 broadcasts_S1x32_S128x32 (ix2 r o) (ix2 (0 : Fin 1) o) (fun a => by
    match a with
    | ⟨0, _⟩ => rfl
    | ⟨1, _⟩ => rfl)]

end Cert.KernelIdeal.Val

end
-- ==== Proof.LibGcnSum.lean ====
/-
  Finite-sum algebra for a graph convolution written two ways.

  A dense adjacency built by scattering edge weights, then contracted against a feature
  matrix, is the edge sum a gather / segment-sum computes; two successive contractions
  commute; a zero-padded sum is the unpadded one; a sum over `Fin (b * t)` is a double sum
  over blocks.  The distributive statements are proved in `ℝ` and then lifted to families
  of extended reals all of whose entries are reals; the purely additive statements hold in
  every additive commutative monoid, the extended reals among them.
-/
import Mathlib.Data.EReal.Basic
import Mathlib.Data.EReal.Operations
import Mathlib.Algebra.BigOperators.Fin
import Mathlib.Algebra.BigOperators.Ring.Finset
import Mathlib.Algebra.BigOperators.Group.Finset.Basic
import Mathlib.Algebra.BigOperators.Group.Finset.Piecewise
import Mathlib.Logic.Equiv.Fin.Basic

namespace GcnSum

open scoped BigOperators

/-! ## Additive statements: zero padding and blocks -/

section Additive
variable {M : Type*} [AddCommMonoid M]

/-- A sum over `Fin (n + p)` whose terms vanish from index `n` on is the sum over `Fin n`. -/
theorem sum_fin_add_of_zero {n p : ℕ} (f : Fin (n + p) → M)
    (hz : ∀ i : Fin (n + p), n ≤ i.val → f i = 0) :
    ∑ i, f i = ∑ i : Fin n, f (Fin.castAdd p i) := by
  rw [Fin.sum_univ_add, Finset.sum_eq_zero (fun i _ => hz (Fin.natAdd n i) (by simp)), add_zero]

/-- A sum over `Fin m` whose terms vanish from index `n ≤ m` on is the sum over `Fin n`. -/
theorem sum_fin_of_le_of_zero {n m : ℕ} (hnm : n ≤ m) (f : Fin m → M)
    (hz : ∀ i : Fin m, n ≤ i.val → f i = 0) :
    ∑ i, f i = ∑ i : Fin n, f (Fin.castLE hnm i) := by
  obtain ⟨p, rfl⟩ := Nat.exists_eq_add_of_le hnm
  rw [sum_fin_add_of_zero f hz]
  exact Finset.sum_congr rfl fun i _ => congrArg f (Fin.ext rfl)

/-- The same with the summand given on naturals: the padded and the unpadded sum of
    `g i.val` agree when `g` vanishes on `[n, m)`. -/
theorem sum_fin_val_of_le_of_zero {n m : ℕ} (hnm : n ≤ m) (g : ℕ → M)
    (hz : ∀ k, n ≤ k → k < m → g k = 0) :
    ∑ i : Fin m, g i.val = ∑ i : Fin n, g i.val := by
  exact sum_fin_of_le_of_zero hnm (fun i => g i.val) (fun i hi => hz _ hi i.isLt)

/-- A sum over `Fin (b * t)` as a sum over `b` blocks of `t` terms: the index of block `q`,
    offset `r` is `finProdFinEquiv (q, r)`, whose value is `r + t * q`. -/
theorem sum_fin_mul_blocks {b t : ℕ} (f : Fin (b * t) → M) :
    ∑ i, f i = ∑ q : Fin b, ∑ r : Fin t, f (finProdFinEquiv (q, r)) := by
  rw [← Equiv.sum_comp finProdFinEquiv f, Fintype.sum_prod_type]

/-- The value of the block index. -/
theorem finProdFinEquiv_val {b t : ℕ} (q : Fin b) (r : Fin t) :
    (finProdFinEquiv (q, r) : Fin (b * t)).val = r.val + t * q.val := rfl

/-- The block form with the summand given on naturals. -/
theorem sum_fin_mul_blocks_val {b t : ℕ} (g : ℕ → M) :
    ∑ i : Fin (b * t), g i.val = ∑ q : Fin b, ∑ r : Fin t, g (r.val + t * q.val) := by
  exact sum_fin_mul_blocks (fun i => g i.val)

/-- An indicator sum is the sum over the filtered set. -/
theorem sum_ite_eq_sum_filter {E : Type*} [Fintype E] (p : E → Prop) [DecidablePred p] (f : E → M) :
    (∑ e, if p e then f e else 0) = ∑ e ∈ Finset.univ.filter p, f e := by
  exact (Finset.sum_filter p f).symm

end Additive

/-! ## Distributive statements in the reals -/

section Real
variable {E I J K : Type*} [Fintype E] [Fintype J] [Fintype K] [DecidableEq I] [DecidableEq J]

/-- Scatter, then contract: the dense matrix `A i j = ∑ e, [d e = i ∧ s e = j] w e` applied to
    `h` is the sum over the edges into `i` of `w e * h (s e)`. -/
theorem scatter_contract (d : E → I) (s : E → J) (w : E → ℝ) (h : J → ℝ) (i : I) :
    ∑ j, (∑ e, if d e = i ∧ s e = j then w e else 0) * h j
      = ∑ e, if d e = i then w e * h (s e) else 0 := by
  simp_rw [Finset.sum_mul]
  rw [Finset.sum_comm]
  refine Finset.sum_congr rfl fun e _ => ?_
  by_cases hd : d e = i
  · simp [hd]
  · simp [hd]

/-- Two contractions commute: `(a · X) · y = a · (X · y)`. -/
theorem contract_comm (a : J → ℝ) (x : J → K → ℝ) (y : K → ℝ) :
    ∑ k, (∑ j, a j * x j k) * y k = ∑ j, a j * ∑ k, x j k * y k := by
  simp_rw [Finset.sum_mul, Finset.mul_sum]
  rw [Finset.sum_comm]
  exact Finset.sum_congr rfl fun j _ => Finset.sum_congr rfl fun k _ => mul_assoc _ _ _

end Real

/-! ## The coercion from the reals and finite sums -/

section Coe

/-- The coercion `ℝ → EReal` commutes with finite sums. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The coercion commutes with a conditional whose other branch is zero. -/
theorem coe_ite_zero (p : Prop) [Decidable p] (a : ℝ) :
    ((if p then a else 0 : ℝ) : EReal) = if p then (a : EReal) else 0 := by
  split_ifs <;> simp

/-- A finite sum of reals is a real. -/
theorem exists_real_sum {ι : Type*} (s : Finset ι) (f : ι → EReal) (hf : ∀ i ∈ s, ∃ r : ℝ, f i = r) :
    ∃ r : ℝ, ∑ i ∈ s, f i = r := by
  refine ⟨∑ i ∈ s, (f i).toReal, ?_⟩
  rw [coe_sum]
  refine Finset.sum_congr rfl fun i hi => ?_
  obtain ⟨r, hr⟩ := hf i hi
  rw [hr, EReal.toReal_coe]

/-- A product of two reals is a real. -/
theorem exists_real_mul {x y : EReal} (hx : ∃ r : ℝ, x = r) (hy : ∃ r : ℝ, y = r) :
    ∃ r : ℝ, x * y = r := by
  obtain ⟨a, rfl⟩ := hx
  obtain ⟨b, rfl⟩ := hy
  exact ⟨a * b, (EReal.coe_mul a b).symm⟩

/-- A sum of two reals is a real. -/
theorem exists_real_add {x y : EReal} (hx : ∃ r : ℝ, x = r) (hy : ∃ r : ℝ, y = r) :
    ∃ r : ℝ, x + y = r := by
  obtain ⟨a, rfl⟩ := hx
  obtain ⟨b, rfl⟩ := hy
  exact ⟨a + b, (EReal.coe_add a b).symm⟩

/-- A finite sum of products of reals is a real. -/
theorem exists_real_sum_mul {ι : Type*} [Fintype ι] (f g : ι → EReal) (hf : ∀ i, ∃ r : ℝ, f i = r)
    (hg : ∀ i, ∃ r : ℝ, g i = r) : ∃ r : ℝ, ∑ i, f i * g i = r := by
  exact exists_real_sum _ _ fun i _ => exists_real_mul (hf i) (hg i)

end Coe

/-! ## The distributive statements for families of extended reals with real entries -/

section EReal
variable {E I J K : Type*} [Fintype E] [Fintype J] [Fintype K] [DecidableEq I] [DecidableEq J]

/-- `scatter_contract` for extended reals, every weight and every feature a real. -/
theorem scatter_contract_ereal (d : E → I) (s : E → J) (w : E → EReal) (h : J → EReal)
    (hw : ∀ e, ∃ r : ℝ, w e = r) (hh : ∀ j, ∃ r : ℝ, h j = r) (i : I) :
    ∑ j, (∑ e, if d e = i ∧ s e = j then w e else 0) * h j
      = ∑ e, if d e = i then w e * h (s e) else 0 := by
  choose wr hwr using hw
  choose hr hhr using hh
  have key := congrArg (fun t : ℝ => (t : EReal)) (scatter_contract d s wr hr i)
  simp only [coe_sum, EReal.coe_mul, coe_ite_zero] at key
  simp only [hwr, hhr]
  exact key

/-- The same with both sides as sums over filtered sets of edges. -/
theorem scatter_contract_ereal_filter (d : E → I) (s : E → J) (w : E → EReal) (h : J → EReal)
    (hw : ∀ e, ∃ r : ℝ, w e = r) (hh : ∀ j, ∃ r : ℝ, h j = r) (i : I) :
    ∑ j, (∑ e ∈ Finset.univ.filter (fun e => d e = i ∧ s e = j), w e) * h j
      = ∑ e ∈ Finset.univ.filter (fun e => d e = i), w e * h (s e) := by
  simp only [Finset.sum_filter]
  exact scatter_contract_ereal d s w h hw hh i

/-- `contract_comm` for extended reals, every entry a real. -/
theorem contract_comm_ereal (a : J → EReal) (x : J → K → EReal) (y : K → EReal)
    (ha : ∀ j, ∃ r : ℝ, a j = r) (hx : ∀ j k, ∃ r : ℝ, x j k = r) (hy : ∀ k, ∃ r : ℝ, y k = r) :
    ∑ k, (∑ j, a j * x j k) * y k = ∑ j, a j * ∑ k, x j k * y k := by
  choose ar har using ha
  choose xr hxr using hx
  choose yr hyr using hy
  have key := congrArg (fun t : ℝ => (t : EReal)) (contract_comm ar xr yr)
  simp only [coe_sum, EReal.coe_mul] at key
  simp only [har, hxr, hyr]
  exact key

/-- A real factor distributes over a finite sum of reals (extended-real form of `Finset.mul_sum`). -/
theorem mul_sum_ereal {ι : Type*} (t : Finset ι) (c : EReal) (f : ι → EReal) (hc : ∃ r : ℝ, c = r)
    (hf : ∀ i ∈ t, ∃ r : ℝ, f i = r) : c * ∑ i ∈ t, f i = ∑ i ∈ t, c * f i := by
  obtain ⟨c', rfl⟩ := hc
  have hfg : ∀ i ∈ t, f i = ((f i).toReal : EReal) := fun i hi => by
    obtain ⟨r, hr⟩ := hf i hi
    rw [hr, EReal.toReal_coe]
  rw [Finset.sum_congr rfl hfg, ← coe_sum, ← EReal.coe_mul, Finset.mul_sum, coe_sum]
  refine Finset.sum_congr rfl fun i hi => ?_
  rw [EReal.coe_mul, ← hfg i hi]

/-- The same on the right. -/
theorem sum_mul_ereal {ι : Type*} (t : Finset ι) (c : EReal) (f : ι → EReal) (hc : ∃ r : ℝ, c = r)
    (hf : ∀ i ∈ t, ∃ r : ℝ, f i = r) : (∑ i ∈ t, f i) * c = ∑ i ∈ t, f i * c := by
  calc (∑ i ∈ t, f i) * c = c * ∑ i ∈ t, f i := EReal.mul_comm _ _
    _ = ∑ i ∈ t, c * f i := mul_sum_ereal t c f hc hf
    _ = ∑ i ∈ t, f i * c := Finset.sum_congr rfl fun i _ => EReal.mul_comm _ _

end EReal

end GcnSum
-- ==== Proof.KV1.lean ====
/-
  Call 1's result array after the call, at the exact-arithmetic values: entry (b, o) is G1 of the three operand arrays as the
  call found them. The accumulator after the eight points of a half is the sum of the eight blocks' products, that is the
  whole contraction; the two halves' result blocks tile the array.
-/
import proofs.«411370_j2680059593261_3_alg».proof.Proof.KVSpec
import proofs.«411370_j2680059593261_3_alg».proof.Proof.KPay1
import proofs.«411370_j2680059593261_3_alg».proof.Proof.LibGcnSum
import Idealize.ShloMosaic.Lib.Pipeline.Value
import Idealize.ShloMosaic.Lib.ValueLayout
import Idealize.ShloMosaic.PureOps.Ideal.Laws
set_option maxRecDepth 16384

noncomputable section
namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The three operand arrays as the call finds them, and the three operand blocks at a point, at their literal types. -/
abbrev flatA (c : Dev nD) : S256x65536.Idx → EReal := V c main_v39
abbrev wT (c : Dev nD) : S32x65536.Idx → EReal := V c main_v33
abbrev biasR (c : Dev nD) : S1x32.Idx → EReal := V c main_v36
abbrev flatBlk (c : Dev nD) (t : Fin cfg1.N) : S128x8192.Idx → EReal := iblk1 V c 0 t
abbrev wBlk (c : Dev nD) (t : Fin cfg1.N) : S32x8192.Idx → EReal := iblk1 V c 1 t
abbrev biasBlk (c : Dev nD) (t : Fin cfg1.N) : S1x32.Idx → EReal := iblk1 V c 2 t

/-- The sixteen points are the pairs (half i, contraction block k) at position 8·i + k: the block indices of the four
    windows at a point, decided over the grid. -/
theorem idx1 : ∀ t : Fin cfg1.N,
    win1_0.index t (0 : Fin 2) = t.val / 8 ∧ win1_0.index t (1 : Fin 2) = t.val % 8
    ∧ win1_1.index t (0 : Fin 2) = 0 ∧ win1_1.index t (1 : Fin 2) = t.val % 8
    ∧ win1_2.index t (0 : Fin 2) = 0 ∧ win1_2.index t (1 : Fin 2) = 0
    ∧ win1_3.index t (0 : Fin 2) = t.val / 8 ∧ win1_3.index t (1 : Fin 2) = 0 :=
  (by decide +kernel : ∀ t : Fin grid1.N, _)

/-- The accumulator at a position that is a multiple of 8: this point's product added to zeros. -/
theorem accAt1_zero_mod (c : Dev nD) : ∀ (n : ℕ) (hn : n < cfg1.N), n % 8 = 0 →
    accAt1 V c n hn = k1_pay2 (iblk1 V c 0 ⟨n, hn⟩) (iblk1 V c 1 ⟨n, hn⟩) (k1_pay1 (F := Ideal))
  | 0, hn, _ => by rw [accAt1]
  | n + 1, hn, h0 => by rw [accAt1, if_pos h0]

/-- The accumulator at any other position: this point's product added to what the point before left. -/
theorem accAt1_succ (c : Dev nD) (n : ℕ) (hn : n + 1 < cfg1.N) (h0 : ¬(n + 1) % 8 = 0) :
    accAt1 V c (n + 1) hn
      = k1_pay2 (iblk1 V c 0 ⟨n + 1, hn⟩) (iblk1 V c 1 ⟨n + 1, hn⟩) (accAt1 V c n (Nat.lt_of_succ_lt hn)) := by
  rw [accAt1, if_neg h0]

/-- The first operand's block at a point reads rows 128·(t / 8) … and columns 8192·(t mod 8) … of its array. -/
theorem flatBlk_apply (c : Dev nD) (t : Fin cfg1.N) (r : Fin 128) (j : Fin 8192) (R : Fin 256) (J : Fin 65536)
    (hR : R.val = 128 * (t.val / 8) + r.val) (hJ : J.val = 8192 * (t.val % 8) + j.val) :
    flatBlk V c t (ix2 r j) = flatA V c (ix2 R J) := by
  obtain ⟨e00, e01, -⟩ := idx1 t
  unfold flatBlk iblk1
  rw [View.read_apply]
  show V c main_v39 _ = V c main_v39 _
  congr 1
  funext a
  apply Fin.ext
  match a with
  | ⟨0, _⟩ => show win1_0.index t (0 : Fin 2) * 128 + 1 * r.val = R.val; rw [e00, hR]; omega
  | ⟨1, _⟩ => show win1_0.index t (1 : Fin 2) * 8192 + 1 * j.val = J.val; rw [e01, hJ]; omega

/-- The second operand's block reads all 32 rows and columns 8192·(t mod 8) … of its array. -/
theorem wBlk_apply (c : Dev nD) (t : Fin cfg1.N) (o : Fin 32) (j : Fin 8192) (J : Fin 65536)
    (hJ : J.val = 8192 * (t.val % 8) + j.val) :
    wBlk V c t (ix2 o j) = wT V c (ix2 o J) := by
  obtain ⟨-, -, e10, e11, -⟩ := idx1 t
  unfold wBlk iblk1
  rw [View.read_apply]
  show V c main_v33 _ = V c main_v33 _
  congr 1
  funext a
  apply Fin.ext
  match a with
  | ⟨0, _⟩ => show win1_1.index t (0 : Fin 2) * 32 + 1 * o.val = o.val; rw [e10]; omega
  | ⟨1, _⟩ => show win1_1.index t (1 : Fin 2) * 8192 + 1 * j.val = J.val; rw [e11, hJ]; omega

/-- The bias row's block is the whole row at every point. -/
theorem biasBlk_apply (c : Dev nD) (t : Fin cfg1.N) (o : Fin 32) :
    biasBlk V c t (ix2 (0 : Fin 1) o) = biasR V c (ix2 (0 : Fin 1) o) := by
  obtain ⟨-, -, -, -, e20, e21, -⟩ := idx1 t
  unfold biasBlk iblk1
  rw [View.read_apply]
  show V c main_v36 _ = V c main_v36 _
  congr 1
  funext a
  apply Fin.ext
  match a with
  | ⟨0, _⟩ => show win1_2.index t (0 : Fin 2) * 1 + 1 * 0 = 0; rw [e20]
  | ⟨1, _⟩ => show win1_2.index t (1 : Fin 2) * 32 + 1 * o.val = o.val; rw [e21]; omega

/-- The products of the contraction by position: entry (b, J) of the first operand times entry (o, J) of the second
    (which is held transposed), and zero past the end of the axis. -/
def term (c : Dev nD) (b : Fin 256) (o : Fin 32) (J : ℕ) : EReal :=
  if h : J < 65536 then flatA V c (ix2 b ⟨J, h⟩) * wT V c (ix2 o ⟨J, h⟩) else 0

/-- The product a point adds at (r, o): the 8192 products of its block of the contraction axis, block q = t mod 8,
    in row 128·(t / 8) + r of the first operand. -/
theorem blkSum (c : Dev nD) (t : Fin cfg1.N) (r : Fin 128) (o : Fin 32) (R : Fin 256)
    (hR : R.val = 128 * (t.val / 8) + r.val) (q : ℕ) (hq : t.val % 8 = q) :
    ∑ j : Fin 8192, flatBlk V c t (ix2 r j) * wBlk V c t (ix2 o j)
      = ∑ j : Fin 8192, term V c R o (j.val + 8192 * q) := by
  subst hq
  refine Finset.sum_congr rfl fun j _ => ?_
  have hj : j.val < 8192 := j.isLt
  have hJ : j.val + 8192 * (t.val % 8) < 65536 := by omega
  rw [flatBlk_apply V c t r j R ⟨j.val + 8192 * (t.val % 8), hJ⟩ hR (by show j.val + 8192 * (t.val % 8) = _; omega),
    wBlk_apply V c t o j ⟨j.val + 8192 * (t.val % 8), hJ⟩ (by show j.val + 8192 * (t.val % 8) = _; omega)]
  unfold term
  rw [dif_pos hJ]

/-- The accumulator after the point at position 8·i + k, at (r, o): the sum over the blocks 0 … k of the contraction
    axis of their products, in row 128·i + r of the first operand. By induction on k: the first point of a half adds
    its product to zeros, every later one to what the point before left. -/
theorem acc_apply (c : Dev nD) (i : ℕ) (r : Fin 128) (o : Fin 32) (R : Fin 256) (hR : R.val = 128 * i + r.val) (k : ℕ) :
    ∀ (hk : k < 8) (h : 8 * i + k < cfg1.N),
      (accAt1 V c (8 * i + k) h : S128x32.Idx → EReal) (ix2 r o)
        = ∑ q ∈ Finset.range (k + 1), ∑ j : Fin 8192, term V c R o (j.val + 8192 * q) := by
  induction k with
  | zero =>
    intro _ h
    have h0 : (8 * i + 0) % 8 = 0 := by omega
    have hR0 : R.val = 128 * ((8 * i + 0) / 8) + r.val := by omega
    have e1 := congrFun (accAt1_zero_mod V c (8 * i + 0) h h0) (ix2 r o)
    have e2 := pay2_apply (iblk1 V c 0 ⟨8 * i + 0, h⟩) (iblk1 V c 1 ⟨8 * i + 0, h⟩) (k1_pay1 (F := Ideal)) r o
    have e3 : (k1_pay1 (F := Ideal) : S128x32.Idx → EReal) (ix2 r o) = 0 := pay1_apply (ix2 r o)
    have e4 := blkSum V c ⟨8 * i + 0, h⟩ r o R hR0 0 h0
    refine e1.trans (e2.trans ((congrArg₂ (· + ·) e3 e4).trans ?_))
    rw [zero_add]
    exact (Finset.sum_range_one (fun q => ∑ j : Fin 8192, term V c R o (j.val + 8192 * q))).symm
  | succ k ih =>
    intro hk h
    have hne : ¬(8 * i + k + 1) % 8 = 0 := by omega
    have hq : (8 * i + k + 1) % 8 = k + 1 := by omega
    have hRk : R.val = 128 * ((8 * i + k + 1) / 8) + r.val := by omega
    have e1 := congrFun (accAt1_succ V c (8 * i + k) h hne) (ix2 r o)
    have e2 := pay2_apply (iblk1 V c 0 ⟨8 * i + k + 1, h⟩) (iblk1 V c 1 ⟨8 * i + k + 1, h⟩)
      (accAt1 V c (8 * i + k) (Nat.lt_of_succ_lt h)) r o
    have e3 := ih (Nat.lt_of_succ_lt hk) (Nat.lt_of_succ_lt h)
    have e4 := blkSum V c ⟨8 * i + k + 1, h⟩ r o R hRk (k + 1) hq
    refine e1.trans (e2.trans ((congrArg₂ (· + ·) e3 e4).trans ?_))
    exact (Finset.sum_range_succ (fun q => ∑ j : Fin 8192, term V c R o (j.val + 8192 * q)) (k + 1)).symm
/-- The eight blocks of 8192 positions are the whole contraction axis. -/
theorem sum_blocks (c : Dev nD) (b : Fin 256) (o : Fin 32) :
    ∑ q ∈ Finset.range (7 + 1), ∑ j : Fin 8192, term V c b o (j.val + 8192 * q)
      = ∑ J : Fin 65536, flatA V c (ix2 b J) * wT V c (ix2 o J) := by
  rw [Finset.sum_range (fun q => ∑ j : Fin 8192, term V c b o (j.val + 8192 * q))]
  refine ((GcnSum.sum_fin_mul_blocks_val (b := 8) (t := 8192) (term V c b o)).symm).trans ?_
  show ∑ J : Fin 65536, term V c b o J.val = _
  refine Finset.sum_congr rfl fun J _ => ?_
  unfold term
  rw [dif_pos J.isLt]

/-- The result array's contents after the call, index by index. -/
def outG (c : Dev nD) : S256x32.Idx → EReal :=
  fun i => G1 (flatA V c) (wT V c) (biasR V c) ⟨(i 0).val, idx2_lt0 i⟩ ⟨(i 1).val, idx2_lt1 i⟩

theorem outG_apply (c : Dev nD) (i : S256x32.Idx) :
    outG V c i = G1 (flatA V c) (wT V c) (biasR V c) ⟨(i 0).val, idx2_lt0 i⟩ ⟨(i 1).val, idx2_lt1 i⟩ := rfl

attribute [local irreducible] outG

/-- The result block at the last point of a half (position ≡ 7 mod 8), at (r, o): the accumulator there is the whole
    contraction in row 128·(t / 8) + r, and the stored value is tanh of it plus the bias. -/
theorem res1_apply (c : Dev nD) (t : Fin cfg1.N) (ht : t.val % 8 = 7) (r : Fin 128) (o : Fin 32) (R : Fin 256) (O : Fin 32)
    (hR : R.val = 128 * (t.val / 8) + r.val) (hO : O.val = o.val) :
    (res1 V c t : S128x32.Idx → EReal) (ix2 r o) = G1 (flatA V c) (wT V c) (biasR V c) R O := by
  obtain rfl : O = o := Fin.ext hO
  have hpos : 8 * (t.val / 8) + 7 = t.val := by omega
  have h' : 8 * (t.val / 8) + 7 < cfg1.N := by rw [hpos]; exact t.isLt
  have same : ∀ (u : ℕ) (hu : u < cfg1.N), u = t.val → accAt1 V c u hu = accAt1 V c t.val t.isLt :=
    fun u hu e => by subst e; rfl
  have key : (accAt1 V c t.val t.isLt : S128x32.Idx → EReal) (ix2 r O)
      = ∑ J : Fin 65536, flatA V c (ix2 R J) * wT V c (ix2 O J) :=
    (congrFun (same _ h' hpos).symm (ix2 r O)).trans
      ((acc_apply V c (t.val / 8) r O R hR 7 (by omega) h').trans (sum_blocks V c R O))
  have e1 := pay3_apply (accAt1 V c t.val t.isLt) (iblk1 V c 2 t) r O
  have eb := biasBlk_apply V c t O
  refine e1.trans ?_
  unfold G1
  exact congrArg Ideal.tanh (congrArg₂ (· + ·) key eb)

/-- What a point that writes back writes is its block of `outG`. -/
theorem flushed3_eq (c : Dev nD) (t : Fin cfg1.N) (hf : (cfg1.win 3).flush t = true) :
    (dat1 V c).flushed 3 t = ((cfg1.win 3).blk t).view.read (Elt Ideal) (outG V c) := by
  have ht : t.val % 8 = 7 := (flush1_3 t).mp hf
  obtain ⟨-, -, -, -, -, -, e30, e31⟩ := idx1 t
  show (cfg1.win 3).cut (grid1.coords t) ((dat1 V c).after 3 t) = _
  rw [after1_3]
  funext y
  rw [View.read_apply]
  have hy0 : (y 0).val < 128 := (y 0).isLt
  have hy1 : (y 1).val < 32 := (y 1).isLt
  have ex : (cfg1.win 3).xinj (grid1.coords t) y = ix2 (⟨(y 0).val, hy0⟩ : Fin 128) (⟨(y 1).val, hy1⟩ : Fin 32) :=
    funext fun a => match a with | ⟨0, _⟩ => rfl | ⟨1, _⟩ => rfl
  show res1 V c t _ = outG V c _
  refine (congrArg (res1 V c t) ex).trans ?_
  rw [outG_apply]
  exact res1_apply V c t ht ⟨(y 0).val, hy0⟩ ⟨(y 1).val, hy1⟩ _ _
    (by show win1_3.index t (0 : Fin 2) * 128 + 1 * (y 0).val = 128 * (t.val / 8) + (y 0).val; rw [e30]; omega)
    (by show win1_3.index t (1 : Fin 2) * 32 + 1 * (y 1).val = (y 1).val; rw [e31]; omega)

/-- Row b of the result array lies in the block the last point of its half writes back: position 8·(b / 128) + 7. -/
theorem cover3 (i : S256x32.Idx) :
    ∃ t : Fin cfg1.N, (cfg1.win 3).flush t = true ∧ i ∈ ((cfg1.win 3).blk t).view.set := by
  have hi0 : (i 0).val < 256 := (i 0).isLt
  have hi1 : (i 1).val < 32 := (i 1).isLt
  have hN : cfg1.N = 16 := N_1
  obtain ⟨t, htv⟩ : ∃ t : Fin cfg1.N, t.val = 8 * ((i 0).val / 128) + 7 := ⟨⟨_, by rw [hN]; omega⟩, rfl⟩
  obtain ⟨-, -, -, -, -, -, e30, e31⟩ := idx1 t
  refine ⟨t, (flush1_3 t).mpr (by omega), ?_⟩
  show i ∈ ((View.whole main_v40).slice (win1_3.rect t)).set
  rw [View.set_slice_whole, Rect.mem_set_unit]
  intro a
  match a with
  | ⟨0, _⟩ =>
    show win1_3.index t (0 : Fin 2) * 128 ≤ (i 0).val ∧ (i 0).val < win1_3.index t (0 : Fin 2) * 128 + 128
    rw [e30]; omega
  | ⟨1, _⟩ =>
    show win1_3.index t (1 : Fin 2) * 32 ≤ (i 1).val ∧ (i 1).val < win1_3.index t (1 : Fin 2) * 32 + 32
    rw [e31]; omega

theorem arr1_apply (c : Dev nD) (b : Fin 256) (o : Fin 32) :
    ((dat1 (F := Ideal) V c).arrAt 3 cfg1.N : S256x32.Idx → EReal) (ix2 b o)
      = G1 (V c main_v39) (V c main_v33) (V c main_v36) b o := by
  have e := (dat1 V c).arrAt_eq_of_cover 3 (outG V c) (flushed3_eq V c) cover3
  exact (congrFun e (ix2 b o)).trans (outG_apply V c (ix2 b o))

end Cert.KernelIdeal.Val

end
-- ==== Proof.Spec.lean ====
/-
  The two programs' results as plain formulas over the extended reals, with every array a function of its
  coordinates and the edge list given as in-range node numbers.

  A graph on 128 nodes has 2048 directed edges (s e → d e). Every node starts with the same 128 features, the row
  `st b` of the batch element b. One layer of the graph convolution replaces a node's features x n by
  relu ((x n + Σ over the edges e into n of x (s e)) · W + bias). Two layers, then the 128 × 512 features of a batch
  element are laid out in one row (position n · 512 + h) and go through a last linear map and a squashing function T.

  `Rout` spells this edge by edge, as the reference program does. `Kout` spells it through the 128 × 128 matrix
  M = I + (number of edges m → n): the first layer collapses to (row sum of M) · (st b · W1) because all nodes carry
  the same features, the second layer multiplies by M.
-/
import Mathlib.Data.EReal.Basic
import Mathlib.Data.EReal.Operations
import Mathlib.Algebra.BigOperators.Fin
import Mathlib.Algebra.BigOperators.Group.Finset.Basic

noncomputable section

namespace GcnSpec

variable (T : EReal → EReal)
variable (st : Fin 256 → Fin 128 → EReal) (W1 : Fin 128 → Fin 512 → EReal) (b1 : Fin 512 → EReal)
  (W2 : Fin 512 → Fin 512 → EReal) (b2 : Fin 512 → EReal) (Wo : Fin 65536 → Fin 32 → EReal) (bo : Fin 32 → EReal)
  (s d : Fin 2048 → Fin 128)

/-- max(x, 0). -/
def relu (x : EReal) : EReal := max x 0

/-- The node of position J of a flattened row: J / 512. -/
def nodeOf (J : Fin 65536) : Fin 128 := ⟨J.val / 512, by have := J.isLt; omega⟩
/-- The feature of position J of a flattened row: J % 512. -/
def featOf (J : Fin 65536) : Fin 512 := ⟨J.val % 512, Nat.mod_lt _ (by norm_num)⟩

/-! ## Through the matrix M (the kernel's arrangement) -/

/-- The number of edges m → n. -/
def cnt (n m : Fin 128) : EReal := ∑ e : Fin 2048, if d e = n ∧ s e = m then (1 : EReal) else 0
/-- M = I + the edge counts. -/
def adjM (n m : Fin 128) : EReal := (if n = m then (1 : EReal) else 0) + cnt s d n m
/-- Row sums of M. -/
def deg (n : Fin 128) : EReal := ∑ m : Fin 128, adjM s d n m
/-- st · W1. -/
def ks1 (b : Fin 256) (h : Fin 512) : EReal := ∑ f : Fin 128, st b f * W1 f h
/-- First layer. -/
def kh1 (b : Fin 256) (n : Fin 128) (h : Fin 512) : EReal := relu (deg s d n * ks1 st W1 b h + b1 h)
/-- M times the first layer. -/
def kc2 (b : Fin 256) (n : Fin 128) (h : Fin 512) : EReal := ∑ m : Fin 128, adjM s d n m * kh1 st W1 b1 s d b m h
/-- Second layer. -/
def kh2 (b : Fin 256) (n : Fin 128) (h' : Fin 512) : EReal :=
  relu ((∑ h : Fin 512, kc2 st W1 b1 s d b n h * W2 h h') + b2 h')
/-- The head over the flattened second layer. -/
def Kout (b : Fin 256) (o : Fin 32) : EReal :=
  T ((∑ J : Fin 65536, kh2 st W1 b1 W2 b2 s d b (nodeOf J) (featOf J) * Wo J o) + bo o)

/-! ## Edge by edge (the reference's arrangement) -/

/-- A node's features plus those of its in-neighbours, before the first layer (all nodes carry st b). -/
def ra1 (b : Fin 256) (n : Fin 128) (f : Fin 128) : EReal := st b f + ∑ e : Fin 2048, if d e = n then st b f else 0
/-- First layer. -/
def rr1 (b : Fin 256) (n : Fin 128) (h : Fin 512) : EReal := relu ((∑ f : Fin 128, ra1 st d b n f * W1 f h) + b1 h)
/-- A node's first-layer features plus those of its in-neighbours. -/
def ra2 (b : Fin 256) (n : Fin 128) (h : Fin 512) : EReal :=
  rr1 st W1 b1 d b n h + ∑ e : Fin 2048, if d e = n then rr1 st W1 b1 d b (s e) h else 0
/-- Second layer. -/
def rr2 (b : Fin 256) (n : Fin 128) (h' : Fin 512) : EReal :=
  relu ((∑ h : Fin 512, ra2 st W1 b1 s d b n h * W2 h h') + b2 h')
/-- The head over the flattened second layer. -/
def Rout (b : Fin 256) (o : Fin 32) : EReal :=
  T ((∑ J : Fin 65536, rr2 st W1 b1 W2 b2 s d b (nodeOf J) (featOf J) * Wo J o) + bo o)

end GcnSpec

end
-- ==== Proof.LibScatter2.lean ====
/-
  Two host indexing operations read at an index, for any extents: the accumulating float scatter of the E
  entries of a vector into the entries of an [N × M] matrix that the rows of an [E × 2] array of
  (row, column) pairs name (jnp's A.at[r, c].add(u)), at the exact-arithmetic instance where the
  accumulation is a plain sum; and the gather of the entries of an [N] vector named by an [E × 1] column of
  positions (jnp's v[idx]).
-/
import Idealize.ShloMosaic.PureOps.Ideal
import Idealize.ShloMosaic.PureOps.Contract
import Idealize.ShloMosaic.Lib.ValueIdx

noncomputable section

namespace Idealize.ShloMosaic.PairOps

open Idealize.ShloMosaic Idealize.ShloMosaic.ValueIdx

/-- A sum over a rank-1 index set is the sum over its one coordinate. -/
theorem sum_idx1 {M : Type*} [AddCommMonoid M] {n : Nat} (f : (⟨1, ![n]⟩ : Shape).Idx → M) :
    ∑ j, f j = ∑ a : Fin n, f (ix1 a) := by
  let φ : (⟨1, ![n]⟩ : Shape).Idx ≃ Fin n :=
    { toFun := fun j => j 0, invFun := fun a => ix1 a, left_inv := fun j => (eq_ix1 j).symm, right_inv := fun _ => rfl }
  rw [← Equiv.sum_comp φ.symm f]
  rfl

/-- Where one update lands: update e lands on entry (i, j) exactly when the pair in row e of the index array, each
    component read signed, is (i, j). Both axes of the matrix are inserted (no window coordinate), so the landing
    coordinates are the two components themselves, not clamped: a negative component, or one past the matrix on its
    axis, lands nowhere. -/
theorem resultIdx_pair_iff {N M E w : Nat} (d : ScatterDims ⟨2, ![N, M]⟩ ⟨2, ![E, 2]⟩ ⟨1, ![E]⟩)
    (hiw : d.insertedWindowDims = [0, 1]) (hsd : d.scatterDimsToOperandDims = [0, 1])
    (hivd : d.indexVectorDim = 1) (idx : IVec ⟨2, ![E, 2]⟩ w) (e : Fin E) (i : Fin N) (j : Fin M) :
    d.resultIdx? (ix1 e) idx = some (ix2 i j) ↔
      (idx (ix2 e (0 : Fin 2))).toInt = (i.val : Int) ∧ (idx (ix2 e (1 : Fin 2))).toInt = (j.val : Int) := by
  -- the matrix has no window axis
  have hsk : d.sKept = [] := by
    show (⟨2, ![N, M]⟩ : Shape).kept d.insertedWindowDims = []
    rw [hiw]; rfl
  have coord0 : ∀ X : Fin 1, ((ix1 e) X).val = e.val := fun X => by
    obtain rfl : X = 0 := Subsingleton.elim _ _
    rfl
  -- on operand axis a the start is component a of row e of the index array
  have hst : ∀ a : Fin 2, d.start (ix1 e) idx a = (idx (ix2 e a)).toInt := by
    intro a
    have ha : a ∈ d.scatterDimsToOperandDims := by
      rw [hsd]; match a with
      | ⟨0, _⟩ => exact List.mem_cons_self
      | ⟨1, _⟩ => exact List.mem_cons_of_mem _ List.mem_cons_self
    unfold ScatterDims.start
    rw [dif_pos ha]
    congr 2
    funext b
    match b with
    | ⟨0, _⟩ =>
      unfold ScatterDims.siIdx
      rw [dif_neg (by rw [hivd]; simp)]
      unfold ScatterDims.siCoord
      apply Fin.ext
      simp only [Fin.val_cast]
      exact coord0 _
    | ⟨1, _⟩ =>
      unfold ScatterDims.siIdx
      rw [dif_pos (by rw [hivd])]
      apply Fin.ext
      show List.idxOf a d.scatterDimsToOperandDims = a.val
      rw [hsd]
      match a with
      | ⟨0, _⟩ => rfl
      | ⟨1, _⟩ => rfl
  have hw : ∀ a : Fin 2, d.window (ix1 e) a = 0 := fun a => by
    unfold ScatterDims.window; rw [dif_neg (by rw [hsk]; simp)]
  unfold ScatterDims.resultIdx?
  split
  · -- the landing index is inside the matrix: compare it with (i, j) coordinate by coordinate
    rename_i h
    rw [Option.some.injEq]
    constructor
    · intro hf
      have h0 : (d.start (ix1 e) idx 0 + d.window (ix1 e) 0).toNat = i.val := congrArg (fun f => (f 0).val) hf
      have h1 : (d.start (ix1 e) idx 1 + d.window (ix1 e) 1).toNat = j.val := congrArg (fun f => (f 1).val) hf
      have hh0 := (h 0).1
      have hh1 := (h 1).1
      rw [hst, hw] at h0 hh0 h1 hh1
      exact ⟨by omega, by omega⟩
    · rintro ⟨hi, hj⟩
      funext a
      match a with
      | ⟨0, _⟩ =>
        apply Fin.ext
        show (d.start (ix1 e) idx 0 + d.window (ix1 e) 0).toNat = i.val
        rw [hst, hw, hi]; omega
      | ⟨1, _⟩ =>
        apply Fin.ext
        show (d.start (ix1 e) idx 1 + d.window (ix1 e) 1).toNat = j.val
        rw [hst, hw, hj]; omega
  · -- the landing index leaves the matrix: then the pair names no entry, (i, j) least of all
    rename_i h
    constructor
    · intro hf; exact absurd hf (by simp)
    · rintro ⟨hi, hj⟩
      exfalso; apply h
      intro a
      match a with
      | ⟨0, _⟩ =>
        show 0 ≤ d.start (ix1 e) idx 0 + d.window (ix1 e) 0 ∧ d.start (ix1 e) idx 0 + d.window (ix1 e) 0 < (N : Int)
        rw [hst, hw, hi]; have := i.isLt; omega
      | ⟨1, _⟩ =>
        show 0 ≤ d.start (ix1 e) idx 1 + d.window (ix1 e) 1 ∧ d.start (ix1 e) idx 1 + d.window (ix1 e) 1 < (M : Int)
        rw [hst, hw, hj]; have := j.isLt; omega

/-- Entry (i, j) after the scatter: what was there plus the updates over the e whose pair is (i, j). -/
theorem scatterAdd_pair_apply {N M E w : Nat} (d : ScatterDims ⟨2, ![N, M]⟩ ⟨2, ![E, 2]⟩ ⟨1, ![E]⟩)
    (hiw : d.insertedWindowDims = [0, 1]) (hsd : d.scatterDimsToOperandDims = [0, 1])
    (hivd : d.indexVectorDim = 1)
    (x : (⟨2, ![N, M]⟩ : Shape).Idx → EReal) (idx : IVec ⟨2, ![E, 2]⟩ w) (upd : (⟨1, ![E]⟩ : Shape).Idx → EReal)
    (i : Fin N) (j : Fin M) :
    Ideal.hostScatterAdd d x idx upd (ix2 i j)
      = x (ix2 i j) + ∑ e : Fin E,
          if (idx (ix2 e (0 : Fin 2))).toInt = (i.val : Int) ∧ (idx (ix2 e (1 : Fin 2))).toInt = (j.val : Int)
          then upd (ix1 e) else 0 := by
  unfold Ideal.hostScatterAdd
  congr 1
  rw [Finset.sum_filter, sum_idx1]
  refine Finset.sum_congr rfl fun e _ => ?_
  by_cases he : (idx (ix2 e (0 : Fin 2))).toInt = (i.val : Int) ∧ (idx (ix2 e (1 : Fin 2))).toInt = (j.val : Int)
  · rw [if_pos he, if_pos ((resultIdx_pair_iff d hiw hsd hivd idx e i j).2 he)]
  · rw [if_neg he, if_neg fun h => he ((resultIdx_pair_iff d hiw hsd hivd idx e i j).1 h)]

/-- Entry e of the gathered vector is the operand's entry at e's position, read signed and clamped into the operand. -/
theorem gather_vec_apply {α : Type} {N E w : Nat} (d : GatherDims ⟨1, ![N]⟩ ⟨2, ![E, 1]⟩ ⟨1, ![E]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (e : Fin E) (hN : 0 < N) :
    Host.gather d x idx (ix1 e) = x (ix1 (⟨min (idx (ix2 e (0 : Fin 1))).toInt.toNat (N - 1), by omega⟩ : Fin N)) := by
  unfold Host.gather
  congr 1
  funext a
  obtain rfl : a = 0 := Subsingleton.elim _ _
  have coord0 : ∀ X : Fin 1, ((ix1 e) X).val = e.val := fun X => by
    obtain rfl : X = 0 := Subsingleton.elim _ _
    rfl
  apply Fin.ext
  have hk : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  show d.start (ix1 e) idx 0 + d.batchCoord (ix1 e) 0 + d.offCoord (ix1 e) 0 = min (idx (ix2 e 0)).toInt.toNat (N - 1)
  rw [GatherDims.batchCoord_eq_zero _ _ _ (by rw [hob]; exact List.not_mem_nil), GatherDims.offCoord_eq_zero _ _ _ hk]
  simp only [Nat.add_zero]
  unfold GatherDims.start
  rw [dif_pos hm]
  show min (idx _).toInt.toNat (N - d.sliceSizes 0) = _
  rw [hsl]
  congr 3
  congr 1
  -- the start index is read at (e, 0): e from the result's one coordinate, 0 the one component of the index vector
  funext b
  match b with
  | ⟨0, _⟩ =>
    unfold GatherDims.siIdx
    rw [dif_neg (by rw [hivd]; simp)]
    unfold GatherDims.siCoord
    apply Fin.ext
    simp only [Fin.val_cast]
    exact coord0 _
  | ⟨1, _⟩ =>
    unfold GatherDims.siIdx
    rw [dif_pos (by rw [hivd])]
    apply Fin.ext
    show List.idxOf (0 : Fin 1) d.startIndexMap = 0
    rw [hsim]; simp

end Idealize.ShloMosaic.PairOps

end
-- ==== Proof.KHostA.lean ====
/-
  The operand arrays call 0 finds, at the exact-arithmetic values, from the launch contents: the host operations before the
  call clip the edge list into the node range, scatter a one at every (dst, src) pair into a zero 128 × 128 matrix, add the
  identity (M), sum M's rows, and re-lay the weights and biases (changes of float format are the identity). With the edge
  list in range the clip is the identity, so M and its row sums are the specification's.
-/
import proofs.«411370_j2680059593261_3_alg».proof.Proof.KVSpec
import proofs.«411370_j2680059593261_3_alg».proof.Proof.Spec
import proofs.«411370_j2680059593261_3_alg».proof.Proof.LibScatter2
import proofs.«411370_j2680059593261_3_alg».proof.Proof.LibGcnSum
import Idealize.ShloMosaic.Lib.StableHlo.Run
import Idealize.ShloMosaic.Lib.StableHlo.Predicate
import Idealize.ShloMosaic.Lib.Pipeline.Value
import Idealize.ShloMosaic.Lib.ValueLayout
import Idealize.ShloMosaic.PureOps.Ideal.Laws
import Idealize.ShloMosaic.Lib.IdealHost
set_option maxRecDepth 16384

noncomputable section
namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand

variable (m : (ℓ : Loc nD τ sig) → Buf (Elt Ideal) ℓ)

namespace HostA

/-! ## Two shape casts of a vector read at an index -/

/-- An `[a]` array cast to `[1, 1, a]` reads, at `(u, v, i)`, the operand at `i`. -/
theorem shapeCast_a_11a_apply {α : Type} {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; omega)

/-- An `[a]` array cast to `[1, a, 1]` reads, at `(u, i, v)`, the operand at `i`. -/
theorem shapeCast_a_1a1_apply {α : Type} {a : ℕ} (x : (⟨1, ![a]⟩ : Shape).Idx → α)
    (h : (⟨1, ![a]⟩ : Shape).ShapeCasts ⟨3, ![1, a, 1]⟩) (u : Fin 1) (i : Fin a) (v : Fin 1) :
    shapeCast ⟨3, ![1, a, 1]⟩ x h (ix3 u i v) = x (ix1 i) :=
  shapeCast_apply x h _ _ (by
    have hu : u.val = 0 := by omega
    have hv : v.val = 0 := by omega
    rw [Shape.rowMajor_val_three, Shape.rowMajor_val_one]
    show i.val = (u.val * a + i.val) * 1 + v.val
    rw [hu, hv]; omega)

/-! ## Words in the node range -/

/-- A word whose signed value is a node number is unchanged by the clip into [0, 127]. -/
theorem clip_word (w : BitVec 32) (k : Fin 128) (hw : w.toInt = (k.val : ℤ)) :
    IntOp.minsi 127#32 (IntOp.maxsi 0#32 w) = w := by
  have hk := k.isLt
  have h0 : (0#32 : BitVec 32).toInt = 0 := by decide
  have h127 : (127#32 : BitVec 32).toInt = 127 := by decide
  have hmax : IntOp.maxsi 0#32 w = w := by
    unfold IntOp.maxsi
    rw [if_neg]
    simp only [BitVec.slt, hw, h0, decide_eq_true_eq]; omega
  rw [hmax]
  unfold IntOp.minsi
  rw [if_neg]
  simp only [BitVec.slt, hw, h127, decide_eq_true_eq]; omega

/-- Such a word is not negative, so the wrap of negative positions (add 128 where negative) leaves it. -/
theorem wrap_word (w : BitVec 32) (k : Fin 128) (hw : w.toInt = (k.val : ℤ)) :
    Scalar.select (IntOp.cmpi .slt w 0#32) (IntOp.addi w 128#32) w = w := by
  have h0 : (0#32 : BitVec 32).toInt = 0 := by decide
  have hlt : w.slt 0#32 = false := by
    simp only [BitVec.slt, hw, h0, decide_eq_false_iff_not]; omega
  have hc : IntOp.cmpi .slt w 0#32 = 0#1 := by
    show BitVec.ofBool (w.slt 0#32) = 0#1
    rw [hlt]; rfl
  rw [hc]; exact select_zero _ _

/-! ## The host operations before call 0, buffer by buffer -/

section Stages
variable (c : Dev nD)

/-- The clipped edge list. -/
theorem st_v0 : (VE0 m c main_v0 : IVec S2x2048 32)
    = minsi (broadcastInDim S2x2048 ![] bcast_S_S2x2048 (constantI S_ 32 127#32))
        (maxsi (broadcastInDim S2x2048 ![] bcast_S_S2x2048 (constantI S_ 32 0#32))
          (m ((c.tc : Thread nD τ).loc main_arg1) : IVec S2x2048 32)) := by
  dsimp only [VE0, E0, Gen.V3, Gen.V2, Gen.V1, Gen.V0]
  after_results_simp <;> rfl

/-- Row 0 of the clipped list: the sources. -/
theorem st_v2 : (VE0 m c main_v2 : IVec S2048 32)
    = shapeCast S2048 (extractStridedSlice S1x2048 ![0, 0] (VE0 m c main_v0 : IVec S2x2048 32) slices_S2x2048_S1x2048_0_0)
        shapeCasts_S1x2048_S2048 := by
  dsimp only [VE0, E0, Gen.V3, Gen.V2, Gen.V1, Gen.V0]
  after_results_simp <;> rfl

/-- Row 1 of the clipped list: the destinations. -/
theorem st_v4 : (VE0 m c main_v4 : IVec S2048 32)
    = shapeCast S2048 (extractStridedSlice S1x2048 ![1, 0] (VE0 m c main_v0 : IVec S2x2048 32) slices_S2x2048_S1x2048_1_0)
        shapeCasts_S1x2048_S2048 := by
  dsimp only [VE0, E0, Gen.V3, Gen.V2, Gen.V1, Gen.V0]
  after_results_simp <;> rfl

/-- The destinations with negative positions wrapped. -/
theorem st_v10 : (VE0 m c main_v10 : IVec S2048 32)
    = select (cmpi .slt (VE0 m c main_v4 : IVec S2048 32) (broadcastInDim S2048 ![] bcast_S_S2048 (constantI S_ 32 0#32)))
        (addi (VE0 m c main_v4 : IVec S2048 32) (broadcastInDim S2048 ![] bcast_S_S2048 (constantI S_ 32 128#32)))
        (VE0 m c main_v4 : IVec S2048 32) := by
  dsimp only [VE0, E0, Gen.V3, Gen.V2, Gen.V1, Gen.V0]
  after_results_simp <;> rfl

/-- The sources with negative positions wrapped. -/
theorem st_v15 : (VE0 m c main_v15 : IVec S2048 32)
    = select (cmpi .slt (VE0 m c main_v2 : IVec S2048 32) (broadcastInDim S2048 ![] bcast_S_S2048 (constantI S_ 32 0#32)))
        (addi (VE0 m c main_v2 : IVec S2048 32) (broadcastInDim S2048 ![] bcast_S_S2048 (constantI S_ 32 128#32)))
        (VE0 m c main_v2 : IVec S2048 32) := by
  dsimp only [VE0, E0, Gen.V3, Gen.V2, Gen.V1, Gen.V0]
  after_results_simp <;> rfl

/-- The wrapped destinations as a column. -/
theorem st_v16 : (VE0 m c main_v16 : IVec S2048x1 32)
    = broadcastInDim S2048x1 ![0] bcast_S2048_S2048x1_0 (VE0 m c main_v10 : IVec S2048 32) := by
  dsimp only [VE0, E0, Gen.V3, Gen.V2, Gen.V1, Gen.V0]
  after_results_simp <;> rfl

/-- The wrapped sources as a column. -/
theorem st_v17 : (VE0 m c main_v17 : IVec S2048x1 32)
    = broadcastInDim S2048x1 ![0] bcast_S2048_S2048x1_0 (VE0 m c main_v15 : IVec S2048 32) := by
  dsimp only [VE0, E0, Gen.V3, Gen.V2, Gen.V1, Gen.V0]
  after_results_simp <;> rfl

/-- The (destination, source) pairs: the two columns side by side. -/
theorem st_v18 : (VE0 m c main_v18 : IVec S2048x2 32)
    = concatenate S2048x2 1 [⟨S2048x1, (VE0 m c main_v16 : IVec S2048x1 32)⟩, ⟨S2048x1, (VE0 m c main_v17 : IVec S2048x1 32)⟩]
        concatenates_S2048x1_S2048x1_S2048x2_d1 := by
  dsimp only [VE0, E0, Gen.V3, Gen.V2, Gen.V1, Gen.V0]
  after_results_simp <;> rfl

/-- A one scattered at every pair into the zero matrix. -/
theorem st_v20 : (VE0 m c main_v20 : S128x128.Idx → EReal)
    = Ideal.hostScatterAdd scatter_S128x128_S2048x2_S2048_n_01_01_1
        (broadcastInDim S128x128 ![] bcast_S_S128x128 (constant (F := Ideal) S_ .f32 0x00000000#32))
        (VE0 m c main_v18 : IVec S2048x2 32)
        (broadcastInDim S2048 ![] bcast_S_S2048 (constant (F := Ideal) S_ .f32 0x3F800000#32)) := by
  dsimp only [VE0, E0, Gen.V3, Gen.V2, Gen.V1, Gen.V0]
  after_results_simp <;> rfl

/-- The identity matrix added. -/
theorem st_v27 : (VE0 m c main_v27 : S128x128.Idx → EReal)
    = addf (uitofp (F := Ideal) .f32 (cmpi .eq (addi (iotaInDim S128x128 32 0) (broadcastInDim S128x128 ![] bcast_S_S128x128 (constantI S_ 32 0#32)))
        (iotaInDim S128x128 32 1))) (VE0 m c main_v20 : FVec Ideal S128x128 .f32) := by
  dsimp only [VE0, E0, Gen.V3, Gen.V2, Gen.V1, Gen.V0]
  after_results_simp <;> rfl

/-- The matrix call 0 reads: a change of float format only. -/
theorem st_v31 : (VE0 m c main_v31 : S128x128.Idx → EReal) = (VE0 m c main_v27 : S128x128.Idx → EReal) := by
  dsimp only [VE0, E0, Gen.V3, Gen.V2, Gen.V1, Gen.V0]
  after_results_simp <;> rfl

/-- The row sums, re-laid as a column. -/
theorem st_v37 : (VE0 m c main_v37 : S1x128x1.Idx → EReal)
    = shapeCast S1x128x1 (Host.reduceAdd (F := Ideal) (VE0 m c main_v27 : FVec Ideal S128x128 .f32) (constant (F := Ideal) S_ .f32 0x00000000#32)
        reducesTo_S128x128_S128_d1 h_S_) shapeCasts_S128_S1x128x1 := by
  dsimp only [VE0, E0, Gen.V3, Gen.V2, Gen.V1, Gen.V0]
  after_results_simp <;> rfl

end Stages

/-! ## The same buffers read at an index -/

section Reads
variable (c : Dev nD)

/-- An entry of the edge list that is a node number survives the clip. -/
theorem rd_v0 (r : Fin 2) (e : Fin 2048) (k : Fin 128)
    (hk : ((m ((c.tc : Thread nD τ).loc main_arg1) : IVec S2x2048 32) (ix2 r e)).toInt = (k.val : ℤ)) :
    (VE0 m c main_v0 : IVec S2x2048 32) (ix2 r e) = (m ((c.tc : Thread nD τ).loc main_arg1) : IVec S2x2048 32) (ix2 r e) := by
  rw [st_v0]
  show IntOp.minsi (broadcastInDim S2x2048 ![] bcast_S_S2x2048 (constantI S_ 32 127#32) (ix2 r e))
      (IntOp.maxsi (broadcastInDim S2x2048 ![] bcast_S_S2x2048 (constantI S_ 32 0#32) (ix2 r e)) _) = _
  rw [broadcastInDim_scalar_apply, broadcastInDim_scalar_apply]
  exact clip_word _ k hk

/-- Source e is entry (0, e) of the clipped list. -/
theorem rd_v2 (e : Fin 2048) :
    (VE0 m c main_v2 : IVec S2048 32) (ix1 e) = (VE0 m c main_v0 : IVec S2x2048 32) (ix2 (0 : Fin 2) e) := by
  rw [st_v2]
  refine (shapeCast_1a_a_apply _ _ e).trans ?_
  exact slice2_axis0_apply 0 _ _ (0 : Fin 1) e (0 : Fin 2) rfl

/-- Destination e is entry (1, e) of the clipped list. -/
theorem rd_v4 (e : Fin 2048) :
    (VE0 m c main_v4 : IVec S2048 32) (ix1 e) = (VE0 m c main_v0 : IVec S2x2048 32) (ix2 (1 : Fin 2) e) := by
  rw [st_v4]
  refine (shapeCast_1a_a_apply _ _ e).trans ?_
  exact slice2_axis0_apply 1 _ _ (0 : Fin 1) e (1 : Fin 2) rfl

/-- The wrap of negative positions leaves a node number. -/
theorem wrap_apply (v : IVec S2048 32) (e : Fin 2048) (k : Fin 128) (hk : (v (ix1 e)).toInt = (k.val : ℤ)) :
    select (cmpi .slt v (broadcastInDim S2048 ![] bcast_S_S2048 (constantI S_ 32 0#32)))
        (addi v (broadcastInDim S2048 ![] bcast_S_S2048 (constantI S_ 32 128#32))) v (ix1 e) = v (ix1 e) := by
  show Scalar.select (IntOp.cmpi .slt (v (ix1 e)) (broadcastInDim S2048 ![] bcast_S_S2048 (constantI S_ 32 0#32) (ix1 e)))
      (IntOp.addi (v (ix1 e)) (broadcastInDim S2048 ![] bcast_S_S2048 (constantI S_ 32 128#32) (ix1 e))) (v (ix1 e)) = _
  rw [broadcastInDim_scalar_apply, broadcastInDim_scalar_apply]
  exact wrap_word _ k hk

/-- A vector as a column reads, at (e, 0), the vector at e. -/
theorem col_apply (v : IVec S2048 32) (e : Fin 2048) :
    broadcastInDim S2048x1 ![0] bcast_S2048_S2048x1_0 v (ix2 e (0 : Fin 1)) = v (ix1 e) :=
  broadcastInDim_apply _ _ _ _ (ix1 e) (fun a => by
    match a with
    | ⟨0, _⟩ => exact (if_neg (show ¬ (2048 : ℕ) = 1 by decide)).symm)

/-- Two columns side by side read, at (e, 0), the first at (e, 0). -/
theorem pair_fst (a b : IVec S2048x1 32) (e : Fin 2048) :
    concatenate S2048x2 1 [⟨S2048x1, a⟩, ⟨S2048x1, b⟩] concatenates_S2048x1_S2048x1_S2048x2_d1 (ix2 e (0 : Fin 2))
      = a (ix2 e (0 : Fin 1)) :=
  concatenate_pair_apply_left (t := S2048x2) (s₁ := S2048x1) (s₂ := S2048x1) _ _ _ _ (ix2 e (0 : Fin 2)) rfl (ix2 e (0 : Fin 1)) (fun b' => by
    match b' with
    | ⟨0, _⟩ => rfl
    | ⟨1, _⟩ => rfl)

/-- … and, at (e, 1), the second at (e, 0). -/
theorem pair_snd (a b : IVec S2048x1 32) (e : Fin 2048) :
    concatenate S2048x2 1 [⟨S2048x1, a⟩, ⟨S2048x1, b⟩] concatenates_S2048x1_S2048x1_S2048x2_d1 (ix2 e (1 : Fin 2))
      = b (ix2 e (0 : Fin 1)) :=
  concatenate_pair_apply_right (t := S2048x2) (s₁ := S2048x1) (s₂ := S2048x1) _ _ _ _ (ix2 e (1 : Fin 2)) rfl rfl (ix2 e (0 : Fin 1)) (fun b' hb => by
    match b', hb with
    | ⟨0, _⟩, _ => rfl
    | ⟨1, _⟩, hb => exact absurd rfl hb) rfl

/-- The identity matrix: the converted comparison of the two position arrays is 1 on the diagonal, 0 off it. -/
theorem eye_apply (n m' : Fin 128) :
    uitofp (F := Ideal) .f32 (cmpi .eq (addi (iotaInDim S128x128 32 0) (broadcastInDim S128x128 ![] bcast_S_S128x128 (constantI S_ 32 0#32)))
        (iotaInDim S128x128 32 1)) (ix2 n m') = if n = m' then (1 : EReal) else 0 := by
  show (((IntOp.cmpi .eq (IntOp.addi (BitVec.ofNat 32 n.val) 0#32) (BitVec.ofNat 32 m'.val)).toNat : ℝ) : EReal) = _
  have hadd : IntOp.addi (BitVec.ofNat 32 n.val) 0#32 = BitVec.ofNat 32 n.val := BitVec.add_zero _
  rw [hadd]
  by_cases h : n = m'
  · subst h
    rw [if_pos rfl, StableHlo.Predicate.cmpi_eq_iff.mpr rfl]
    norm_num
  · have hne : ¬ IntOp.cmpi .eq (BitVec.ofNat 32 n.val) (BitVec.ofNat 32 m'.val) = 1#1 := by
      rw [StableHlo.Predicate.cmpi_eq_iff]
      intro e
      have e' := congrArg BitVec.toNat e
      have hn := n.isLt
      have hm := m'.isLt
      simp only [BitVec.toNat_ofNat] at e'
      exact h (Fin.ext (by omega))
    rw [if_neg h, eq_zero_of_ne_one hne]
    norm_num

end Reads

/-- The row sums of a 128 × 128 matrix from zero, re-laid as a [1, 128, 1] column, read at (0, n, 0): the sum of row n. -/
theorem rowsum_apply (x : S128x128.Idx → EReal) (n : Fin 128) :
    shapeCast S1x128x1 (Host.reduceAdd (F := Ideal) (φ := .f32) x (constant (F := Ideal) S_ .f32 0x00000000#32)
        reducesTo_S128x128_S128_d1 h_S_) shapeCasts_S128_S1x128x1 (ix3 (0 : Fin 1) n (0 : Fin 1))
      = ∑ k : Fin 128, x (ix2 n k) := by
  refine (shapeCast_a_1a1_apply _ _ (0 : Fin 1) n (0 : Fin 1)).trans ?_
  refine (hostReduceAdd_apply _ _ _ _ (ix1 n)).trans ?_
  have hR : S128x128.Reduces [1] S128 := by decide
  refine (Ideal.hostReduceAdd_single reducesTo_S128x128_S128_d1 hR _ _ (ix1 n)).trans ?_
  show Ideal.ofBits .f32 0x00000000#32 + ∑ k : Fin 128, x (hR.lift (ix1 n) k) = _
  rw [Ideal.ofBits_zero_f32, zero_add]
  refine Finset.sum_congr rfl fun (k : Fin 128) _ => ?_
  exact congrArg x (funext fun a => by
    match a with
    | ⟨0, _⟩ => exact Fin.ext rfl
    | ⟨1, _⟩ => exact Fin.ext rfl)

/-! ## With the edge list in range: the pairs, the counts, the matrix -/

section InRange
variable (c : Dev nD) (s d : Fin 2048 → Fin 128)
  (hs : ∀ e : Fin 2048, ((m ((c.tc : Thread nD τ).loc main_arg1) : IVec S2x2048 32) (ix2 (0 : Fin 2) e)).toInt = ((s e).val : ℤ))
  (hd : ∀ e : Fin 2048, ((m ((c.tc : Thread nD τ).loc main_arg1) : IVec S2x2048 32) (ix2 (1 : Fin 2) e)).toInt = ((d e).val : ℤ))
include hs hd

/-- Row e of the pair array, each component read signed, is (d e, s e): the clip and the wrap change nothing. -/
theorem rd_v18 (e : Fin 2048) :
    ((VE0 m c main_v18 : IVec S2048x2 32) (ix2 e (0 : Fin 2))).toInt = ((d e).val : ℤ)
      ∧ ((VE0 m c main_v18 : IVec S2048x2 32) (ix2 e (1 : Fin 2))).toInt = ((s e).val : ℤ) := by
  have h4 : (VE0 m c main_v4 : IVec S2048 32) (ix1 e)
      = (m ((c.tc : Thread nD τ).loc main_arg1) : IVec S2x2048 32) (ix2 (1 : Fin 2) e) :=
    (rd_v4 m c e).trans (rd_v0 m c 1 e (d e) (hd e))
  have h2 : (VE0 m c main_v2 : IVec S2048 32) (ix1 e)
      = (m ((c.tc : Thread nD τ).loc main_arg1) : IVec S2x2048 32) (ix2 (0 : Fin 2) e) :=
    (rd_v2 m c e).trans (rd_v0 m c 0 e (s e) (hs e))
  have h10 : (VE0 m c main_v10 : IVec S2048 32) (ix1 e) = (VE0 m c main_v4 : IVec S2048 32) (ix1 e) := by
    rw [st_v10]; exact wrap_apply _ e (d e) (by rw [h4]; exact hd e)
  have h15 : (VE0 m c main_v15 : IVec S2048 32) (ix1 e) = (VE0 m c main_v2 : IVec S2048 32) (ix1 e) := by
    rw [st_v15]; exact wrap_apply _ e (s e) (by rw [h2]; exact hs e)
  constructor
  · rw [st_v18, pair_fst, st_v16, col_apply, h10, h4]; exact hd e
  · rw [st_v18, pair_snd, st_v17, col_apply, h15, h2]; exact hs e

/-- Entry (n, m') of the scattered matrix: the number of edges m' → n. -/
theorem rd_v20 (n m' : Fin 128) : (VE0 m c main_v20 : S128x128.Idx → EReal) (ix2 n m') = GcnSpec.cnt s d n m' := by
  rw [st_v20]
  refine (PairOps.scatterAdd_pair_apply scatter_S128x128_S2048x2_S2048_n_01_01_1 rfl rfl rfl _ _ _ n m').trans ?_
  rw [broadcastInDim_scalar_apply]
  show Ideal.ofBits .f32 0x00000000#32 + _ = _
  rw [Ideal.ofBits_zero_f32, zero_add]
  unfold GcnSpec.cnt
  refine Finset.sum_congr rfl fun e _ => ?_
  obtain ⟨h0, h1⟩ := rd_v18 m c s d hs hd e
  rw [h0, h1, broadcastInDim_scalar_apply]
  show (if ((d e).val : ℤ) = (n.val : ℤ) ∧ ((s e).val : ℤ) = (m'.val : ℤ) then Ideal.ofBits .f32 0x3F800000#32 else 0) = _
  rw [Ideal.ofBits_one_f32]
  by_cases hc : d e = n ∧ s e = m'
  · rw [if_pos hc, if_pos ⟨by rw [hc.1], by rw [hc.2]⟩]
  · rw [if_neg hc, if_neg (fun hh => hc ⟨Fin.ext (by exact_mod_cast hh.1), Fin.ext (by exact_mod_cast hh.2)⟩)]

/-- Entry (n, m') of the matrix with the identity added: M of the specification. -/
theorem rd_v27 (n m' : Fin 128) : (VE0 m c main_v27 : S128x128.Idx → EReal) (ix2 n m') = GcnSpec.adjM s d n m' := by
  rw [st_v27]
  show uitofp (F := Ideal) .f32 (cmpi .eq (addi (iotaInDim S128x128 32 0) (broadcastInDim S128x128 ![] bcast_S_S128x128 (constantI S_ 32 0#32)))
        (iotaInDim S128x128 32 1)) (ix2 n m') + (VE0 m c main_v20 : S128x128.Idx → EReal) (ix2 n m') = _
  rw [eye_apply, rd_v20 m c s d hs hd]
  rfl

end InRange

end HostA

open HostA

/-! ## The operand arrays of call 0 -/

theorem E0_arg0 (c : Dev nD) : (VE0 m c main_arg0 : S256x128.Idx → EReal) = m ((c.tc : Thread nD τ).loc main_arg0) := by
  dsimp only [VE0, E0, Gen.V3, Gen.V2, Gen.V1, Gen.V0]
  after_results_simp
theorem E0_v29 (c : Dev nD) : (VE0 m c main_v29 : S128x512.Idx → EReal) = (m ((c.tc : Thread nD τ).loc main_arg2) : S128x512.Idx → EReal) := by
  dsimp only [VE0, E0, Gen.V3, Gen.V2, Gen.V1, Gen.V0]
  after_results_simp
  rfl
theorem E0_v30 (c : Dev nD) : (VE0 m c main_v30 : S512x512.Idx → EReal) = (m ((c.tc : Thread nD τ).loc main_arg4) : S512x512.Idx → EReal) := by
  dsimp only [VE0, E0, Gen.V3, Gen.V2, Gen.V1, Gen.V0]
  after_results_simp
  rfl
theorem E0_v34 (c : Dev nD) (h : Fin 512) :
    (VE0 m c main_v34 : S1x1x512.Idx → EReal) (ix3 (0 : Fin 1) (0 : Fin 1) h) = (m ((c.tc : Thread nD τ).loc main_arg3) : S512.Idx → EReal) (ix1 h) := by
  have e : (VE0 m c main_v34 : S1x1x512.Idx → EReal)
      = shapeCast S1x1x512 (m ((c.tc : Thread nD τ).loc main_arg3) : S512.Idx → EReal) shapeCasts_S512_S1x1x512 := by
    dsimp only [VE0, E0, Gen.V3, Gen.V2, Gen.V1, Gen.V0]
    after_results_simp
    rfl
  rw [e]
  exact shapeCast_a_11a_apply _ _ _ _ _
theorem E0_v35 (c : Dev nD) (h : Fin 512) :
    (VE0 m c main_v35 : S1x512.Idx → EReal) (ix2 (0 : Fin 1) h) = (m ((c.tc : Thread nD τ).loc main_arg5) : S512.Idx → EReal) (ix1 h) := by
  have e : (VE0 m c main_v35 : S1x512.Idx → EReal)
      = shapeCast S1x512 (m ((c.tc : Thread nD τ).loc main_arg5) : S512.Idx → EReal) shapeCasts_S512_S1x512 := by
    dsimp only [VE0, E0, Gen.V3, Gen.V2, Gen.V1, Gen.V0]
    after_results_simp
    rfl
  rw [e]
  exact shapeCast_a_1a_apply _ _ _ _

section
variable (c : Dev nD) (s d : Fin 2048 → Fin 128)
  (hs : ∀ e : Fin 2048, ((m ((c.tc : Thread nD τ).loc main_arg1) : IVec S2x2048 32) (ix2 (0 : Fin 2) e)).toInt = ((s e).val : ℤ))
  (hd : ∀ e : Fin 2048, ((m ((c.tc : Thread nD τ).loc main_arg1) : IVec S2x2048 32) (ix2 (1 : Fin 2) e)).toInt = ((d e).val : ℤ))
include hs hd

theorem E0_v31 (n m' : Fin 128) : (VE0 m c main_v31 : S128x128.Idx → EReal) (ix2 n m') = GcnSpec.adjM s d n m' := by
  rw [st_v31]
  exact rd_v27 m c s d hs hd n m'
theorem E0_v37 (n : Fin 128) : (VE0 m c main_v37 : S1x128x1.Idx → EReal) (ix3 (0 : Fin 1) n (0 : Fin 1)) = GcnSpec.deg s d n := by
  rw [st_v37]
  refine (rowsum_apply _ n).trans ?_
  unfold GcnSpec.deg
  exact Finset.sum_congr rfl fun k _ => rd_v27 m c s d hs hd n k
end

end Cert.KernelIdeal.Val

end
-- ==== Proof.KHost.lean ====
/-
  The kernel program's result at the exact-arithmetic values, from the launch contents: the host operations before the
  first call build the matrix M = I + edge counts (a scatter of ones at the clipped (dst, src) pairs), its row sums, and
  re-laid copies of the weights; between the calls the first call's result is flattened. With the edge list in range the
  clip is the identity and the result is the specification's `Kout`.
-/
import proofs.«411370_j2680059593261_3_alg».proof.Proof.KV0
import proofs.«411370_j2680059593261_3_alg».proof.Proof.KV1
import proofs.«411370_j2680059593261_3_alg».proof.Proof.KHostA
import proofs.«411370_j2680059593261_3_alg».proof.Proof.Spec
import proofs.«411370_j2680059593261_3_alg».proof.Proof.LibScatter2
import proofs.«411370_j2680059593261_3_alg».proof.Proof.LibGcnSum
import Idealize.ShloMosaic.Lib.StableHlo.Run
import Idealize.ShloMosaic.Lib.StableHlo.Predicate
set_option maxRecDepth 16384

noncomputable section
namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand

variable (m : (ℓ : Loc nD τ sig) → Buf (Elt Ideal) ℓ)

/-! ## The operand arrays call 1 finds -/

/-- The flattened array call 1 reads: the reshape of call 0's result array. -/
theorem E1_v39_eq (c : Dev nD) :
    (VE1 m c main_v39 : S256x65536.Idx → EReal)
      = shapeCast S256x65536 ((dat0 (F := Ideal) (VE0 m) c).arrAt 7 cfg0.N : S256x128x512.Idx → EReal) shapeCasts_S256x128x512_S256x65536 := by
  show StableHlo.after hostOps1 (X0 m c) (Proc.devRef .tc main_v39) = _
  after_results
  have h38 : X0 m c (Proc.devRef .tc main_v38) = (dat0 (F := Ideal) (VE0 m) c).arrAt 7 cfg0.N :=
    Pipeline.withArrays_arr spec0 launch0.win.arr_inj c _ _ 7
  rw [h38]
  rfl

/-- Position J of a flattened row is entry (J / 512, J % 512) of the 128 × 512 slab. -/
theorem E1_v39 (c : Dev nD) (b : Fin 256) (J : Fin 65536) :
    (VE1 m c main_v39 : S256x65536.Idx → EReal) (ix2 b J)
      = ((dat0 (F := Ideal) (VE0 m) c).arrAt 7 cfg0.N : S256x128x512.Idx → EReal) (ix3 b (GcnSpec.nodeOf J) (GcnSpec.featOf J)) := by
  rw [E1_v39_eq]
  refine shapeCast_apply (s := S256x128x512) (t := S256x65536) _ _ _ _ ?_
  rw [Shape.rowMajor_val_three, Shape.rowMajor_val_two]
  show (b.val * 128 + J.val / 512) * 512 + J.val % 512 = b.val * 65536 + J.val
  omega

/-- A buffer written before call 0 that neither call 0 nor the reshape between the calls touches. -/
theorem E1_of (c : Dev nD) (r : Ref sig .tc) (h1 : r ∉ hostOps1_W) (h0 : ∀ w, Pipeline.arrRef spec0 w ≠ r) :
    VE1 m c r = VE0 m c r :=
  (StableHlo.after_of_writes_sub hostOps1 _ hostOps1_writes h1).trans
    (Pipeline.withArrays_of_ne spec0 c _ _ r h0)

/-- The last linear map's weights as call 1 reads them: the transpose of the launch's, the change of format the identity. -/
theorem E1_v33_eq (c : Dev nD) :
    (VE1 m c main_v33 : S32x65536.Idx → EReal)
      = truncf .bf16 (transpose S32x65536 [1, 0] (m ((c.tc : Thread nD τ).loc main_arg6) : S65536x32.Idx → EReal) transposes_S65536x32_S32x65536_1_0 : FVec Ideal S32x65536 .f32) bitsLt_bf16_f32 := by
  rw [E1_of m c main_v33 (by decide) (by decide)]
  show StableHlo.after hostOps0_2 (V2 m c) (Proc.devRef .tc main_v33) = _
  after_results

theorem E1_v33 (c : Dev nD) (o : Fin 32) (J : Fin 65536) :
    (VE1 m c main_v33 : S32x65536.Idx → EReal) (ix2 o J)
      = (m ((c.tc : Thread nD τ).loc main_arg6) : S65536x32.Idx → EReal) (ix2 J o) := by
  rw [E1_v33_eq]
  refine Eq.trans (truncf_apply (s := S32x65536) (φ := .f32) (ψ := .bf16) _ bitsLt_bf16_f32 (ix2 o J)) ?_
  exact transpose_apply (s := S65536x32) (t := S32x65536) [1, 0] _ _ (ix2 o J) (ix2 J o)
    (fun b => match b with | ⟨0, _⟩ => rfl | ⟨1, _⟩ => rfl)

/-- The last bias as call 1 reads it: the launch's, as one row. -/
theorem E1_v36_eq (c : Dev nD) :
    (VE1 m c main_v36 : S1x32.Idx → EReal)
      = shapeCast S1x32 (m ((c.tc : Thread nD τ).loc main_arg7) : S32.Idx → EReal) shapeCasts_S32_S1x32 := by
  rw [E1_of m c main_v36 (by decide) (by decide)]
  show StableHlo.after hostOps0_2 (V2 m c) (Proc.devRef .tc main_v36) = _
  after_results
  rfl

theorem E1_v36 (c : Dev nD) (o : Fin 32) :
    (VE1 m c main_v36 : S1x32.Idx → EReal) (ix2 (0 : Fin 1) o)
      = (m ((c.tc : Thread nD τ).loc main_arg7) : S32.Idx → EReal) (ix1 o) := by
  rw [E1_v36_eq]
  refine shapeCast_apply (s := S32) (t := S1x32) _ _ _ _ ?_
  rw [Shape.rowMajor_val_one, Shape.rowMajor_val_two]
  show o.val = 0 * 32 + o.val
  omega

/-! ## The two calls' values of operand arrays that read as the specification's data -/

/-- Call 0's value is the specification's second layer when its seven operand arrays read, index by index, as the
    features, the two weight matrices and biases, the matrix M and its row sums. -/
theorem G0_eq_kh2 (x : S256x128.Idx → EReal) (w1 : S128x512.Idx → EReal) (b1r : S1x1x512.Idx → EReal) (dg : S1x128x1.Idx → EReal)
    (Mb : S128x128.Idx → EReal) (w2 : S512x512.Idx → EReal) (b2r : S1x512.Idx → EReal)
    (st : Fin 256 → Fin 128 → EReal) (W1 : Fin 128 → Fin 512 → EReal) (b1 : Fin 512 → EReal)
    (W2 : Fin 512 → Fin 512 → EReal) (b2 : Fin 512 → EReal) (s d : Fin 2048 → Fin 128)
    (hx : ∀ b f, x (ix2 b f) = st b f) (hw1 : ∀ f h, w1 (ix2 f h) = W1 f h)
    (hb1 : ∀ h, b1r (ix3 (0 : Fin 1) (0 : Fin 1) h) = b1 h)
    (hdg : ∀ n, dg (ix3 (0 : Fin 1) n (0 : Fin 1)) = GcnSpec.deg s d n)
    (hM : ∀ n m', Mb (ix2 n m') = GcnSpec.adjM s d n m')
    (hw2 : ∀ h h', w2 (ix2 h h') = W2 h h') (hb2 : ∀ h', b2r (ix2 (0 : Fin 1) h') = b2 h')
    (b : Fin 256) (n : Fin 128) (h' : Fin 512) :
    G0 x w1 b1r dg Mb w2 b2r b n h' = GcnSpec.kh2 st W1 b1 W2 b2 s d b n h' := by
  unfold G0 GcnSpec.kh2 GcnSpec.kc2 GcnSpec.kh1 GcnSpec.ks1 GcnSpec.relu
  simp only [hx, hw1, hb1, hdg, hM, hw2, hb2]

/-- Call 1's value is the specification's result when its flattened operand reads, at position J of row b, as the second
    layer at (b, J / 512, J % 512), its weight operand as the transposed last weights and its bias row as the last bias. -/
theorem G1_eq_Kout (flat : S256x65536.Idx → EReal) (woT : S32x65536.Idx → EReal) (bor : S1x32.Idx → EReal)
    (st : Fin 256 → Fin 128 → EReal) (W1 : Fin 128 → Fin 512 → EReal) (b1 : Fin 512 → EReal)
    (W2 : Fin 512 → Fin 512 → EReal) (b2 : Fin 512 → EReal) (Wo : Fin 65536 → Fin 32 → EReal) (bo : Fin 32 → EReal)
    (s d : Fin 2048 → Fin 128)
    (hflat : ∀ b J, flat (ix2 b J) = GcnSpec.kh2 st W1 b1 W2 b2 s d b (GcnSpec.nodeOf J) (GcnSpec.featOf J))
    (hwo : ∀ o J, woT (ix2 o J) = Wo J o) (hbo : ∀ o, bor (ix2 (0 : Fin 1) o) = bo o)
    (b : Fin 256) (o : Fin 32) :
    G1 flat woT bor b o = GcnSpec.Kout Ideal.tanh st W1 b1 W2 b2 Wo bo s d b o := by
  unfold G1 GcnSpec.Kout
  simp only [hflat, hwo, hbo]

/-! ## The assembly -/

theorem kernel_value (c : Dev nD) (s d : Fin 2048 → Fin 128)
    (hs : ∀ e : Fin 2048, ((m ((c.tc : Thread nD τ).loc main_arg1) : IVec S2x2048 32) (ix2 (0 : Fin 2) e)).toInt = ((s e).val : ℤ))
    (hd : ∀ e : Fin 2048, ((m ((c.tc : Thread nD τ).loc main_arg1) : IVec S2x2048 32) (ix2 (1 : Fin 2) e)).toInt = ((d e).val : ℤ))
    (b : Fin 256) (o : Fin 32) :
    ((dat1 (F := Ideal) (VE1 m) c).arrAt 3 cfg1.N : S256x32.Idx → EReal) (ix2 b o)
      = GcnSpec.Kout Ideal.tanh
          (fun b f => (m ((c.tc : Thread nD τ).loc main_arg0) : S256x128.Idx → EReal) (ix2 b f))
          (fun f h => (m ((c.tc : Thread nD τ).loc main_arg2) : S128x512.Idx → EReal) (ix2 f h))
          (fun h => (m ((c.tc : Thread nD τ).loc main_arg3) : S512.Idx → EReal) (ix1 h))
          (fun h h' => (m ((c.tc : Thread nD τ).loc main_arg4) : S512x512.Idx → EReal) (ix2 h h'))
          (fun h => (m ((c.tc : Thread nD τ).loc main_arg5) : S512.Idx → EReal) (ix1 h))
          (fun J o => (m ((c.tc : Thread nD τ).loc main_arg6) : S65536x32.Idx → EReal) (ix2 J o))
          (fun o => (m ((c.tc : Thread nD τ).loc main_arg7) : S32.Idx → EReal) (ix1 o))
          s d b o := by
  rw [arr1_apply]
  refine G1_eq_Kout _ _ _ _ _ _ _ _ _ _ s d ?_ ?_ ?_ b o
  · intro b J
    rw [E1_v39, arr0_apply]
    refine G0_eq_kh2 _ _ _ _ _ _ _ _ _ _ _ _ s d ?_ ?_ ?_ ?_ ?_ ?_ ?_ b _ _
    · exact fun b f => congrFun (E0_arg0 m c) (ix2 b f)
    · exact fun f h => congrFun (E0_v29 m c) (ix2 f h)
    · exact fun h => E0_v34 m c h
    · exact fun n => E0_v37 m c s d hs hd n
    · exact fun n m' => E0_v31 m c s d hs hd n m'
    · exact fun h h' => congrFun (E0_v30 m c) (ix2 h h')
    · exact fun h' => E0_v35 m c h'
  · exact fun o J => E1_v33 m c o J
  · exact fun o => E1_v36 m c o

end Cert.KernelIdeal.Val

end
-- ==== Proof.LibMidAxis.lean ====
/-
  Two host indexing operations on a rank-3 array [B × N × C] read at an index, for any extents: the gather of whole
  (batch, channel) slabs at the middle-axis positions an [E × 1] column names (jnp's x[:, idx, :]), and, at the exact-arithmetic
  instance, the accumulating scatter of E such slabs into the middle-axis positions a column names (a segment sum over the
  middle axis), where the accumulation is a plain sum over the updates that land on the position.
-/
import Idealize.ShloMosaic.PureOps.Ideal
import Idealize.ShloMosaic.PureOps.Contract
import Idealize.ShloMosaic.Lib.ValueIdx
set_option maxRecDepth 16384

noncomputable section

namespace Idealize.ShloMosaic.MidOps

open Idealize.ShloMosaic Idealize.ShloMosaic.ValueIdx

/-- The two entries of a two-element list, whatever the bound proof they are read with. -/
private theorem getElem_pair {α : Type} (L : List α) (x y : α) (hL : L = [x, y]) (k : Nat) (hk : k < L.length) :
    (k = 0 → L[k] = x) ∧ (k = 1 → L[k] = y) := by
  subst hL
  constructor
  · intro h; subst h; rfl
  · intro h; subst h; rfl

/-- Entry (b, e, c) of the gathered array is the operand's entry (b, p, c) at e's position p, read signed and clamped into the
    middle axis. -/
theorem gather_mid_apply {α : Type} {B N C E w : Nat} (d : GatherDims ⟨3, ![B, N, C]⟩ ⟨2, ![E, 1]⟩ ⟨3, ![B, E, C]⟩)
    (hoff : d.offsetDims = [0, 2]) (hcoll : d.collapsedSliceDims = [1]) (hob : d.operandBatchingDims = [])
    (hsb : d.startIndicesBatchingDims = []) (hsim : d.startIndexMap = [1]) (hivd : d.indexVectorDim = 1)
    (hss : d.sliceSizes = ![B, 1, C])
    (x : (⟨3, ![B, N, C]⟩ : Shape).Idx → α) (idx : IVec ⟨2, ![E, 1]⟩ w) (b : Fin B) (e : Fin E) (c : Fin C) (hN : 0 < N) :
    Host.gather d x idx (ix3 b e c)
      = x (ix3 b (⟨min (idx (ix2 e (0 : Fin 1))).toInt.toNat (N - 1), by omega⟩ : Fin N) c) := by
  unfold Host.gather
  congr 1
  funext a
  -- the result's one batch axis is axis 1 (axes 0 and 2 are its offset axes); the operand's kept axes are 0 and 2
  have hbd : d.batchDims = [1] := by
    show (⟨3, ![B, E, C]⟩ : Shape).kept d.offsetDims = [1]
    rw [hoff]; rfl
  have hsk : d.sKept = [0, 2] := by
    show (⟨3, ![B, N, C]⟩ : Shape).kept (d.collapsedSliceDims ++ d.operandBatchingDims) = [0, 2]
    rw [hcoll, hob]; rfl
  have hob0 : ∀ a : Fin 3, a ∉ d.operandBatchingDims := fun a => by rw [hob]; exact List.not_mem_nil
  have hall1 : ∀ X ∈ d.batchDims, X = 1 := fun X hX => by rw [hbd] at hX; exact List.mem_singleton.1 hX
  have coord0 : ∀ X : Fin 3, X = 0 → ((ix3 b e c) X).val = b.val := fun X h => by subst h; rfl
  have coord1 : ∀ X : Fin 3, X = 1 → ((ix3 b e c) X).val = e.val := fun X h => by subst h; rfl
  have coord2 : ∀ X : Fin 3, X = 2 → ((ix3 b e c) X).val = c.val := fun X h => by subst h; rfl
  match a with
  | ⟨0, _⟩ =>
    -- operand axis 0: not start-indexed (start 0), kept whole: the offset coordinate is the result's coordinate on axis 0
    apply Fin.ext
    have hk : (0 : Fin 3) ∈ d.sKept := by rw [hsk]; simp
    have hm : (0 : Fin 3) ∉ d.startIndexMap := by rw [hsim]; simp
    have hpos : d.sKept.idxOf (0 : Fin 3) = 0 := by rw [hsk]; rfl
    show d.start (ix3 b e c) idx 0 + d.batchCoord (ix3 b e c) 0 + d.offCoord (ix3 b e c) 0 = b.val
    rw [GatherDims.batchCoord_eq_zero _ _ _ (hob0 0)]
    unfold GatherDims.start GatherDims.offCoord
    rw [dif_neg hm, dif_pos hk]
    simp only [Nat.add_zero, Nat.zero_add]
    exact coord0 _ ((getElem_pair d.offsetDims 0 2 hoff _ _).1 hpos)
  | ⟨1, _⟩ =>
    -- operand axis 1: collapsed (slice size 1, no offset coordinate) and start-indexed: the clamped position
    apply Fin.ext
    have hk : (1 : Fin 3) ∉ d.sKept := by rw [hsk]; simp
    have hm : (1 : Fin 3) ∈ d.startIndexMap := by rw [hsim]; exact List.mem_singleton.mpr rfl
    have hsl : d.sliceSizes 1 = 1 := d.slice_collapsed 1 (by rw [hcoll]; exact List.mem_singleton.mpr rfl)
    show d.start (ix3 b e c) idx 1 + d.batchCoord (ix3 b e c) 1 + d.offCoord (ix3 b e c) 1 = min (idx (ix2 e 0)).toInt.toNat (N - 1)
    rw [GatherDims.batchCoord_eq_zero _ _ _ (hob0 1), GatherDims.offCoord_eq_zero _ _ _ hk]
    simp only [Nat.add_zero]
    unfold GatherDims.start
    rw [dif_pos hm]
    show min (idx _).toInt.toNat (N - d.sliceSizes 1) = _
    rw [hsl]
    congr 3
    congr 1
    -- the start index is read at (e, 0): e from the result's batch coordinate, 0 the one component of the index vector
    funext q
    match q with
    | ⟨0, _⟩ =>
      unfold GatherDims.siIdx
      rw [dif_neg (by rw [hivd]; simp)]
      unfold GatherDims.siCoord
      apply Fin.ext
      simp only [Fin.val_cast]
      exact coord1 _ (hall1 _ (List.getElem_mem _))
    | ⟨1, _⟩ =>
      unfold GatherDims.siIdx
      rw [dif_pos (by rw [hivd])]
      apply Fin.ext
      show List.idxOf (1 : Fin 3) d.startIndexMap = 0
      rw [hsim]; simp
  | ⟨2, _⟩ =>
    -- operand axis 2: not start-indexed (start 0), kept whole: the offset coordinate is the result's coordinate on axis 2
    apply Fin.ext
    have hk : (2 : Fin 3) ∈ d.sKept := by rw [hsk]; simp
    have hm : (2 : Fin 3) ∉ d.startIndexMap := by rw [hsim]; simp
    have hpos : d.sKept.idxOf (2 : Fin 3) = 1 := by rw [hsk]; rfl
    show d.start (ix3 b e c) idx 2 + d.batchCoord (ix3 b e c) 2 + d.offCoord (ix3 b e c) 2 = c.val
    rw [GatherDims.batchCoord_eq_zero _ _ _ (hob0 2)]
    unfold GatherDims.start GatherDims.offCoord
    rw [dif_neg hm, dif_pos hk]
    simp only [Nat.add_zero, Nat.zero_add]
    exact coord2 _ ((getElem_pair d.offsetDims 0 2 hoff _ _).2 hpos)

/-- A sum over a rank-3 index set is the triple sum over its coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  let φ : (⟨3, ![n0, n1, n2]⟩ : Shape).Idx ≃ Fin n0 × Fin n1 × Fin n2 :=
    { toFun := fun i => (i 0, i 1, i 2), invFun := fun p => ix3 p.1 p.2.1 p.2.2,
      left_inv := fun i => (eq_ix3 i).symm, right_inv := fun _ => rfl }
  rw [← Equiv.sum_comp φ.symm f, Fintype.sum_prod_type]
  refine Finset.sum_congr rfl fun a _ => ?_
  rw [Fintype.sum_prod_type]
  rfl

/-- Where one update lands: update (b', e, c') lands on (b, n, c) exactly when b' is b, e's position, read signed, is n,
    and c' is c. On axis 1 (inserted: no window coordinate) the landing coordinate is the position itself, not clamped,
    so a negative one or one past the axis lands nowhere; on axes 0 and 2 (start 0) it is the update's own coordinate,
    always inside the operand. -/
private theorem resultIdx_mid_iff {B N C E w : Nat} (d : ScatterDims ⟨3, ![B, N, C]⟩ ⟨2, ![E, 1]⟩ ⟨3, ![B, E, C]⟩)
    (huw : d.updateWindowDims = [0, 2]) (hiw : d.insertedWindowDims = [1]) (hsd : d.scatterDimsToOperandDims = [1])
    (hivd : d.indexVectorDim = 1) (idx : IVec ⟨2, ![E, 1]⟩ w) (b' : Fin B) (e : Fin E) (c' : Fin C)
    (b : Fin B) (n : Fin N) (c : Fin C) :
    d.resultIdx? (ix3 b' e c') idx = some (ix3 b n c)
      ↔ b' = b ∧ (idx (ix2 e (0 : Fin 1))).toInt = (n.val : Int) ∧ c' = c := by
  -- the updates' one scatter axis is axis 1 (axes 0 and 2 are their window axes); the operand's window axes are 0 and 2
  have hus : d.uScatter = [1] := by
    show (⟨3, ![B, E, C]⟩ : Shape).kept d.updateWindowDims = [1]
    rw [huw]; rfl
  have hsk : d.sKept = [0, 2] := by
    show (⟨3, ![B, N, C]⟩ : Shape).kept d.insertedWindowDims = [0, 2]
    rw [hiw]; rfl
  have hall1 : ∀ X ∈ d.uScatter, X = 1 := fun X hX => by rw [hus] at hX; exact List.mem_singleton.1 hX
  have coord0 : ∀ X : Fin 3, X = 0 → ((ix3 b' e c') X).val = b'.val := fun X h => by subst h; rfl
  have coord1 : ∀ X : Fin 3, X = 1 → ((ix3 b' e c') X).val = e.val := fun X h => by subst h; rfl
  have coord2 : ∀ X : Fin 3, X = 2 → ((ix3 b' e c') X).val = c'.val := fun X h => by subst h; rfl
  -- the six ingredients of the landing index: start and window coordinate on each operand axis
  have hst0 : d.start (ix3 b' e c') idx 0 = 0 := by
    unfold ScatterDims.start; rw [dif_neg (by rw [hsd]; simp)]
  have hw0 : d.window (ix3 b' e c') 0 = b'.val := by
    unfold ScatterDims.window; rw [dif_pos (by rw [hsk]; simp)]
    exact coord0 _ ((getElem_pair d.updateWindowDims 0 2 huw _ _).1 (by rw [hsk]; rfl))
  have hst1 : d.start (ix3 b' e c') idx 1 = (idx (ix2 e (0 : Fin 1))).toInt := by
    unfold ScatterDims.start
    rw [dif_pos (by rw [hsd]; exact List.mem_singleton.mpr rfl)]
    congr 2
    funext q
    match q with
    | ⟨0, _⟩ =>
      unfold ScatterDims.siIdx
      rw [dif_neg (by rw [hivd]; simp)]
      unfold ScatterDims.siCoord
      apply Fin.ext
      simp only [Fin.val_cast]
      exact coord1 _ (hall1 _ (List.getElem_mem _))
    | ⟨1, _⟩ =>
      unfold ScatterDims.siIdx
      rw [dif_pos (by rw [hivd])]
      apply Fin.ext
      show List.idxOf (1 : Fin 3) d.scatterDimsToOperandDims = 0
      rw [hsd]; simp
  have hw1 : d.window (ix3 b' e c') 1 = 0 := by
    unfold ScatterDims.window; rw [dif_neg (by rw [hsk]; simp)]
  have hst2 : d.start (ix3 b' e c') idx 2 = 0 := by
    unfold ScatterDims.start; rw [dif_neg (by rw [hsd]; simp)]
  have hw2 : d.window (ix3 b' e c') 2 = c'.val := by
    unfold ScatterDims.window; rw [dif_pos (by rw [hsk]; simp)]
    exact coord2 _ ((getElem_pair d.updateWindowDims 0 2 huw _ _).2 (by rw [hsk]; rfl))
  unfold ScatterDims.resultIdx?
  split
  · -- the landing index is inside the operand: compare it with (b, n, c) coordinate by coordinate
    rename_i h
    rw [Option.some.injEq]
    constructor
    · intro hf
      have h0 : (d.start (ix3 b' e c') idx 0 + d.window (ix3 b' e c') 0).toNat = b.val := congrArg (fun f => (f 0).val) hf
      have h1 : (d.start (ix3 b' e c') idx 1 + d.window (ix3 b' e c') 1).toNat = n.val := congrArg (fun f => (f 1).val) hf
      have h2 : (d.start (ix3 b' e c') idx 2 + d.window (ix3 b' e c') 2).toNat = c.val := congrArg (fun f => (f 2).val) hf
      have hh := (h 1).1
      rw [hst0, hw0] at h0
      rw [hst1, hw1] at h1 hh
      rw [hst2, hw2] at h2
      exact ⟨Fin.ext (by omega), by omega, Fin.ext (by omega)⟩
    · rintro ⟨rfl, hi, rfl⟩
      funext a
      match a with
      | ⟨0, _⟩ =>
        apply Fin.ext
        show (d.start (ix3 b' e c') idx 0 + d.window (ix3 b' e c') 0).toNat = b'.val
        rw [hst0, hw0]; omega
      | ⟨1, _⟩ =>
        apply Fin.ext
        show (d.start (ix3 b' e c') idx 1 + d.window (ix3 b' e c') 1).toNat = n.val
        rw [hst1, hw1, hi]; omega
      | ⟨2, _⟩ =>
        apply Fin.ext
        show (d.start (ix3 b' e c') idx 2 + d.window (ix3 b' e c') 2).toNat = c'.val
        rw [hst2, hw2]; omega
  · -- the landing index leaves the operand: then the position is no position of the middle axis, n least of all
    rename_i h
    constructor
    · intro hf; exact absurd hf (by simp)
    · rintro ⟨rfl, hi, rfl⟩
      exfalso; apply h
      intro a
      match a with
      | ⟨0, _⟩ =>
        show 0 ≤ d.start (ix3 b' e c') idx 0 + d.window (ix3 b' e c') 0
          ∧ d.start (ix3 b' e c') idx 0 + d.window (ix3 b' e c') 0 < (B : Int)
        rw [hst0, hw0]; have := b'.isLt; omega
      | ⟨1, _⟩ =>
        show 0 ≤ d.start (ix3 b' e c') idx 1 + d.window (ix3 b' e c') 1
          ∧ d.start (ix3 b' e c') idx 1 + d.window (ix3 b' e c') 1 < (N : Int)
        rw [hst1, hw1, hi]; have := n.isLt; omega
      | ⟨2, _⟩ =>
        show 0 ≤ d.start (ix3 b' e c') idx 2 + d.window (ix3 b' e c') 2
          ∧ d.start (ix3 b' e c') idx 2 + d.window (ix3 b' e c') 2 < (C : Int)
        rw [hst2, hw2]; have := c'.isLt; omega

/-- Entry (b, n, c) after the scatter: what was there plus the updates' entries (b, e, c) over the e whose position is n
    (a position outside the middle axis lands nowhere). -/
theorem scatterAdd_mid_apply {B N C E w : Nat} (d : ScatterDims ⟨3, ![B, N, C]⟩ ⟨2, ![E, 1]⟩ ⟨3, ![B, E, C]⟩)
    (huw : d.updateWindowDims = [0, 2]) (hiw : d.insertedWindowDims = [1]) (hsd : d.scatterDimsToOperandDims = [1])
    (hivd : d.indexVectorDim = 1)
    (x : (⟨3, ![B, N, C]⟩ : Shape).Idx → EReal) (idx : IVec ⟨2, ![E, 1]⟩ w) (upd : (⟨3, ![B, E, C]⟩ : Shape).Idx → EReal)
    (b : Fin B) (n : Fin N) (c : Fin C) :
    Ideal.hostScatterAdd d x idx upd (ix3 b n c)
      = x (ix3 b n c) + ∑ e : Fin E, if (idx (ix2 e (0 : Fin 1))).toInt = (n.val : Int) then upd (ix3 b e c) else 0 := by
  unfold Ideal.hostScatterAdd
  congr 1
  -- the sum over the updates that land on (b, n, c), as a triple sum over (b', e, c') of the updates guarded by
  -- "lands on (b, n, c)"
  rw [Finset.sum_filter, sum_idx3, Finset.sum_eq_single b]
  · refine Finset.sum_congr rfl fun e _ => ?_
    by_cases he : (idx (ix2 e (0 : Fin 1))).toInt = (n.val : Int)
    · -- slab e is aimed at position n: of its entries in batch b exactly the one in channel c lands on (b, n, c)
      rw [if_pos he, Finset.sum_eq_single c]
      · rw [if_pos ((resultIdx_mid_iff d huw hiw hsd hivd idx b e c b n c).2 ⟨rfl, he, rfl⟩)]
      · intro c' _ hc'
        rw [if_neg fun h => hc' ((resultIdx_mid_iff d huw hiw hsd hivd idx b e c' b n c).1 h).2.2]
      · intro h; exact absurd (Finset.mem_univ c) h
    · -- slab e is aimed elsewhere (or nowhere): none of its entries lands on (b, n, c)
      rw [if_neg he]
      refine Finset.sum_eq_zero fun c' _ => ?_
      rw [if_neg fun h => he ((resultIdx_mid_iff d huw hiw hsd hivd idx b e c' b n c).1 h).2.1]
  · -- an update of another batch keeps its batch: it never lands in batch b
    intro b' _ hb'
    refine Finset.sum_eq_zero fun e _ => Finset.sum_eq_zero fun c' _ => ?_
    rw [if_neg fun h => hb' ((resultIdx_mid_iff d huw hiw hsd hivd idx b' e c' b n c).1 h).1]
  · intro h; exact absurd (Finset.mem_univ b) h

end Idealize.ShloMosaic.MidOps

end
-- ==== Proof.RVal.lean ====
/-
  The reference program's result at the exact-arithmetic values, from its arguments: with the edge list in range, a gather
  of neighbour rows is a plain read and the scatter-add sums the messages of the edges into a node, so the result is the
  specification's `Rout`.
-/
import proofs.«411370_j2680059593261_3_alg».proof.Proof.Gen.ReferenceIdeal.Read
import proofs.«411370_j2680059593261_3_alg».proof.Proof.Spec
import proofs.«411370_j2680059593261_3_alg».proof.Proof.LibMidAxis
import proofs.«411370_j2680059593261_3_alg».proof.Proof.LibGcnSum
import Idealize.ShloMosaic.Lib.ValueIdx
import Idealize.ShloMosaic.Lib.ValueLayout
import Idealize.ShloMosaic.PureOps.Ideal.Laws
set_option maxRecDepth 16384

noncomputable section

namespace Cert.ReferenceIdeal.RefVal

open Idealize.ShloMosaic Idealize.ShloMosaic.ValueIdx Idealize.ShloMosaic.MidOps
open Cert.ReferenceIdeal Cert.ReferenceIdeal.Read

/-! ## The edge list's two rows as columns of words

Row 0 of the edge list holds the source nodes and row 1 the destination nodes. Each row is sliced out, flattened and made a
one-column array. The source row is first wrapped (a negative word gets 128 added); a word that is a node number is not
negative, so the wrap leaves it alone. -/

/-- A word whose signed value is a natural number is not below zero. -/
theorem slt_zero_of_toInt_nat (w : BitVec 32) (k : ℕ) (h : w.toInt = (k : ℤ)) : IntOp.cmpi .slt w 0#32 = 0#1 := by
  unfold IntOp.cmpi
  have hf : w.slt 0#32 = false := by
    rw [BitVec.slt_eq_decide, BitVec.toInt_zero, h]
    exact decide_eq_false (by omega)
  show BitVec.ofBool (w.slt 0#32) = 0#1
  rw [hf]; rfl

/-- The flattened row 0 at position e is the edge list's entry (0, e). -/
theorem row0_word (x1 : IVec S2x2048 32) (e : Fin 2048) :
    val_main_v1 (F := Ideal) x1 (ix1 e) = x1 (ix2 (0 : Fin 2) e) := by
  rw [val_main_v1_apply, val_main_v0_apply]
  congr 1
  funext a
  match a with
  | ⟨0, _⟩ => rfl
  | ⟨1, _⟩ => exact Fin.ext (Nat.mod_eq_of_lt e.isLt)

/-- The flattened row 1 at position e is the edge list's entry (1, e). -/
theorem row1_word (x1 : IVec S2x2048 32) (e : Fin 2048) :
    val_main_v3 (F := Ideal) x1 (ix1 e) = x1 (ix2 (1 : Fin 2) e) := by
  rw [val_main_v3_apply, val_main_v2_apply]
  congr 1
  funext a
  match a with
  | ⟨0, _⟩ => rfl
  | ⟨1, _⟩ => exact Fin.ext (Nat.mod_eq_of_lt e.isLt)

/-- The first layer's source column: the wrap does nothing to a node number. -/
theorem src_col1 (x1 : IVec S2x2048 32) (s : Fin 2048 → Fin 128)
    (hs : ∀ e : Fin 2048, (x1 (ix2 (0 : Fin 2) e)).toInt = ((s e).val : ℤ)) (e : Fin 2048) :
    val_main_v11 (F := Ideal) x1 (ix2 e (0 : Fin 1)) = x1 (ix2 (0 : Fin 2) e) := by
  have hi : idx_main_v11 (ix2 e (0 : Fin 1)) = ix1 e := funext fun a => match a with | ⟨0, _⟩ => rfl
  rw [val_main_v11_apply, hi, val_main_v10_apply, val_main_v7_apply, val_main_v6_apply, val_main_c_apply, row0_word,
    slt_zero_of_toInt_nat _ _ (hs e), select_zero]

/-- The second layer's source column, wrapped by the same operations again. -/
theorem src_col2 (x1 : IVec S2x2048 32) (s : Fin 2048 → Fin 128)
    (hs : ∀ e : Fin 2048, (x1 (ix2 (0 : Fin 2) e)).toInt = ((s e).val : ℤ)) (e : Fin 2048) :
    val_main_v28 (F := Ideal) x1 (ix2 e (0 : Fin 1)) = x1 (ix2 (0 : Fin 2) e) := by
  have hi : idx_main_v28 (ix2 e (0 : Fin 1)) = ix1 e := funext fun a => match a with | ⟨0, _⟩ => rfl
  rw [val_main_v28_apply, hi, val_main_v27_apply, val_main_v24_apply, val_main_v23_apply, val_main_c_1_apply, row0_word,
    slt_zero_of_toInt_nat _ _ (hs e), select_zero]

/-- The first layer's destination column. -/
theorem dst_col1 (x1 : IVec S2x2048 32) (e : Fin 2048) :
    val_main_v14 (F := Ideal) x1 (ix2 e (0 : Fin 1)) = x1 (ix2 (1 : Fin 2) e) := by
  have hi : idx_main_v14 (ix2 e (0 : Fin 1)) = ix1 e := funext fun a => match a with | ⟨0, _⟩ => rfl
  rw [val_main_v14_apply, hi, row1_word]

/-- The second layer's destination column. -/
theorem dst_col2 (x1 : IVec S2x2048 32) (e : Fin 2048) :
    val_main_v31 (F := Ideal) x1 (ix2 e (0 : Fin 1)) = x1 (ix2 (1 : Fin 2) e) := by
  have hi : idx_main_v31 (ix2 e (0 : Fin 1)) = ix1 e := funext fun a => match a with | ⟨0, _⟩ => rfl
  rw [val_main_v31_apply, hi, row1_word]

/-- A source word, read signed and clamped into the node axis, is the source node. -/
theorem clamp_src (w : BitVec 32) (k : Fin 128) (h : w.toInt = (k.val : ℤ)) (hlt : min w.toInt.toNat (128 - 1) < 128) :
    (⟨min w.toInt.toNat (128 - 1), hlt⟩ : Fin 128) = k := by
  refine Fin.ext ?_
  show min w.toInt.toNat (128 - 1) = k.val
  rw [h, Int.toNat_natCast]
  have := k.isLt
  omega

/-- "The destination word reads n" is "the destination node is n". -/
theorem dst_iff (w : BitVec 32) (k n : Fin 128) (h : w.toInt = (k.val : ℤ)) : w.toInt = (n.val : ℤ) ↔ k = n := by
  rw [h, Nat.cast_inj, Fin.val_inj]

/-! ## The first layer

Every node starts with the state's row of its batch element, so a gathered neighbour row is that same row whatever the
source node. The scatter-add into zeros leaves, at node n, the sum of the messages of the edges into n. -/

/-- The state broadcast over the nodes: entry (b, n, f) is the state's (b, f). -/
theorem bcast_state (x0 : S256x128.Idx → EReal) (b : Fin 256) (n f : Fin 128) :
    (val_main_v5 (F := Ideal) x0 (ix3 b n f) : EReal) = x0 (ix2 b f) := by
  rw [val_main_v5_apply, val_main_v4_apply]
  congr 1
  funext a
  match a with
  | ⟨0, _⟩ => rfl
  | ⟨1, _⟩ => rfl

/-- The first scatter's operand is zero everywhere. -/
theorem zeros1 (b : Fin 256) (n f : Fin 128) : (val_main_v15 (F := Ideal) (ix3 b n f) : EReal) = 0 := by
  rw [val_main_v15_apply, val_main_v13_apply, val_main_cst_apply]
  exact Ideal.ofBits_zero_f32

/-- A first-layer message: edge e carries the state's row, whatever its source. -/
theorem msgs1 (x0 : S256x128.Idx → EReal) (x1 : IVec S2x2048 32) (b : Fin 256) (e : Fin 2048) (f : Fin 128) :
    (val_main_v12 (F := Ideal) x0 x1 (ix3 b e f) : EReal) = x0 (ix2 b f) := by
  refine (gather_mid_apply gather_S256x128x128_S2048x1_S256x2048x128_02_1_n_n_1_1_2561128 rfl rfl rfl rfl rfl rfl rfl
    (val_main_v5 (F := Ideal) x0) (val_main_v11 (F := Ideal) x1) b e f (by decide)).trans ?_
  exact bcast_state x0 b _ f

/-- A node's features plus the messages of the edges into it. -/
theorem agg1 (x0 : S256x128.Idx → EReal) (x1 : IVec S2x2048 32) (d : Fin 2048 → Fin 128)
    (hd : ∀ e : Fin 2048, (x1 (ix2 (1 : Fin 2) e)).toInt = ((d e).val : ℤ)) (b : Fin 256) (n f : Fin 128) :
    (val_main_v17 (F := Ideal) x0 x1 (ix3 b n f) : EReal) = GcnSpec.ra1 (fun b f => x0 (ix2 b f)) d b n f := by
  rw [val_main_v17_apply]
  show (val_main_v5 (F := Ideal) x0 (ix3 b n f) : EReal) + val_main_v16 (F := Ideal) x0 x1 (ix3 b n f) = _
  rw [bcast_state]
  unfold GcnSpec.ra1
  congr 1
  refine (scatterAdd_mid_apply scatter_S256x128x128_S2048x1_S256x2048x128_02_1_1_1 rfl rfl rfl rfl
    (val_main_v15 (F := Ideal)) (val_main_v14 (F := Ideal) x1) (val_main_v12 (F := Ideal) x0 x1) b n f).trans ?_
  rw [zeros1, zero_add]
  refine Finset.sum_congr rfl fun e _ => ?_
  rw [dst_col1, msgs1]
  exact if_congr (dst_iff _ _ _ (hd e)) rfl rfl

/-- The first linear map at (b, n, h): the aggregate's row against W1's column. -/
theorem lin1 (x0 : S256x128.Idx → EReal) (x1 : IVec S2x2048 32) (x2 : S128x512.Idx → EReal) (d : Fin 2048 → Fin 128)
    (hd : ∀ e : Fin 2048, (x1 (ix2 (1 : Fin 2) e)).toInt = ((d e).val : ℤ)) (b : Fin 256) (n : Fin 128) (h : Fin 512) :
    (val_main_v18 (F := Ideal) x0 x1 x2 (ix3 b n h) : EReal)
      = ∑ f : Fin 128, GcnSpec.ra1 (fun b f => x0 (ix2 b f)) d b n f * x2 (ix2 f h) := by
  rw [val_main_v18_apply]
  refine Finset.sum_congr rfl fun f _ => ?_
  have el : lidx_main_v18 (ix3 b n h) f = ix3 b n f :=
    funext fun a => match a with | ⟨0, _⟩ => rfl | ⟨1, _⟩ => rfl | ⟨2, _⟩ => rfl
  have er : ridx_main_v18 (ix3 b n h) f = ix2 f h := funext fun a => match a with | ⟨0, _⟩ => rfl | ⟨1, _⟩ => rfl
  rw [el, er, agg1 x0 x1 d hd]

/-- The first bias broadcast over batch and nodes. -/
theorem bias1 (x3 : S512.Idx → EReal) (b : Fin 256) (n : Fin 128) (h : Fin 512) :
    (val_main_v20 (F := Ideal) x3 (ix3 b n h) : EReal) = x3 (ix1 h) := by
  rw [val_main_v20_apply, val_main_v19_apply]
  congr 1
  funext a
  match a with
  | ⟨0, _⟩ => rfl

/-- The first relu's zero. -/
theorem rzero1 (b : Fin 256) (n : Fin 128) (h : Fin 512) : (val_main_call0_v0 (F := Ideal) (ix3 b n h) : EReal) = 0 := by
  rw [val_main_call0_v0_apply, val_main_call0_cst_apply]
  exact Ideal.ofBits_zero_f32

/-- The first layer's result. -/
theorem layer1 (x0 : S256x128.Idx → EReal) (x1 : IVec S2x2048 32) (x2 : S128x512.Idx → EReal) (x3 : S512.Idx → EReal)
    (d : Fin 2048 → Fin 128) (hd : ∀ e : Fin 2048, (x1 (ix2 (1 : Fin 2) e)).toInt = ((d e).val : ℤ))
    (b : Fin 256) (n : Fin 128) (h : Fin 512) :
    (val_main_v22 (F := Ideal) x0 x1 x2 x3 (ix3 b n h) : EReal)
      = GcnSpec.rr1 (fun b f => x0 (ix2 b f)) (fun f h => x2 (ix2 f h)) (fun h => x3 (ix1 h)) d b n h := by
  rw [val_main_v22_apply, val_main_v21_apply, lin1 x0 x1 x2 d hd, bias1, rzero1]
  rfl

/-! ## The second layer

Now the nodes differ, so the gather matters: edge e carries the first-layer row of its source node s e, the clamp of
a node number into the node axis being that number. The scatter-add into zeros sums those rows over the edges into n. -/

/-- The second scatter's operand is zero everywhere. -/
theorem zeros2 (b : Fin 256) (n : Fin 128) (h : Fin 512) : (val_main_v32 (F := Ideal) (ix3 b n h) : EReal) = 0 := by
  rw [val_main_v32_apply, val_main_v30_apply, val_main_cst_3_apply]
  exact Ideal.ofBits_zero_f32

/-- A second-layer message: edge e carries its source node's first-layer row. -/
theorem msgs2 (x0 : S256x128.Idx → EReal) (x1 : IVec S2x2048 32) (x2 : S128x512.Idx → EReal) (x3 : S512.Idx → EReal)
    (s d : Fin 2048 → Fin 128)
    (hs : ∀ e : Fin 2048, (x1 (ix2 (0 : Fin 2) e)).toInt = ((s e).val : ℤ))
    (hd : ∀ e : Fin 2048, (x1 (ix2 (1 : Fin 2) e)).toInt = ((d e).val : ℤ))
    (b : Fin 256) (e : Fin 2048) (h : Fin 512) :
    (val_main_v29 (F := Ideal) x0 x1 x2 x3 (ix3 b e h) : EReal)
      = GcnSpec.rr1 (fun b f => x0 (ix2 b f)) (fun f h => x2 (ix2 f h)) (fun h => x3 (ix1 h)) d b (s e) h := by
  refine (gather_mid_apply gather_S256x128x512_S2048x1_S256x2048x512_02_1_n_n_1_1_2561512 rfl rfl rfl rfl rfl rfl rfl
    (val_main_v22 (F := Ideal) x0 x1 x2 x3) (val_main_v28 (F := Ideal) x1) b e h (by decide)).trans ?_
  rw [layer1 x0 x1 x2 x3 d hd]
  exact congrArg (fun n => GcnSpec.rr1 _ _ _ d b n h)
    (clamp_src _ (s e) (by rw [src_col2 x1 s hs e]; exact hs e) _)

/-- A node's first-layer features plus the messages of the edges into it. -/
theorem agg2 (x0 : S256x128.Idx → EReal) (x1 : IVec S2x2048 32) (x2 : S128x512.Idx → EReal) (x3 : S512.Idx → EReal)
    (s d : Fin 2048 → Fin 128)
    (hs : ∀ e : Fin 2048, (x1 (ix2 (0 : Fin 2) e)).toInt = ((s e).val : ℤ))
    (hd : ∀ e : Fin 2048, (x1 (ix2 (1 : Fin 2) e)).toInt = ((d e).val : ℤ))
    (b : Fin 256) (n : Fin 128) (h : Fin 512) :
    (val_main_v34 (F := Ideal) x0 x1 x2 x3 (ix3 b n h) : EReal)
      = GcnSpec.ra2 (fun b f => x0 (ix2 b f)) (fun f h => x2 (ix2 f h)) (fun h => x3 (ix1 h)) s d b n h := by
  rw [val_main_v34_apply]
  show (val_main_v22 (F := Ideal) x0 x1 x2 x3 (ix3 b n h) : EReal) + val_main_v33 (F := Ideal) x0 x1 x2 x3 (ix3 b n h) = _
  rw [layer1 x0 x1 x2 x3 d hd]
  unfold GcnSpec.ra2
  congr 1
  refine (scatterAdd_mid_apply scatter_S256x128x512_S2048x1_S256x2048x512_02_1_1_1 rfl rfl rfl rfl
    (val_main_v32 (F := Ideal)) (val_main_v31 (F := Ideal) x1) (val_main_v29 (F := Ideal) x0 x1 x2 x3) b n h).trans ?_
  rw [zeros2, zero_add]
  refine Finset.sum_congr rfl fun e _ => ?_
  rw [dst_col2, msgs2 x0 x1 x2 x3 s d hs hd]
  exact if_congr (dst_iff _ _ _ (hd e)) rfl rfl

/-- The second linear map at (b, n, h'): the aggregate's row against W2's column. -/
theorem lin2 (x0 : S256x128.Idx → EReal) (x1 : IVec S2x2048 32) (x2 : S128x512.Idx → EReal) (x3 : S512.Idx → EReal)
    (x4 : S512x512.Idx → EReal) (s d : Fin 2048 → Fin 128)
    (hs : ∀ e : Fin 2048, (x1 (ix2 (0 : Fin 2) e)).toInt = ((s e).val : ℤ))
    (hd : ∀ e : Fin 2048, (x1 (ix2 (1 : Fin 2) e)).toInt = ((d e).val : ℤ))
    (b : Fin 256) (n : Fin 128) (h' : Fin 512) :
    (val_main_v35 (F := Ideal) x0 x1 x2 x3 x4 (ix3 b n h') : EReal)
      = ∑ h : Fin 512, GcnSpec.ra2 (fun b f => x0 (ix2 b f)) (fun f h => x2 (ix2 f h)) (fun h => x3 (ix1 h)) s d b n h
          * x4 (ix2 h h') := by
  rw [val_main_v35_apply]
  refine Finset.sum_congr rfl fun h _ => ?_
  have el : lidx_main_v35 (ix3 b n h') h = ix3 b n h :=
    funext fun a => match a with | ⟨0, _⟩ => rfl | ⟨1, _⟩ => rfl | ⟨2, _⟩ => rfl
  have er : ridx_main_v35 (ix3 b n h') h = ix2 h h' := funext fun a => match a with | ⟨0, _⟩ => rfl | ⟨1, _⟩ => rfl
  rw [el, er, agg2 x0 x1 x2 x3 s d hs hd]

/-- The second bias broadcast over batch and nodes. -/
theorem bias2 (x5 : S512.Idx → EReal) (b : Fin 256) (n : Fin 128) (h : Fin 512) :
    (val_main_v37 (F := Ideal) x5 (ix3 b n h) : EReal) = x5 (ix1 h) := by
  rw [val_main_v37_apply, val_main_v36_apply]
  congr 1
  funext a
  match a with
  | ⟨0, _⟩ => rfl

/-- The second relu's zero. -/
theorem rzero2 (b : Fin 256) (n : Fin 128) (h : Fin 512) : (val_main_call1_v0 (F := Ideal) (ix3 b n h) : EReal) = 0 := by
  rw [val_main_call1_v0_apply, val_main_call1_cst_apply]
  exact Ideal.ofBits_zero_f32

/-- The second layer's result. -/
theorem layer2 (x0 : S256x128.Idx → EReal) (x1 : IVec S2x2048 32) (x2 : S128x512.Idx → EReal) (x3 : S512.Idx → EReal)
    (x4 : S512x512.Idx → EReal) (x5 : S512.Idx → EReal) (s d : Fin 2048 → Fin 128)
    (hs : ∀ e : Fin 2048, (x1 (ix2 (0 : Fin 2) e)).toInt = ((s e).val : ℤ))
    (hd : ∀ e : Fin 2048, (x1 (ix2 (1 : Fin 2) e)).toInt = ((d e).val : ℤ))
    (b : Fin 256) (n : Fin 128) (h' : Fin 512) :
    (val_main_v39 (F := Ideal) x0 x1 x2 x3 x4 x5 (ix3 b n h') : EReal)
      = GcnSpec.rr2 (fun b f => x0 (ix2 b f)) (fun f h => x2 (ix2 f h)) (fun h => x3 (ix1 h))
          (fun h h' => x4 (ix2 h h')) (fun h => x5 (ix1 h)) s d b n h' := by
  rw [val_main_v39_apply, val_main_v38_apply, lin2 x0 x1 x2 x3 x4 s d hs hd, bias2, rzero2]
  rfl

/-! ## The head

The 128 × 512 features of a batch element laid out in one row: position J holds node J / 512, feature J % 512. -/

/-- The flattened second layer at (b, J). -/
theorem flat2 (x0 : S256x128.Idx → EReal) (x1 : IVec S2x2048 32) (x2 : S128x512.Idx → EReal) (x3 : S512.Idx → EReal)
    (x4 : S512x512.Idx → EReal) (x5 : S512.Idx → EReal) (s d : Fin 2048 → Fin 128)
    (hs : ∀ e : Fin 2048, (x1 (ix2 (0 : Fin 2) e)).toInt = ((s e).val : ℤ))
    (hd : ∀ e : Fin 2048, (x1 (ix2 (1 : Fin 2) e)).toInt = ((d e).val : ℤ))
    (b : Fin 256) (J : Fin 65536) :
    (val_main_v40 (F := Ideal) x0 x1 x2 x3 x4 x5 (ix2 b J) : EReal)
      = GcnSpec.rr2 (fun b f => x0 (ix2 b f)) (fun f h => x2 (ix2 f h)) (fun h => x3 (ix1 h))
          (fun h h' => x4 (ix2 h h')) (fun h => x5 (ix1 h)) s d b (GcnSpec.nodeOf J) (GcnSpec.featOf J) := by
  have hi : idx_main_v40 (ix2 b J) = ix3 b (GcnSpec.nodeOf J) (GcnSpec.featOf J) := by
    funext a
    have hb := b.isLt
    have hJ := J.isLt
    match a with
    | ⟨0, _⟩ =>
      refine Fin.ext ?_
      show (b.val * 65536 + J.val) / 65536 = b.val
      omega
    | ⟨1, _⟩ =>
      refine Fin.ext ?_
      show (b.val * 65536 + J.val) / 512 % 128 = J.val / 512
      omega
    | ⟨2, _⟩ =>
      refine Fin.ext ?_
      show (b.val * 65536 + J.val) % 512 = J.val % 512
      omega
  rw [val_main_v40_apply, hi, layer2 x0 x1 x2 x3 x4 x5 s d hs hd]

/-- The last linear map at (b, o): the flattened row against Wout's column. -/
theorem lin3 (x0 : S256x128.Idx → EReal) (x1 : IVec S2x2048 32) (x2 : S128x512.Idx → EReal) (x3 : S512.Idx → EReal)
    (x4 : S512x512.Idx → EReal) (x5 : S512.Idx → EReal) (x6 : S65536x32.Idx → EReal) (s d : Fin 2048 → Fin 128)
    (hs : ∀ e : Fin 2048, (x1 (ix2 (0 : Fin 2) e)).toInt = ((s e).val : ℤ))
    (hd : ∀ e : Fin 2048, (x1 (ix2 (1 : Fin 2) e)).toInt = ((d e).val : ℤ))
    (b : Fin 256) (o : Fin 32) :
    (val_main_v41 (F := Ideal) x0 x1 x2 x3 x4 x5 x6 (ix2 b o) : EReal)
      = ∑ J : Fin 65536, GcnSpec.rr2 (fun b f => x0 (ix2 b f)) (fun f h => x2 (ix2 f h)) (fun h => x3 (ix1 h))
          (fun h h' => x4 (ix2 h h')) (fun h => x5 (ix1 h)) s d b (GcnSpec.nodeOf J) (GcnSpec.featOf J) * x6 (ix2 J o) := by
  rw [val_main_v41_apply]
  refine Finset.sum_congr rfl fun J _ => ?_
  have el : lidx_main_v41 (ix2 b o) J = ix2 b J := funext fun a => match a with | ⟨0, _⟩ => rfl | ⟨1, _⟩ => rfl
  have er : ridx_main_v41 (ix2 b o) J = ix2 J o := funext fun a => match a with | ⟨0, _⟩ => rfl | ⟨1, _⟩ => rfl
  rw [el, er, flat2 x0 x1 x2 x3 x4 x5 s d hs hd]

/-- The last bias broadcast over the batch. -/
theorem bias3 (x7 : S32.Idx → EReal) (b : Fin 256) (o : Fin 32) :
    (val_main_v43 (F := Ideal) x7 (ix2 b o) : EReal) = x7 (ix1 o) := by
  rw [val_main_v43_apply, val_main_v42_apply]
  congr 1
  funext a
  match a with
  | ⟨0, _⟩ => rfl

theorem reference_value (x0 : S256x128.Idx → EReal) (x1 : IVec S2x2048 32) (x2 : S128x512.Idx → EReal) (x3 : S512.Idx → EReal)
    (x4 : S512x512.Idx → EReal) (x5 : S512.Idx → EReal) (x6 : S65536x32.Idx → EReal) (x7 : S32.Idx → EReal)
    (s d : Fin 2048 → Fin 128)
    (hs : ∀ e : Fin 2048, (x1 (ix2 (0 : Fin 2) e)).toInt = ((s e).val : ℤ))
    (hd : ∀ e : Fin 2048, (x1 (ix2 (1 : Fin 2) e)).toInt = ((d e).val : ℤ))
    (b : Fin 256) (o : Fin 32) :
    val_main_v45 (F := Ideal) x0 x1 x2 x3 x4 x5 x6 x7 (ix2 b o)
      = GcnSpec.Rout Ideal.tanh (fun b f => x0 (ix2 b f)) (fun f h => x2 (ix2 f h)) (fun h => x3 (ix1 h))
          (fun h h' => x4 (ix2 h h')) (fun h => x5 (ix1 h)) (fun J o => x6 (ix2 J o)) (fun o => x7 (ix1 o)) s d b o := by
  rw [val_main_v45_apply, val_main_v44_apply, lin3 x0 x1 x2 x3 x4 x5 x6 s d hs hd, bias3, Ideal.hostUnary_tanh_def,
    Ideal.addf_def]
  unfold GcnSpec.Rout
  exact Eq.refl _

end Cert.ReferenceIdeal.RefVal

end
-- ==== Proof.Bridge.lean ====
/-
  The two arrangements of the network agree on real inputs. Counting the edges into a node n by their source, Σ_m (number of
  edges m → n) is the number of edges into n, so the row sum of M is 1 + (in-degree), and, x being real, (1 + indeg) · Σ_f x_f w_f
  = Σ_f (x_f + Σ over the edges into n of x_f) w_f; and Σ_m M[n,m] · y_m = y_n + Σ over the edges e into n of y_(s e).
-/
import proofs.«411370_j2680059593261_3_alg».proof.Proof.Spec
import proofs.«411370_j2680059593261_3_alg».proof.Proof.LibGcnSum
set_option maxRecDepth 16384

noncomputable section

namespace GcnSpec

open GcnSum

/-! ## The three identities in the reals -/

section RealIdentities
variable {E N F : Type*} [Fintype E] [Fintype N] [Fintype F] [DecidableEq N]

/-- Counting the edges into `n` by their source: the row sum of `I + counts` is `1 + indegree`. -/
theorem rowsum_real (s d : E → N) (n : N) :
    ∑ m, ((if n = m then (1 : ℝ) else 0) + ∑ e, if d e = n ∧ s e = m then (1 : ℝ) else 0)
      = 1 + ∑ e, if d e = n then (1 : ℝ) else 0 := by
  rw [Finset.sum_add_distrib, Finset.sum_comm]
  congr 1
  · simp
  · refine Finset.sum_congr rfl fun e _ => ?_
    by_cases hd : d e = n
    · simp [hd]
    · simp [hd]

/-- All nodes carrying the same features `x`, the aggregated first layer is `(1 + indegree)` times `x · w`. -/
theorem first_layer_real (d : E → N) (n : N) (x w : F → ℝ) :
    (1 + ∑ e, if d e = n then (1 : ℝ) else 0) * ∑ f, x f * w f
      = ∑ f, (x f + ∑ e, if d e = n then x f else 0) * w f := by
  rw [Finset.mul_sum]
  refine Finset.sum_congr rfl fun f _ => ?_
  have h : (∑ e, if d e = n then x f else 0) = (∑ e, if d e = n then (1 : ℝ) else 0) * x f := by
    rw [Finset.sum_mul]
    refine Finset.sum_congr rfl fun e _ => ?_
    split_ifs <;> simp
  rw [h]
  ring

/-- The matrix `I + counts` applied to `y` is `y n` plus the sum of `y (s e)` over the edges `e` into `n`. -/
theorem second_layer_real (s d : E → N) (n : N) (y : N → ℝ) :
    ∑ m, ((if n = m then (1 : ℝ) else 0) + ∑ e, if d e = n ∧ s e = m then (1 : ℝ) else 0) * y m
      = y n + ∑ e, if d e = n then y (s e) else 0 := by
  simp_rw [add_mul]
  rw [Finset.sum_add_distrib]
  congr 1
  · simp
  · rw [scatter_contract d s (fun _ => (1 : ℝ)) y n]
    refine Finset.sum_congr rfl fun e _ => ?_
    rw [one_mul]

end RealIdentities

/-! ## Real values of the pieces -/

section Pieces
variable (st : Fin 256 → Fin 128 → EReal) (W1 : Fin 128 → Fin 512 → EReal) (b1 : Fin 512 → EReal)
  (s d : Fin 2048 → Fin 128)

/-- The edge count is the coercion of the real edge count. -/
theorem cnt_coe (n m : Fin 128) :
    cnt s d n m = ((∑ e, if d e = n ∧ s e = m then (1 : ℝ) else 0 : ℝ) : EReal) := by
  unfold cnt
  rw [coe_sum]
  refine Finset.sum_congr rfl fun e _ => ?_
  rw [coe_ite_zero, EReal.coe_one]

/-- An entry of `M` is the coercion of the real entry. -/
theorem adjM_coe (n m : Fin 128) :
    adjM s d n m
      = (((if n = m then (1 : ℝ) else 0) + ∑ e, if d e = n ∧ s e = m then (1 : ℝ) else 0 : ℝ) : EReal) := by
  unfold adjM
  rw [cnt_coe, EReal.coe_add, coe_ite_zero, EReal.coe_one]

/-- The row sum of `M` is `1 + indegree`. -/
theorem deg_coe (n : Fin 128) :
    deg s d n = ((1 + ∑ e, if d e = n then (1 : ℝ) else 0 : ℝ) : EReal) := by
  unfold deg
  rw [← rowsum_real s d n, coe_sum]
  exact Finset.sum_congr rfl fun m _ => adjM_coe s d n m

/-- max(x, 0) of a real is a real. -/
theorem relu_real {x : EReal} (hx : ∃ r : ℝ, x = r) : ∃ r : ℝ, relu x = r := by
  unfold relu
  rcases max_choice x 0 with h | h
  · rw [h]; exact hx
  · rw [h]; exact ⟨0, rfl⟩

end Pieces

/-! ## The two arrangements agree -/

theorem Kout_eq_Rout (T : EReal → EReal)
    (st : Fin 256 → Fin 128 → EReal) (W1 : Fin 128 → Fin 512 → EReal) (b1 : Fin 512 → EReal)
    (W2 : Fin 512 → Fin 512 → EReal) (b2 : Fin 512 → EReal) (Wo : Fin 65536 → Fin 32 → EReal) (bo : Fin 32 → EReal)
    (s d : Fin 2048 → Fin 128)
    (hst : ∀ b f, ∃ r : ℝ, st b f = r) (hW1 : ∀ f h, ∃ r : ℝ, W1 f h = r) (hb1 : ∀ h, ∃ r : ℝ, b1 h = r)
    (b : Fin 256) (o : Fin 32) :
    Kout T st W1 b1 W2 b2 Wo bo s d b o = Rout T st W1 b1 W2 b2 Wo bo s d b o := by
  choose x hx using hst
  choose w hw using hW1
  choose c hc using hb1
  -- the aggregated input of the first layer, as a real
  have hra1 : ∀ (b : Fin 256) (n f : Fin 128),
      ra1 st d b n f = ((x b f + ∑ e, if d e = n then x b f else 0 : ℝ) : EReal) := by
    intro b n f
    unfold ra1
    rw [EReal.coe_add, coe_sum, hx]
    refine congrArg (HAdd.hAdd _) ?_
    refine Finset.sum_congr rfl fun e _ => ?_
    rw [coe_ite_zero]
  -- first layer: before the bias the two arrangements agree
  have hpre1 : ∀ (b : Fin 256) (n : Fin 128) (h : Fin 512),
      deg s d n * ks1 st W1 b h = ∑ f, ra1 st d b n f * W1 f h := by
    intro b n h
    have hks : ks1 st W1 b h = ((∑ f, x b f * w f h : ℝ) : EReal) := by
      unfold ks1
      rw [coe_sum]
      refine Finset.sum_congr rfl fun f _ => ?_
      rw [hx, hw, EReal.coe_mul]
    rw [deg_coe, hks, ← EReal.coe_mul, first_layer_real d n (x b) (fun f => w f h), coe_sum]
    refine Finset.sum_congr rfl fun f _ => ?_
    rw [hra1, hw, EReal.coe_mul]
  have h1 : ∀ (b : Fin 256) (n : Fin 128) (h : Fin 512),
      kh1 st W1 b1 s d b n h = rr1 st W1 b1 d b n h := by
    intro b n h
    unfold kh1 rr1
    rw [hpre1]
  -- the first layer's result is real
  have hrr1 : ∀ (b : Fin 256) (n : Fin 128) (h : Fin 512), ∃ r : ℝ, rr1 st W1 b1 d b n h = r := by
    intro b n h
    unfold rr1
    refine relu_real (exists_real_add (exists_real_sum _ _ fun f _ => ?_) ⟨c h, hc h⟩)
    exact exists_real_mul ⟨_, hra1 b n f⟩ ⟨_, hw f h⟩
  choose y hy using hrr1
  -- second layer: M times the first layer is the edge-by-edge aggregation
  have h2 : ∀ (b : Fin 256) (n : Fin 128) (h : Fin 512),
      kc2 st W1 b1 s d b n h = ra2 st W1 b1 s d b n h := by
    intro b n h
    unfold kc2 ra2
    have hl : ∑ m, adjM s d n m * kh1 st W1 b1 s d b m h
        = ((∑ m, ((if n = m then (1 : ℝ) else 0) + ∑ e, if d e = n ∧ s e = m then (1 : ℝ) else 0) * y b m h : ℝ) : EReal) := by
      rw [coe_sum]
      refine Finset.sum_congr rfl fun m _ => ?_
      rw [adjM_coe, h1, hy, EReal.coe_mul]
    rw [hl, second_layer_real s d n (fun m => y b m h), EReal.coe_add, coe_sum, hy]
    refine congrArg (HAdd.hAdd _) ?_
    refine Finset.sum_congr rfl fun e _ => ?_
    rw [coe_ite_zero, hy]
  have h3 : ∀ (b : Fin 256) (n : Fin 128) (h' : Fin 512),
      kh2 st W1 b1 W2 b2 s d b n h' = rr2 st W1 b1 W2 b2 s d b n h' := by
    intro b n h'
    unfold kh2 rr2
    simp only [h2]
  unfold Kout Rout
  simp only [h3]

end GcnSpec

end
-- ==== Proof.PreDecode.lean ====
/-
  What the precondition says of the launch memory: every entry of the float arguments the first layer multiplies is a real
  number, and every entry of the edge list is a node number (0 ≤ · < 128).
-/
import proofs.«411370_j2680059593261_3_alg».proof.Proof.Gen.Pre_finite_inputs
import proofs.«411370_j2680059593261_3_alg».proof.Defs
import Idealize.ShloMosaic.Lib.ReduceAll
import Idealize.ShloMosaic.Lib.StableHlo.Predicate
import Idealize.ShloMosaic.Lib.ValueIdx
set_option maxRecDepth 16384

noncomputable section

namespace Cert.PreDecode

open Idealize.ShloMosaic Idealize.ShloMosaic.ValueIdx Idealize.SL.Sem
open Cert.KernelIdeal

/-- The scalar shape has one index. -/
local instance subsingleton_scalar_idx : Subsingleton Cert.Pre_finite_inputs.S_.Idx := ⟨fun a b => funext fun d => d.elim0⟩

/-- An extended real whose absolute value max x (-x) lies strictly below the bit pattern of +∞ is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => exact absurd h (by simp [Ideal.cmp])
  | top => exact absurd h (by simp [Ideal.cmp])
  | coe r => exact ⟨r, rfl⟩

/-- A 32-bit word that tests ≥ 0 and < 128 signed has its signed value in [0, 128). -/
theorem word_range (w : BitVec 32) (h0 : IntOp.cmpi .sge w 0#32 = 1#1) (h1 : IntOp.cmpi .slt w 128#32 = 1#1) :
    0 ≤ w.toInt ∧ w.toInt < 128 := by
  have a := IntOp.cmpi_sge.1 h0
  have b := IntOp.cmpi_slt.1 h1
  rw [show (0#32 : BitVec 32).toInt = 0 from by decide] at a
  rw [show (128#32 : BitVec 32).toInt = 128 from by decide] at b
  exact ⟨a, b⟩

section Reads
variable {s : Shape} {axes : List (Fin s.rank)}

/-- The conjunct all(|x| < +∞): when the and-reduction over all axes of the elementwise test is 1, every entry is a real number. -/
theorem all_real (x : FVec Ideal s .f32) (hb : Cert.Pre_finite_inputs.S_.BroadcastsInDim s (![] : Fin 0 → Fin s.rank))
    (hr : s.ReducesTo axes Cert.Pre_finite_inputs.S_) (h0 : 0 < Cert.Pre_finite_inputs.S_.numel)
    (e : Host.reduce IntOp.andi
          (cmpf .olt (Host.absf x) (broadcastInDim s ![] hb (constant (F := Ideal) Cert.Pre_finite_inputs.S_ .f32 0x7F800000#32)))
          (constantI Cert.Pre_finite_inputs.S_ 1 1#1) hr h0 ix0 = 1#1) :
    ∀ j, ∃ r : ℝ, x j = (r : EReal) := fun j =>
  real_of_abs_lt_inf (x j) (Host.reduce_andi_all _ _ hr h0 ix0 e j)

/-- The conjuncts all(x ≥ 0) and all(x < 128) on an array of 32-bit words: every entry, read signed, lies in [0, 128). -/
theorem all_range (x : IVec s 32) (hb : Cert.Pre_finite_inputs.S_.BroadcastsInDim s (![] : Fin 0 → Fin s.rank))
    (hr : s.ReducesTo axes Cert.Pre_finite_inputs.S_) (h0 : 0 < Cert.Pre_finite_inputs.S_.numel)
    (e0 : Host.reduce IntOp.andi
          (cmpi .sge x (broadcastInDim s ![] hb (constantI Cert.Pre_finite_inputs.S_ 32 0#32)))
          (constantI Cert.Pre_finite_inputs.S_ 1 1#1) hr h0 ix0 = 1#1)
    (e1 : Host.reduce IntOp.andi
          (cmpi .slt x (broadcastInDim s ![] hb (constantI Cert.Pre_finite_inputs.S_ 32 128#32)))
          (constantI Cert.Pre_finite_inputs.S_ 1 1#1) hr h0 ix0 = 1#1) :
    ∀ j, 0 ≤ (x j).toInt ∧ (x j).toInt < 128 := fun j =>
  word_range (x j) (Host.reduce_andi_all _ _ hr h0 ix0 e0 j) (Host.reduce_andi_all _ _ hr h0 ix0 e1 j)

end Reads

/-- The printed predicate read back: its conjuncts on the first layer's float arguments and on the edge list. -/
theorem fn_decode [Cert.Pre_finite_inputs.Facts]
    (a0 : FVec Ideal Cert.Pre_finite_inputs.S256x128 .f32) (a1 : IVec Cert.Pre_finite_inputs.S2x2048 32)
    (a2 : FVec Ideal Cert.Pre_finite_inputs.S128x512 .f32) (a3 : FVec Ideal Cert.Pre_finite_inputs.S512 .f32)
    (a4 : FVec Ideal Cert.Pre_finite_inputs.S512x512 .f32) (a5 : FVec Ideal Cert.Pre_finite_inputs.S512 .f32)
    (a6 : FVec Ideal Cert.Pre_finite_inputs.S65536x32 .f32) (a7 : FVec Ideal Cert.Pre_finite_inputs.S32 .f32)
    (h : Cert.Pre_finite_inputs.fn (F := Ideal) a0 a1 a2 a3 a4 a5 a6 a7 ix0 = 1#1) :
    (∀ j, ∃ r : ℝ, a0 j = (r : EReal)) ∧ (∀ j, ∃ r : ℝ, a2 j = (r : EReal)) ∧ (∀ j, ∃ r : ℝ, a3 j = (r : EReal))
    ∧ ∀ j, 0 ≤ (a1 j).toInt ∧ (a1 j).toInt < 128 := by
  dsimp only [Cert.Pre_finite_inputs.fn, Cert.Pre_finite_inputs.fn_part1, Cert.Pre_finite_inputs.fn_part2] at h
  obtain ⟨h37, h40⟩ := IntOp.andi_eq_one.1 h
  obtain ⟨h33, h36⟩ := IntOp.andi_eq_one.1 h37
  obtain ⟨h28, -⟩ := IntOp.andi_eq_one.1 h33
  obtain ⟨h23, -⟩ := IntOp.andi_eq_one.1 h28
  obtain ⟨h18, -⟩ := IntOp.andi_eq_one.1 h23
  obtain ⟨h13, -⟩ := IntOp.andi_eq_one.1 h18
  obtain ⟨h8, h12⟩ := IntOp.andi_eq_one.1 h13
  obtain ⟨h3, h7⟩ := IntOp.andi_eq_one.1 h8
  exact ⟨all_real a0 _ _ _ h3, all_real a2 _ _ _ h7, all_real a3 _ _ _ h12, all_range a1 _ _ _ h36 h40⟩

theorem decode [Cert.Pre_finite_inputs.Facts] (m : (ℓ : Loc nD τ sig) → Buf (Elt Ideal) ℓ) (hpre : Cert.Pre_KernelIdeal m) (c : Dev nD) :
    (∀ j, ∃ r : ℝ, (m ((c.tc : Thread nD τ).loc main_arg0) : S256x128.Idx → EReal) j = (r : EReal))
    ∧ (∀ j, ∃ r : ℝ, (m ((c.tc : Thread nD τ).loc main_arg2) : S128x512.Idx → EReal) j = (r : EReal))
    ∧ (∀ j, ∃ r : ℝ, (m ((c.tc : Thread nD τ).loc main_arg3) : S512.Idx → EReal) j = (r : EReal))
    ∧ ∃ s d : Fin 2048 → Fin 128,
        (∀ e : Fin 2048, ((m ((c.tc : Thread nD τ).loc main_arg1) : IVec S2x2048 32) (ix2 (0 : Fin 2) e)).toInt = ((s e).val : ℤ))
        ∧ (∀ e : Fin 2048, ((m ((c.tc : Thread nD τ).loc main_arg1) : IVec S2x2048 32) (ix2 (1 : Fin 2) e)).toInt = ((d e).val : ℤ)) := by
  obtain ⟨f0, f2, f3, hi⟩ := fn_decode _ _ _ _ _ _ _ _ (congrFun (hpre c) ix0)
  refine ⟨f0, f2, f3, ?_⟩
  -- a word in [0, 128) signed is the node number toNat of its signed value
  have node : ∀ j : S2x2048.Idx, ∃ k : Fin 128,
      ((m ((c.tc : Thread nD τ).loc main_arg1) : IVec S2x2048 32) j).toInt = ((k.val : ℕ) : ℤ) := fun j =>
    ⟨⟨((m ((c.tc : Thread nD τ).loc main_arg1) : IVec S2x2048 32) j).toInt.toNat, by have := hi j; omega⟩,
      (Int.toNat_of_nonneg (hi j).1).symm⟩
  exact ⟨fun e => (node (ix2 (0 : Fin 2) e)).choose, fun e => (node (ix2 (1 : Fin 2) e)).choose,
    fun e => (node (ix2 (0 : Fin 2) e)).choose_spec, fun e => (node (ix2 (1 : Fin 2) e)).choose_spec⟩

end Cert.PreDecode

end
-- ==== Proof.lean ====
/-
  Equivalence over the extended reals of a two-layer graph-convolution network with a tanh head, computed by two pallas_calls
  (the two graph layers batch tile by batch tile; the head's contraction accumulated over eight blocks), against the plain
  edge-by-edge formulation.

  The precondition says every float input is finite and every entry of the edge list is a node number (0 ≤ · < 128). Under it:
  * each program runs to the end from any memory, faults nowhere, and leaves its arguments as launched (the kernel program at
    the word level and at the exact-arithmetic values by the run of its two calls; the reference by its run);
  * no rewrite separates the kernel program from its exact-arithmetic reading;
  * at the exact-arithmetic values the kernel program's result is `GcnSpec.Kout` of the arguments (the network through the
    matrix M = I + edge counts) and the reference's is `GcnSpec.Rout` (edge by edge); on real inputs the two agree, because the
    rows of M sum to 1 + in-degree and M times a real matrix adds to each node the rows of its in-neighbours.
-/
import proofs.«411370_j2680059593261_3_alg».proof.Defs
import proofs.«411370_j2680059593261_3_alg».proof.Proof.Gen.Kernel
import proofs.«411370_j2680059593261_3_alg».proof.Proof.Gen.KernelIdeal
import proofs.«411370_j2680059593261_3_alg».proof.Proof.Gen.ReferenceIdeal
import proofs.«411370_j2680059593261_3_alg».proof.Proof.Gen.Pre_finite_inputs
import proofs.«411370_j2680059593261_3_alg».proof.Proof.Gen.ReferenceIdeal.Run
import proofs.«411370_j2680059593261_3_alg».proof.Proof.Gen.ReferenceIdeal.Read
import proofs.«411370_j2680059593261_3_alg».proof.Proof.WRun
import proofs.«411370_j2680059593261_3_alg».proof.Proof.KRun
import proofs.«411370_j2680059593261_3_alg».proof.Proof.KHost
import proofs.«411370_j2680059593261_3_alg».proof.Proof.RVal
import proofs.«411370_j2680059593261_3_alg».proof.Proof.Bridge
import proofs.«411370_j2680059593261_3_alg».proof.Proof.PreDecode
import Idealize.ShloMosaic.Adequacy
import Idealize.ShloMosaic.Init

noncomputable section

namespace Cert.Proof

open Idealize.ShloMosaic Idealize.ShloMosaic.ValueIdx Idealize.SL.Sem

/-- The word-level kernel program runs and keeps its arguments. -/
theorem frame_p : Cert.frame_Kernel := fun m ρ _ =>
  (θ_run Cert.Kernel.defs _ _).mono (fun _ h c => (h c).2) (Cert.Kernel.Hand.run_main (F := Bits) m ρ)

/-- The kernel program at the exact-arithmetic values runs and keeps its arguments. -/
theorem frame_pi : Cert.frame_KernelIdeal := fun m ρ _ =>
  (θ_run Cert.KernelIdeal.defs _ _).mono (fun _ h c => (h c).2) (Cert.KernelIdeal.Hand.run_main (F := Ideal) m ρ)

/-- The reference runs and keeps its arguments. -/
theorem frame_ri : Cert.frame_ReferenceIdeal := fun m ρ _ =>
  (θ_run Cert.ReferenceIdeal.defs _ _).mono (fun _ h c => (h c).2) (Cert.ReferenceIdeal.Value.run (F := Ideal) m ρ)

/-- The exact-arithmetic reading rewrote nothing. -/
theorem preserves : Cert.preserves_Kernel_KernelIdeal := trivial

/-- The two results agree: the kernel program's is `Kout`, the reference's `Rout`, of arguments that agree, are real where the
    first layer multiplies them, and carry an in-range edge list. -/
theorem algebraic : Cert.algebraic_KernelIdeal_ReferenceIdeal := by
  intro m ρ m' ρ' hpre hagree
  refine ⟨fun c => (Cert.KernelIdeal.Hand.dat1 (F := Ideal) (Cert.KernelIdeal.Hand.VE1 m) c).arrAt 3 Cert.KernelIdeal.cfg1.N,
    Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h2, h3, s, d, hs, hd⟩ := Cert.PreDecode.decode m hpre c
  rw [Cert.ReferenceIdeal.Read.val_main_v45_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  funext j
  obtain ⟨b, o, rfl⟩ : ∃ (b : Fin 256) (o : Fin 32), j = ix2 b o := ⟨j 0, j 1, eq_ix2 j⟩
  refine (Cert.ReferenceIdeal.RefVal.reference_value _ _ _ _ _ _ _ _ s d hs hd b o).trans ?_
  refine Eq.trans ?_ (Cert.KernelIdeal.Val.kernel_value m c s d hs hd b o).symm
  exact (GcnSpec.Kout_eq_Rout Ideal.tanh _ _ _ _ _ _ _ s d (fun b f => h0 _) (fun f h => h2 _) (fun h => h3 _) b o).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
